-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256 : Shape := ⟨2, ![16, 256]⟩
abbrev S10000x128 : Shape := ⟨2, ![10000, 128]⟩
abbrev S10016x10016 : Shape := ⟨2, ![10016, 10016]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10016x10016 : S_.BroadcastsInDim S10016x10016 (![] : Fin 0 → Fin S10016x10016.rank)
  reducesTo_S10016x10016_S_d0_1 : S10016x10016.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S32 .f32) (main_arg8 : FVec F S32x16 .f32) (main_arg9 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg8
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S256x128 .f32) (main_arg5 : FVec F S128 .f32) (main_arg6 : FVec F S128x32 .f32) (main_arg7 : FVec F S32 .f32) (main_arg8 : FVec F S32x16 .f32) (main_arg9 : FVec F S16 .f32) (main_v13 : IVec S_ 1) (main_v16 : IVec S10016x10016 1) : IVec S_ 1 :=
  let main_c_5 : IVec S_ 1 := constantI S_ 1 1#1
  let main_v17 : IVec S_ 1 := (fun x v => Host.reduce IntOp.andi x v reducesTo_S10016x10016_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x256 .f32) (main_arg1 : FVec F S10000x128 .f32) (main_arg2 : FVec F S10016x10016 .f32) (main_arg3 : FVec F S10016x10016 .f32) (main_arg4 : FVec F S256x128 .f32) (main_arg5 : FVec F S128 .f32) (main_arg6 : FVec F S128x32 .f32) (main_arg7 : FVec F S32 .f32) (main_arg8 : FVec F S32x16 .f32) (main_arg9 : FVec F S16 .f32) : IVec S_ 1 :=
  let main_v0 : FVec F S16x256 .f32 := Host.absf main_arg0
  let main_cst : FVec F S_ .f32 := constant S_ .f32 0x7F800000#32
  let main_v1 : FVec F S16x256 .f32 := broadcastInDim S16x256 ![] bcast_S_S16x256 main_cst
  let main_v2 : IVec S16x256 1 := cmpf .olt main_v0 main_v1
  let main_c : IVec S_ 1 := constantI S_ 1 1#1
  let main_v3 : IVec S_ 1 := (fun x v => Host.reduce IntOp.andi x v reducesTo_S16x256_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10016x10016 .f32 := Host.absf main_arg2
  let main_cst_2 : FVec F S_ .f32 := constant S_ .f32 0x7F800000#32
  let main_v10 : FVec F S10016x10016 .f32 := broadcastInDim S10016x10016 ![] bcast_S_S10016x10016 main_cst_2
  let main_v11 : IVec S10016x10016 1 := cmpf .olt main_v9 main_v10
  let main_c_3 : IVec S_ 1 := constantI S_ 1 1#1
  let main_v12 : IVec S_ 1 := (fun x v => Host.reduce IntOp.andi x v reducesTo_S10016x10016_S_d0_1 h_S_) main_v11 main_c_3
  let main_v13 : IVec S_ 1 := andi main_v8 main_v12
  let main_v14 : FVec F S10016x10016 .f32 := Host.absf main_arg3
  let main_cst_4 : FVec F S_ .f32 := constant S_ .f32 0x7F800000#32
  let main_v15 : FVec F S10016x10016 .f32 := broadcastInDim S10016x10016 ![] bcast_S_S10016x10016 main_cst_4
  let main_v16 : IVec S10016x10016 1 := cmpf .olt main_v14 main_v15
  fn_part1 (F := F) main_arg4 main_arg5 main_arg6 main_arg7 main_arg8 main_arg9 main_v13 main_v16
-- ==== Kernel.lean ====
abbrev S16x256 : Shape := ⟨2, ![16, 256]⟩
abbrev S10000x128 : Shape := ⟨2, ![10000, 128]⟩
abbrev S10016x10016 : Shape := ⟨2, ![10016, 10016]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x128 : Shape := ⟨2, ![1, 128]⟩
abbrev S1x32 : Shape := ⟨2, ![1, 32]⟩
abbrev S1x16 : Shape := ⟨2, ![1, 16]⟩
abbrev S10016x16 : Shape := ⟨2, ![10016, 16]⟩
abbrev S10016x32 : Shape := ⟨2, ![10016, 32]⟩
abbrev S256x10016 : Shape := ⟨2, ![256, 10016]⟩
abbrev S256x16 : Shape := ⟨2, ![256, 16]⟩
abbrev S256x32 : Shape := ⟨2, ![256, 32]⟩
abbrev S10240x16 : Shape := ⟨2, ![10240, 16]⟩
abbrev S16x128 : Shape := ⟨2, ![16, 128]⟩
abbrev S10016x128 : Shape := ⟨2, ![10016, 128]⟩

abbrev nBuf : Space → Nat
  | .hbm => 15
  | .vmem => 18
  | .smem => 0
  | _ => 0

abbrev bufTy : (tb : Table) → Fin (tcTables nBuf tb) → BufTy
  | .hbm, ⟨0, _⟩ => ⟨S16x256, .f32⟩
  | .hbm, ⟨1, _⟩ => ⟨S10000x128, .f32⟩
  | .hbm, ⟨2, _⟩ => ⟨S10016x10016, .f32⟩
  | .hbm, ⟨3, _⟩ => ⟨S10016x10016, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S1x128, .f32⟩
  | .hbm, ⟨11, _⟩ => ⟨S1x32, .f32⟩
  | .hbm, ⟨12, _⟩ => ⟨S1x16, .f32⟩
  | .hbm, ⟨13, _⟩ => ⟨S10016x16, .f32⟩
  | .hbm, ⟨14, _⟩ => ⟨S10016x32, .f32⟩
  | .local _ .vmem, ⟨0, _⟩ => ⟨S256x10016, .f32⟩
  | .local _ .vmem, ⟨1, _⟩ => ⟨S256x10016, .f32⟩
  | .local _ .vmem, ⟨2, _⟩ => ⟨S256x10016, .f32⟩
  | .local _ .vmem, ⟨3, _⟩ => ⟨S256x10016, .f32⟩
  | .local _ .vmem, ⟨4, _⟩ => ⟨S10000x128, .f32⟩
  | .local _ .vmem, ⟨5, _⟩ => ⟨S16x256, .f32⟩
  | .local _ .vmem, ⟨6, _⟩ => ⟨S256x128, .f32⟩
  | .local _ .vmem, ⟨7, _⟩ => ⟨S1x128, .f32⟩
  | .local _ .vmem, ⟨8, _⟩ => ⟨S128x32, .f32⟩
  | .local _ .vmem, ⟨9, _⟩ => ⟨S1x32, .f32⟩
  | .local _ .vmem, ⟨10, _⟩ => ⟨S32x16, .f32⟩
  | .local _ .vmem, ⟨11, _⟩ => ⟨S1x16, .f32⟩
  | .local _ .vmem, ⟨12, _⟩ => ⟨S256x16, .f32⟩
  | .local _ .vmem, ⟨13, _⟩ => ⟨S256x16, .f32⟩
  | .local _ .vmem, ⟨14, _⟩ => ⟨S256x32, .f32⟩
  | .local _ .vmem, ⟨15, _⟩ => ⟨S256x32, .f32⟩
  | .local _ .vmem, ⟨16, _⟩ => ⟨S10016x32, .f32⟩
  | .local _ .vmem, ⟨17, _⟩ => ⟨S10240x16, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c40_i32 : BitVec 32 := 40#32
  let v3 : BitVec 1 := Scalar.cmpi .slt arg0 c40_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c256_i32 : BitVec 32 := 256#32
  let v21 : BitVec 32 := Scalar.muli arg0 c256_i32
  let v22 : Index := Scalar.indexCast v21
  let c0_15 : Index := 0#32
  ![v22.toNat, 0]
def k0_cond3 (i : grid0.Coords) : BitVec 1 :=
  let arg0 : BitVec 32 := BitVec.ofNat 32 (i 0).val
  let c40_i32_2 : BitVec 32 := 40#32
  let v6 : BitVec 1 := Scalar.cmpi .sge arg0 c40_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.subi arg0 c40_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c40_i32 : BitVec 32 := 40#32
  let v0 : BitVec 32 := Scalar.subi arg0 c40_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let c0_i32_0 : BitVec 32 := 0#32
  ![v0.toNat, c0_i32.toNat]

abbrev stage0_0 : Fin 2 → Memref sig .tc .vmem S256x10016 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  shapeCasts_S32_S1x32 : S32.ShapeCasts S1x32
  shapeCasts_S16_S1x16 : S16.ShapeCasts S1x16
  inb_S16x256_S16x256_0_0 : ∀ a, (![0, 0] : Fin 2 → Nat) a + S16x256.size a ≤ S16x256.size a
  h_S16x256 : 0 < S16x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  inb_S10000x128_S10000x128_0_0 : ∀ a, (![0, 0] : Fin 2 → Nat) a + S10000x128.size a ≤ S10000x128.size a
  h_S10000x128 : 0 < S10000x128.numel
  concatenates_S10000x128_S16x128_S10016x128_d0 : Shape.Concatenates [S10000x128, S16x128] S10016x128 0
  inb_S128x32_S128x32_0_0 : ∀ a, (![0, 0] : Fin 2 → Nat) a + S128x32.size a ≤ S128x32.size a
  h_S128x32 : 0 < S128x32.numel
  inb_S10016x32_S10016x32_0_0 : ∀ a, (![0, 0] : Fin 2 → Nat) a + S10016x32.size a ≤ S10016x32.size a
  h_S10016x32 : 0 < S10016x32.numel
  shapeCasts_S10016x32_S10016x32 : S10016x32.ShapeCasts S10016x32
  inb_S256x10016_S256x10016_0_0 : ∀ a, (![0, 0] : Fin 2 → Nat) a + S256x10016.size a ≤ S256x10016.size a
  h_S256x10016 : 0 < S256x10016.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  inb_S32x16_S32x16_0_0 : ∀ a, (![0, 0] : Fin 2 → Nat) a + S32x16.size a ≤ S32x16.size a
  h_S32x16 : 0 < S32x16.numel
  h_S256x16 : 0 < S256x16.numel
  shapeCasts_S256x16_S256x16 : S256x16.ShapeCasts S256x16
  inb_S10240x16_S10016x16_0_0 : ∀ a, (![0, 0] : Fin 2 → Nat) a + S10016x16.size a ≤ S10240x16.size a
  h_S10016x16 : 0 < S10016x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  dot_S16x256_S256x128_S16x128_1_0_0_1_n_n_wf : DotDims.WF S16x256 S256x128 S16x128 [1] [0] [0] [1] [] []
  dot_S10016x128_S128x32_S10016x32_1_0_0_1_n_n_wf : DotDims.WF S10016x128 S128x32 S10016x32 [1] [0] [0] [1] [] []
  dot_S256x10016_S10016x32_S256x32_1_0_0_1_n_n_wf : DotDims.WF S256x10016 S10016x32 S256x32 [1] [0] [0] [1] [] []
  dot_S256x32_S32x16_S256x16_1_0_0_1_n_n_wf : DotDims.WF S256x32 S32x16 S256x16 [1] [0] [0] [1] [] []
  dot_S256x10016_S10016x16_S256x16_1_0_0_1_n_n_wf : DotDims.WF S256x10016 S10016x16 S256x16 [1] [0] [0] [1] [] []
  hrank0 : 0 < grid0.rank
  k0_off1_inb : ∀ i : grid0.Coords, ∀ (k0_h2 : k0_cond2 i = 1#1), ∀ a, (k0_off1 i) a + S256x16.size a ≤ S10240x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x10016.size a < S10016x10016.size a
  hwx0_0 : ∀ i : grid0.Coords, EltTy.bits .f32 = 32 ∨ (Rect.unit (s := S10016x10016) (fun a => cc0_transform_0 i a * S256x10016.size a) (fun a => (Pipeline.Clip.of (cc0_transform_0 i a) (S256x10016.size a) (S10016x10016.size a)).extent (S256x10016.size a)) fun a => Pipeline.Clip.inb (Pipeline.Clip.ok_of (hstart0_0 i a))).WholeWords (EltTy.packing .f32)
  hwxs0_0 : ∀ i : grid0.Coords, EltTy.bits .f32 = 32 ∨ (Rect.unit (s := S256x10016) (fun _ => 0) (fun a => (Pipeline.Clip.of (cc0_transform_0 i a) (S256x10016.size a) (S10016x10016.size a)).extent (S256x10016.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x10016.size a < S10016x10016.size a
  hwx0_1 : ∀ i : grid0.Coords, EltTy.bits .f32 = 32 ∨ (Rect.unit (s := S10016x10016) (fun a => cc0_transform_1 i a * S256x10016.size a) (fun a => (Pipeline.Clip.of (cc0_transform_1 i a) (S256x10016.size a) (S10016x10016.size a)).extent (S256x10016.size a)) fun a => Pipeline.Clip.inb (Pipeline.Clip.ok_of (hstart0_1 i a))).WholeWords (EltTy.packing .f32)
  hwxs0_1 : ∀ i : grid0.Coords, EltTy.bits .f32 = 32 ∨ (Rect.unit (s := S256x10016) (fun _ => 0) (fun a => (Pipeline.Clip.of (cc0_transform_1 i a) (S256x10016.size a) (S10016x10016.size a)).extent (S256x10016.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x16.size a ≤ S32x16.size a
  hwx0_8 : ∀ i : grid0.Coords, EltTy.bits .f32 = 32 ∨ (Rect.block (s := S32x16) S32x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S256x16.size a < S10016x16.size a
  hwx0_10 : ∀ i : grid0.Coords, EltTy.bits .f32 = 32 ∨ (Rect.unit (s := S10016x16) (fun a => cc0_transform_10 i a * S256x16.size a) (fun a => (Pipeline.Clip.of (cc0_transform_10 i a) (S256x16.size a) (S10016x16.size a)).extent (S256x16.size a)) fun a => Pipeline.Clip.inb (Pipeline.Clip.ok_of (hstart0_10 i a))).WholeWords (EltTy.packing .f32)
  hwxs0_10 : ∀ i : grid0.Coords, EltTy.bits .f32 = 32 ∨ (Rect.unit (s := S256x16) (fun _ => 0) (fun a => (Pipeline.Clip.of (cc0_transform_10 i a) (S256x16.size a) (S10016x16.size a)).extent (S256x16.size a)) fun a => (Nat.zero_add _).trans_le (Pipeline.Clip.extent_le (Pipeline.Clip.ok_of (hstart0_10 i a)))).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hstart0_11 : ∀ (i : grid0.Coords) a, cc0_transform_11 i a * S256x32.size a < S10016x32.size a
  hwx0_11 : ∀ i : grid0.Coords, EltTy.bits .f32 = 32 ∨ (Rect.unit (s := S10016x32) (fun a => cc0_transform_11 i a * S256x32.size a) (fun a => (Pipeline.Clip.of (cc0_transform_11 i a) (S256x32.size a) (S10016x32.size a)).extent (S256x32.size a)) fun a => Pipeline.Clip.inb (Pipeline.Clip.ok_of (hstart0_11 i a))).WholeWords (EltTy.packing .f32)
  hwxs0_11 : ∀ i : grid0.Coords, EltTy.bits .f32 = 32 ∨ (Rect.unit (s := S256x32) (fun _ => 0) (fun a => (Pipeline.Clip.of (cc0_transform_11 i a) (S256x32.size a) (S10016x32.size a)).extent (S256x32.size a)) fun a => (Nat.zero_add _).trans_le (Pipeline.Clip.extent_le (Pipeline.Clip.ok_of (hstart0_11 i a)))).WholeWords (EltTy.packing .f32)

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S10016x128_S128x32_S10016x32_1_0_0_1_n_n : DotDims S10016x128 S128x32 S10016x32 where
  lhsContracting := [1]
  rhsContracting := [0]
  lhsNonContracting := [0]
  rhsNonContracting := [1]
  lhsBatch := []
  rhsBatch := []
  wf := dot_S10016x128_S128x32_S10016x32_1_0_0_1_n_n_wf
def dot_S256x10016_S10016x32_S256x32_1_0_0_1_n_n : DotDims S256x10016 S10016x32 S256x32 where
  lhsContracting := [1]
  rhsContracting := [0]
  lhsNonContracting := [0]
  rhsNonContracting := [1]
  lhsBatch := []
  rhsBatch := []
  wf := dot_S256x10016_S10016x32_S256x32_1_0_0_1_n_n_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x10016_S10016x16_S256x16_1_0_0_1_n_n : DotDims S256x10016 S10016x16 S256x16 where
  lhsContracting := [1]
  rhsContracting := [0]
  lhsNonContracting := [0]
  rhsNonContracting := [1]
  lhsBatch := []
  rhsBatch := []
  wf := dot_S256x10016_S10016x16_S256x16_1_0_0_1_n_n_wf

abbrev win0_0 : Pipeline.Window sig grid0 :=
  Pipeline.Window.ofSpecClip (Memref.whole main_arg2) S256x10016.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S256x10016.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg1) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpecClip (Memref.whole main_v3_0) S256x16.size cc0_transform_10 reads0_10 true false 2 stage0_10 sem0_10
    hrank0 hreads0_10 hstart0_10 nbuf0_10 (Memref.isWhole_whole _) hwx0_10 hwxs0_10 hstage0_10

abbrev win0_11 : Pipeline.Window sig grid0 :=
  Pipeline.Window.ofSpecClip (Memref.whole main_v3_1) S256x32.size cc0_transform_11 reads0_11 true false 2 stage0_11 sem0_11
    hrank0 hreads0_11 hstart0_11 nbuf0_11 (Memref.isWhole_whole _) hwx0_11 hwxs0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond3 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S16x256 : Shape := ⟨2, ![16, 256]⟩
abbrev S10000x128 : Shape := ⟨2, ![10000, 128]⟩
abbrev S10016x10016 : Shape := ⟨2, ![10016, 10016]⟩
abbrev S256x128 : Shape := ⟨2, ![256, 128]⟩
abbrev S128 : Shape := ⟨1, ![128]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x128 : Shape := ⟨2, ![16, 128]⟩
abbrev S1x128 : Shape := ⟨2, ![1, 128]⟩
abbrev S10016x128 : Shape := ⟨2, ![10016, 128]⟩
abbrev S10016x32 : Shape := ⟨2, ![10016, 32]⟩
abbrev S1x32 : Shape := ⟨2, ![1, 32]⟩
abbrev S_ : Shape := ⟨0, ![]⟩
abbrev S10016x16 : Shape := ⟨2, ![10016, 16]⟩
abbrev S1x16 : Shape := ⟨2, ![1, 16]⟩

abbrev nBuf : Space → Nat
  | .hbm => 36
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S10000x128, .f32⟩
  | .hbm, ⟨2, _⟩ => ⟨S10016x10016, .f32⟩
  | .hbm, ⟨3, _⟩ => ⟨S10016x10016, .f32⟩
  | .hbm, ⟨4, _⟩ => ⟨S256x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x128, .f32⟩
  | .hbm, ⟨11, _⟩ => ⟨S1x128, .f32⟩
  | .hbm, ⟨12, _⟩ => ⟨S16x128, .f32⟩
  | .hbm, ⟨13, _⟩ => ⟨S16x128, .f32⟩
  | .hbm, ⟨14, _⟩ => ⟨S10016x128, .f32⟩
  | .hbm, ⟨15, _⟩ => ⟨S10016x32, .f32⟩
  | .hbm, ⟨16, _⟩ => ⟨S10016x32, .f32⟩
  | .hbm, ⟨17, _⟩ => ⟨S1x32, .f32⟩
  | .hbm, ⟨18, _⟩ => ⟨S10016x32, .f32⟩
  | .hbm, ⟨19, _⟩ => ⟨S10016x32, .f32⟩
  | .hbm, ⟨20, _⟩ => ⟨S_, .f32⟩
  | .hbm, ⟨21, _⟩ => ⟨S10016x32, .f32⟩
  | .hbm, ⟨22, _⟩ => ⟨S10016x32, .f32⟩
  | .hbm, ⟨23, _⟩ => ⟨S10016x16, .f32⟩
  | .hbm, ⟨24, _⟩ => ⟨S10016x16, .f32⟩
  | .hbm, ⟨25, _⟩ => ⟨S1x16, .f32⟩
  | .hbm, ⟨26, _⟩ => ⟨S10016x16, .f32⟩
  | .hbm, ⟨27, _⟩ => ⟨S10016x16, .f32⟩
  | .hbm, ⟨28, _⟩ => ⟨S10016x16, .f32⟩
  | .hbm, ⟨29, _⟩ => ⟨S10016x16, .f32⟩
  | .hbm, ⟨30, _⟩ => ⟨S_, .f32⟩
  | .hbm, ⟨31, _⟩ => ⟨S10016x16, .f32⟩
  | .hbm, ⟨32, _⟩ => ⟨S10016x16, .f32⟩
  | .hbm, ⟨33, _⟩ => ⟨S_, .f32⟩
  | .hbm, ⟨34, _⟩ => ⟨S10016x16, .f32⟩
  | .hbm, ⟨35, _⟩ => ⟨S10016x16, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  concatenates_S10000x128_S16x128_S10016x128_d0 : Shape.Concatenates [S10000x128, S16x128] S10016x128 0
  bcast_S32_S1x32_1 : S32.BroadcastsInDim S1x32 (![1] : Fin 1 → Fin S1x32.rank)
  bcast_S1x32_S10016x32_0_1 : S1x32.BroadcastsInDim S10016x32 (![0, 1] : Fin 2 → Fin S10016x32.rank)
  bcast_S_S10016x32 : S_.BroadcastsInDim S10016x32 (![] : Fin 0 → Fin S10016x32.rank)
  bcast_S16_S1x16_1 : S16.BroadcastsInDim S1x16 (![1] : Fin 1 → Fin S1x16.rank)
  bcast_S1x16_S10016x16_0_1 : S1x16.BroadcastsInDim S10016x16 (![0, 1] : Fin 2 → Fin S10016x16.rank)
  bcast_S_S10016x16 : S_.BroadcastsInDim S10016x16 (![] : Fin 0 → Fin S10016x16.rank)
  dot_S16x256_S256x128_S16x128_1_0_0_1_n_n_wf : DotDims.WF S16x256 S256x128 S16x128 [1] [0] [0] [1] [] []
  dot_S10016x128_S128x32_S10016x32_1_0_0_1_n_n_wf : DotDims.WF S10016x128 S128x32 S10016x32 [1] [0] [0] [1] [] []
  dot_S10016x10016_S10016x32_S10016x32_1_0_0_1_n_n_wf : DotDims.WF S10016x10016 S10016x32 S10016x32 [1] [0] [0] [1] [] []
  dot_S10016x32_S32x16_S10016x16_1_0_0_1_n_n_wf : DotDims.WF S10016x32 S32x16 S10016x16 [1] [0] [0] [1] [] []
  dot_S10016x10016_S10016x16_S10016x16_1_0_0_1_n_n_wf : DotDims.WF S10016x10016 S10016x16 S10016x16 [1] [0] [0] [1] [] []

variable [Facts₀]

def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S10016x128_S128x32_S10016x32_1_0_0_1_n_n : DotDims S10016x128 S128x32 S10016x32 where
  lhsContracting := [1]
  rhsContracting := [0]
  lhsNonContracting := [0]
  rhsNonContracting := [1]
  lhsBatch := []
  rhsBatch := []
  wf := dot_S10016x128_S128x32_S10016x32_1_0_0_1_n_n_wf
def dot_S10016x10016_S10016x32_S10016x32_1_0_0_1_n_n : DotDims S10016x10016 S10016x32 S10016x32 where
  lhsContracting := [1]
  rhsContracting := [0]
  lhsNonContracting := [0]
  rhsNonContracting := [1]
  lhsBatch := []
  rhsBatch := []
  wf := dot_S10016x10016_S10016x32_S10016x32_1_0_0_1_n_n_wf
def dot_S10016x32_S32x16_S10016x16_1_0_0_1_n_n : DotDims S10016x32 S32x16 S10016x16 where
  lhsContracting := [1]
  rhsContracting := [0]
  lhsNonContracting := [0]
  rhsNonContracting := [1]
  lhsBatch := []
  rhsBatch := []
  wf := dot_S10016x32_S32x16_S10016x16_1_0_0_1_n_n_wf
def dot_S10016x10016_S10016x16_S10016x16_1_0_0_1_n_n : DotDims S10016x10016 S10016x16 S10016x16 where
  lhsContracting := [1]
  rhsContracting := [0]
  lhsNonContracting := [0]
  rhsNonContracting := [1]
  lhsBatch := []
  rhsBatch := []
  wf := dot_S10016x10016_S10016x16_S10016x16_1_0_0_1_n_n_wf

class Facts : Prop extends Facts₀ where

variable [Facts]
-- ==== Proof.BodyRunK.lean ====
import proofs.«166228_g84250078479001_cont_9to1c4b_852_4_alg».proof.Proof.Gen.Kernel.Launch
import proofs.«166228_g84250078479001_cont_9to1c4b_852_4_alg».proof.Proof.Gen.Kernel.Skeleton
import proofs.«166228_g84250078479001_cont_9to1c4b_852_4_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body at a point, on any staging memrefs

The body has three guarded parts. At the first grid point it builds the first layer's support in the
first scratch. At the points of the first half it multiplies the current row block of the first
adjacency matrix into that support, adds the bias, clamps at zero, stores the block of hidden
embeddings, and stores that block times the second weight matrix into the rows of the second scratch
that belong to the point. At the points of the second half it multiplies the current row block of the
second adjacency matrix into the first 10016 rows of the second scratch, adds the bias and applies the
logistic function. The three theorems below say what each buffer holds afterwards in each of the three
combinations of guards that the grid meets. -/

/-- The first guard, as the body computes it from the grid coordinate. -/
abbrev condFirst (i : grid0.Coords) : Prop :=
  (Scalar.cmpi .ne (Scalar.extui (Scalar.cmpi .eq (BitVec.ofNat 32 (i 0).val) 0#32)) 0#32) = 1#1

/-- The rows of the second scratch that the point `i` of the first half writes. -/
abbrev rowsAt (i : grid0.Coords) (h2 : k0_cond2 i = 1#1) : Rect S10240x16 :=
  Rect.unit (s := S10240x16) (k0_off1 i) S256x16.size (k0_off1_inb i h2)

/-- The first 10016 rows of the second scratch: what the second half reads. -/
abbrev rowsRead : Rect S10240x16 :=
  Rect.unit (s := S10240x16) ![0, 0] S10016x16.size inb_S10240x16_S10016x16_0_0

variable (c : Dev nD) (i : grid0.Coords)
  (arg1 : Memref sig .tc .vmem S256x10016 .f32) (harg1 : arg1.IsWhole) (arg2 : Memref sig .tc .vmem S256x10016 .f32) (harg2 : arg2.IsWhole)
  (arg3 : Memref sig .tc .vmem S10000x128 .f32) (harg3 : arg3.IsWhole) (arg4 : Memref sig .tc .vmem S16x256 .f32) (harg4 : arg4.IsWhole)
  (arg5 : Memref sig .tc .vmem S256x128 .f32) (harg5 : arg5.IsWhole) (arg6 : Memref sig .tc .vmem S1x128 .f32) (harg6 : arg6.IsWhole)
  (arg7 : Memref sig .tc .vmem S128x32 .f32) (harg7 : arg7.IsWhole) (arg8 : Memref sig .tc .vmem S1x32 .f32) (harg8 : arg8.IsWhole)
  (arg9 : Memref sig .tc .vmem S32x16 .f32) (harg9 : arg9.IsWhole) (arg10 : Memref sig .tc .vmem S1x16 .f32) (harg10 : arg10.IsWhole)
  (arg11 : Memref sig .tc .vmem S256x16 .f32) (harg11 : arg11.IsWhole) (arg12 : Memref sig .tc .vmem S256x32 .f32) (harg12 : arg12.IsWhole)
  (arg13 : Memref sig .tc .vmem S10016x32 .f32) (harg13 : arg13.IsWhole) (arg14 : Memref sig .tc .vmem S10240x16 .f32) (harg14 : arg14.IsWhole)

/-- What the second scratch holds after the rows of point `i` have been overwritten by `p`. -/
def RowsWritten (h2 : k0_cond2 i = 1#1) (z z' : Vec F S10240x16 .f32) (p : Vec F S256x16 .f32) : Prop :=
  (∀ y : S256x16.Idx, z' ((rowsAt i h2).emb y) = p y) ∧ (∀ j : S10240x16.Idx, j ∉ (rowsAt i h2).set → z' j = z j)

/-- The literal zero offsets of rank two are the zero function. -/
theorem zero2 : (![0, 0] : Fin 2 → Nat) = fun _ => 0 := by funext a; fin_cases a <;> rfl

/-- One store through the whole-shape rectangle at zero offsets, over any contents, reads as its payload. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f [⟨Rect.unit off S.size inb, w⟩]
    (fun y => ⟨⟨Rect.unit off S.size inb, w⟩, List.mem_singleton_self _, View.mem_set_unit_zero h inb y⟩),
    View.canon_unit_zero h]

/-- One store through the rows of point `i`, over contents that read `z`: the rows hold the payload, every other
    element reads as before. -/
theorem rowsWritten_of_store (h2 : k0_cond2 i = 1#1) (z : Vec F S10240x16 .f32) (p w : Vec F S256x16 .f32) (hw : w = p)
    (f : arg14.view.ty.Contents (Elt F)) (hf : arg14.view.read (Elt F) f = z) :
    RowsWritten i h2 z (arg14.view.read (Elt F) (arg14.view.writes (Elt F) f [⟨rowsAt i h2, w⟩])) p := by
  refine ⟨fun y => ?_, fun j hj => ?_⟩
  · rw [← hw]; exact View.read_writes_cons_emb arg14.view f (rowsAt i h2) w [] y
  · rw [View.read_writes_apply_of_forall_not_mem arg14.view f j [⟨rowsAt i h2, w⟩]
      (fun q hq => by rw [List.mem_singleton.mp hq]; exact hj), hf]

set_option maxHeartbeats 1000000 in
/-- THE FIRST POINT: the support is built from the five small operands and stored whole into the first
    scratch (whatever it held); then the first-half part runs on it. -/
theorem run_first (h1 : condFirst i) (h2 : k0_cond2 i = 1#1) (h3 : ¬ k0_cond3 i = 1#1)
    (x1 : Vec F S256x10016 .f32) (x3 : Vec F S10000x128 .f32) (x4 : Vec F S16x256 .f32) (x5 : Vec F S256x128 .f32)
    (x6 : Vec F S1x128 .f32) (x7 : Vec F S128x32 .f32) (x8 : Vec F S1x32 .f32) (x9 : Vec F S32x16 .f32) (z2 : Vec F S10240x16 .f32)
    (E : Set ℕ) (K : PUnit → sProp 𝕄) :
    iprop(owns (c : Thread nD τ) arg1 fullShare x1 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (∃ d, owns (c : Thread nD τ) arg12 fullShare d) ∗ (∃ d, owns (c : Thread nD τ) arg13 fullShare d) ∗ owns (c : Thread nD τ) arg14 fullShare z2
        ∗ (iprop(owns (c : Thread nD τ) arg1 fullShare x1 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg12 fullShare (k0_pay2 x1 (k0_pay1 x4 x5 x6 x3 x7) x8)
            ∗ owns (c : Thread nD τ) arg13 fullShare (k0_pay1 x4 x5 x6 x3 x7)
            ∗ (∃ z2', ⌜RowsWritten i h2 z2 z2' (k0_pay3 x1 (k0_pay1 x4 x5 x6 x3 x7) x8 x9)⌝ ∗ owns (c : Thread nD τ) arg14 fullShare z2')) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%f14, %hf14, H14⟩, Hk⟩
  obtain rfl := harg1.eq_unread hf1; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg14.eq_unread hf14
  sl_exec (disch := first | exact h1 | exact h2 | exact h3)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr
    swap; · iexact H12
    ipureintro
    refine (read_store_whole arg12.view f12 zero2 inb_S256x32_S256x32_0_0 _).trans ?_
    sl_unfold_run_names
    simp only [View.readAt_eq_ld, harg1.read_unread, harg3.read_unread, harg4.read_unread, harg5.read_unread, harg6.read_unread, harg7.read_unread, harg8.read_unread,
      View.ld_unit_zero (S := S256x10016) zero2, View.ld_unit_zero (S := S10000x128) zero2, View.ld_unit_zero (S := S16x256) zero2, View.ld_unit_zero (S := S256x128) zero2, View.ld_unit_zero (S := S1x128) zero2, View.ld_unit_zero (S := S128x32) zero2, View.ld_unit_zero (S := S1x32) zero2,
      View.readCov_unit_zero (S := S10016x32) _ zero2]
  isplitl [H13]
  · iexists _; isplitr
    swap; · iexact H13
    ipureintro
    sl_unfold_run_names
    refine (read_store_whole arg13.view f13 zero2 inb_S10016x32_S10016x32_0_0 _).trans ?_
    simp only [View.readAt_eq_ld, harg3.read_unread, harg4.read_unread, harg5.read_unread, harg6.read_unread, harg7.read_unread,
      View.ld_unit_zero (S := S10000x128) zero2, View.ld_unit_zero (S := S16x256) zero2, View.ld_unit_zero (S := S256x128) zero2, View.ld_unit_zero (S := S1x128) zero2, View.ld_unit_zero (S := S128x32) zero2]
  iexists _; isplitr
  swap
  · iexists _; isplitr
    swap; · iexact H14
    ipureintro; rfl
  ipureintro
  refine rowsWritten_of_store i arg14 h2 z2 _ _ ?_ _ (harg14.read_unread z2)
  sl_unfold_run_names
  simp only [View.readAt_eq_ld, harg1.read_unread, harg3.read_unread, harg4.read_unread, harg5.read_unread, harg6.read_unread, harg7.read_unread, harg8.read_unread, harg9.read_unread,
      View.ld_unit_zero (S := S256x10016) zero2, View.ld_unit_zero (S := S10000x128) zero2, View.ld_unit_zero (S := S16x256) zero2, View.ld_unit_zero (S := S256x128) zero2, View.ld_unit_zero (S := S1x128) zero2, View.ld_unit_zero (S := S128x32) zero2, View.ld_unit_zero (S := S1x32) zero2, View.ld_unit_zero (S := S32x16) zero2,
      View.readCov_unit_zero (S := S10016x32) _ zero2]

set_option maxHeartbeats 1000000 in
/-- A LATER POINT OF THE FIRST HALF: the first scratch is only read. -/
theorem run_phase1 (h1 : ¬ condFirst i) (h2 : k0_cond2 i = 1#1) (h3 : ¬ k0_cond3 i = 1#1)
    (x1 : Vec F S256x10016 .f32) (s : Vec F S10016x32 .f32) (x8 : Vec F S1x32 .f32) (x9 : Vec F S32x16 .f32) (z2 : Vec F S10240x16 .f32)
    (E : Set ℕ) (K : PUnit → sProp 𝕄) :
    iprop(owns (c : Thread nD τ) arg1 fullShare x1 ∗ owns (c : Thread nD τ) arg8 fullShare x8 ∗ owns (c : Thread nD τ) arg9 fullShare x9
        ∗ (∃ d, owns (c : Thread nD τ) arg12 fullShare d) ∗ owns (c : Thread nD τ) arg13 fullShare s ∗ owns (c : Thread nD τ) arg14 fullShare z2
        ∗ (iprop(owns (c : Thread nD τ) arg1 fullShare x1 ∗ owns (c : Thread nD τ) arg8 fullShare x8 ∗ owns (c : Thread nD τ) arg9 fullShare x9
            ∗ owns (c : Thread nD τ) arg12 fullShare (k0_pay2 x1 s x8) ∗ owns (c : Thread nD τ) arg13 fullShare s
            ∗ (∃ z2', ⌜RowsWritten i h2 z2 z2' (k0_pay3 x1 s x8 x9)⌝ ∗ owns (c : Thread nD τ) arg14 fullShare z2')) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f1, %hf1, H1⟩, ⟨%f8, %hf8, H8⟩, ⟨%f9, %hf9, H9⟩, ⟨%d12, %f12, -, H12⟩, ⟨%f13, %hf13, H13⟩, ⟨%f14, %hf14, H14⟩, Hk⟩
  obtain rfl := harg1.eq_unread hf1; obtain rfl := harg8.eq_unread hf8; obtain rfl := harg9.eq_unread hf9
  obtain rfl := harg13.eq_unread hf13; obtain rfl := harg14.eq_unread hf14
  sl_exec (disch := first | exact h1 | exact h2 | exact h3)
  sl_step
  iapply Hk
  isplitl [H1]
  · iexists _; isplitr; · ipureintro; exact harg1.read_unread _
    iexact H1
  isplitl [H8]
  · iexists _; isplitr; · ipureintro; exact harg8.read_unread _
    iexact H8
  isplitl [H9]
  · iexists _; isplitr; · ipureintro; exact harg9.read_unread _
    iexact H9
  isplitl [H12]
  · iexists _; isplitr
    swap; · iexact H12
    ipureintro
    refine (read_store_whole arg12.view f12 zero2 inb_S256x32_S256x32_0_0 _).trans ?_
    simp only [View.readAt_eq_ld, harg1.read_unread, harg8.read_unread, harg13.read_unread,
      View.ld_unit_zero (S := S256x10016) zero2, View.ld_unit_zero (S := S10016x32) zero2, View.ld_unit_zero (S := S1x32) zero2]
  isplitl [H13]
  · iexists _; isplitr; · ipureintro; exact harg13.read_unread _
    iexact H13
  iexists _; isplitr
  swap
  · iexists _; isplitr
    swap; · iexact H14
    ipureintro; rfl
  ipureintro
  refine rowsWritten_of_store i arg14 h2 z2 _ _ ?_ _ (harg14.read_unread z2)
  simp only [View.readAt_eq_ld, harg1.read_unread, harg8.read_unread, harg9.read_unread, harg13.read_unread,
      View.ld_unit_zero (S := S256x10016) zero2, View.ld_unit_zero (S := S10016x32) zero2, View.ld_unit_zero (S := S1x32) zero2, View.ld_unit_zero (S := S32x16) zero2]

set_option maxHeartbeats 1000000 in
/-- A POINT OF THE SECOND HALF: the second scratch is only read (its first 10016 rows). -/
theorem run_phase2 (h1 : ¬ condFirst i) (h2 : ¬ k0_cond2 i = 1#1) (h3 : k0_cond3 i = 1#1)
    (x2 : Vec F S256x10016 .f32) (x10 : Vec F S1x16 .f32) (z2 : Vec F S10240x16 .f32)
    (E : Set ℕ) (K : PUnit → sProp 𝕄) :
    iprop(owns (c : Thread nD τ) arg2 fullShare x2 ∗ owns (c : Thread nD τ) arg10 fullShare x10
        ∗ (∃ d, owns (c : Thread nD τ) arg11 fullShare d) ∗ owns (c : Thread nD τ) arg14 fullShare z2
        ∗ (iprop(owns (c : Thread nD τ) arg2 fullShare x2 ∗ owns (c : Thread nD τ) arg10 fullShare x10
            ∗ owns (c : Thread nD τ) arg11 fullShare (k0_pay4 x2 (fun y => z2 (rowsRead.emb y)) x10)
            ∗ owns (c : Thread nD τ) arg14 fullShare z2) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f2, %hf2, H2⟩, ⟨%f10, %hf10, H10⟩, ⟨%d11, %f11, -, H11⟩, ⟨%f14, %hf14, H14⟩, Hk⟩
  obtain rfl := harg2.eq_unread hf2; obtain rfl := harg10.eq_unread hf10; obtain rfl := harg14.eq_unread hf14
  sl_exec (disch := first | exact h1 | exact h2 | exact h3)
  sl_step
  iapply Hk
  isplitl [H2]
  · iexists _; isplitr; · ipureintro; exact harg2.read_unread _
    iexact H2
  isplitl [H10]
  · iexists _; isplitr; · ipureintro; exact harg10.read_unread _
    iexact H10
  isplitl [H11]
  · iexists _; isplitr
    swap; · iexact H11
    ipureintro
    refine (read_store_whole arg11.view f11 zero2 inb_S256x16_S256x16_0_0 _).trans ?_
    simp only [View.readAt_eq_ld, harg2.read_unread, harg10.read_unread, harg14.read_unread,
      View.ld_unit_zero (S := S256x10016) zero2, View.ld_unit_zero (S := S1x16) zero2]
    rfl
  iexists _; isplitr; · ipureintro; exact harg14.read_unread _
  iexact H14

end Cert.Kernel.Hand

end
-- ==== Proof.FrameK.lean ====
import proofs.«166228_g84250078479001_cont_9to1c4b_852_4_alg».proof.Proof.BodyRunK
import proofs.«166228_g84250078479001_cont_9to1c4b_852_4_alg».proof.Proof.Gen.Kernel.Frame
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame of the word-level program

The program terminates, faults nowhere and leaves its ten argument arrays as they were, whatever the
float instance. Nothing is claimed about the values the body computes: the relation between what the body
finds in a staging buffer and what it leaves there holds of any two contents. What the frame needs of the
body is only that at each of the 80 grid points one of its three guarded combinations runs, on buffers
the body owns, and hands every buffer back. -/

/-! ## Which guards hold at which grid point

The grid is one axis of 80 points. The first guard holds at point 0 only, the second at the first 40
points, the third at the last 40. -/

theorem first_iff : ∀ t : Fin cfg0.N, condFirst (grid0.coords t) ↔ t.val = 0 :=
  (by decide +kernel : ∀ t : Fin grid0.N, condFirst (grid0.coords t) ↔ t.val = 0)

theorem half1_iff : ∀ t : Fin cfg0.N, k0_cond2 (grid0.coords t) = 1#1 ↔ t.val < 40 :=
  (by decide +kernel : ∀ t : Fin grid0.N, k0_cond2 (grid0.coords t) = 1#1 ↔ t.val < 40)

theorem half2_iff : ∀ t : Fin cfg0.N, k0_cond3 (grid0.coords t) = 1#1 ↔ 40 ≤ t.val :=
  (by decide +kernel : ∀ t : Fin grid0.N, k0_cond3 (grid0.coords t) = 1#1 ↔ 40 ≤ t.val)

/-! ## The proof data: relations that say nothing -/

/-- The proof data of the one pipeline on core `c`: the arrays as the region finds them; of what the body
    leaves in a staging buffer nothing is said; the invariant is the two scratch buffers at some contents
    and the generator register at some state, the same before every point; nothing owed; full shares. -/
def rdat (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

theorem share_full (c : Dev nD) (w : Fin cfg0.W) : (rdat m c).share w = fullShare := by
  unfold Pipeline.RDat.share; split <;> rfl

/-! ## The buffers the body is called with -/

/-- Each window's current staging memref at point `t`, as the pipeline passes it to the body. -/
abbrev sg0 (t : Fin cfg0.N) : Memref sig .tc .vmem S256x10016 .f32 := win0_0.stage (cfg0.slots t 0)
abbrev sg1 (t : Fin cfg0.N) : Memref sig .tc .vmem S256x10016 .f32 := win0_1.stage (cfg0.slots t 1)
abbrev sg2 (t : Fin cfg0.N) : Memref sig .tc .vmem S10000x128 .f32 := win0_2.stage (cfg0.slots t 2)
abbrev sg3 (t : Fin cfg0.N) : Memref sig .tc .vmem S16x256 .f32 := win0_3.stage (cfg0.slots t 3)
abbrev sg4 (t : Fin cfg0.N) : Memref sig .tc .vmem S256x128 .f32 := win0_4.stage (cfg0.slots t 4)
abbrev sg5 (t : Fin cfg0.N) : Memref sig .tc .vmem S1x128 .f32 := win0_5.stage (cfg0.slots t 5)
abbrev sg6 (t : Fin cfg0.N) : Memref sig .tc .vmem S128x32 .f32 := win0_6.stage (cfg0.slots t 6)
abbrev sg7 (t : Fin cfg0.N) : Memref sig .tc .vmem S1x32 .f32 := win0_7.stage (cfg0.slots t 7)
abbrev sg8 (t : Fin cfg0.N) : Memref sig .tc .vmem S32x16 .f32 := win0_8.stage (cfg0.slots t 8)
abbrev sg9 (t : Fin cfg0.N) : Memref sig .tc .vmem S1x16 .f32 := win0_9.stage (cfg0.slots t 9)
abbrev sg10 (t : Fin cfg0.N) : Memref sig .tc .vmem S256x16 .f32 := win0_10.stage (cfg0.slots t 10)
abbrev sg11 (t : Fin cfg0.N) : Memref sig .tc .vmem S256x32 .f32 := win0_11.stage (cfg0.slots t 11)
/-- The two scratch operands: whole scoped buffers of the kernel's own, passed beside the windows. The first
    holds the first layer's support, the second the second layer's. -/
abbrev sc0 : Memref sig .tc .vmem S10016x32 .f32 := Memref.whole cc0_scratch0
abbrev sc1 : Memref sig .tc .vmem S10240x16 .f32 := Memref.whole cc0_scratch1

/-- The region invariant with the two scratch operands as memrefs owned at some contents: what the body
    is handed and what it gives back. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The body at a point

At point 0 all of the first-half part runs after the support has been built; at the other points of the
first half the support is only read; in the second half only the second scratch is read. In each case the
body is handed the buffers it touches at the contents they hold, the others stay outside, and every buffer
comes back at some contents. -/

set_option maxHeartbeats 1600000 in
/-- The body at any point, on any contents of the twelve current staging buffers and under any further
    resource `R` it does not touch: it runs, and hands back the two scratch buffers and the generator
    register (the invariant), `R`, and each staging buffer at some contents. -/
theorem sound_body (c : Dev nD) (t : Fin cfg0.N) (R : sProp 𝕄)
    (y0 y1 : Vec F S256x10016 .f32) (y2 : Vec F S10000x128 .f32) (y3 : Vec F S16x256 .f32) (y4 : Vec F S256x128 .f32)
    (y5 : Vec F S1x128 .f32) (y6 : Vec F S128x32 .f32) (y7 : Vec F S1x32 .f32) (y8 : Vec F S32x16 .f32) (y9 : Vec F S1x16 .f32)
    (y10 : Vec F S256x16 .f32) (y11 : Vec F S256x32 .f32) :
    iprop(Pipeline.ΦA spec0 c ∗ R
        ∗ owns (c : Thread nD τ) (sg0 t) fullShare y0
        ∗ owns (c : Thread nD τ) (sg1 t) fullShare y1
        ∗ owns (c : Thread nD τ) (sg2 t) fullShare y2
        ∗ owns (c : Thread nD τ) (sg3 t) fullShare y3
        ∗ owns (c : Thread nD τ) (sg4 t) fullShare y4
        ∗ owns (c : Thread nD τ) (sg5 t) fullShare y5
        ∗ owns (c : Thread nD τ) (sg6 t) fullShare y6
        ∗ owns (c : Thread nD τ) (sg7 t) fullShare y7
        ∗ owns (c : Thread nD τ) (sg8 t) fullShare y8
        ∗ owns (c : Thread nD τ) (sg9 t) fullShare y9
        ∗ owns (c : Thread nD τ) (sg10 t) fullShare y10
        ∗ owns (c : Thread nD τ) (sg11 t) fullShare y11)
      ⊢ wp frame (wpE (defs₀ (F := F)) Variants.none c none) Set.univ (bodyAt0 t) (fun _ =>
          iprop(Pipeline.ΦA spec0 c ∗ R
            ∗ (∃ X, ⌜True⌝ ∗ owns (c : Thread nD τ) (sg0 t) fullShare X)
            ∗ (∃ X, ⌜True⌝ ∗ owns (c : Thread nD τ) (sg1 t) fullShare X)
            ∗ (∃ X, ⌜True⌝ ∗ owns (c : Thread nD τ) (sg2 t) fullShare X)
            ∗ (∃ X, ⌜True⌝ ∗ owns (c : Thread nD τ) (sg3 t) fullShare X)
            ∗ (∃ X, ⌜True⌝ ∗ owns (c : Thread nD τ) (sg4 t) fullShare X)
            ∗ (∃ X, ⌜True⌝ ∗ owns (c : Thread nD τ) (sg5 t) fullShare X)
            ∗ (∃ X, ⌜True⌝ ∗ owns (c : Thread nD τ) (sg6 t) fullShare X)
            ∗ (∃ X, ⌜True⌝ ∗ owns (c : Thread nD τ) (sg7 t) fullShare X)
            ∗ (∃ X, ⌜True⌝ ∗ owns (c : Thread nD τ) (sg8 t) fullShare X)
            ∗ (∃ X, ⌜True⌝ ∗ owns (c : Thread nD τ) (sg9 t) fullShare X)
            ∗ (∃ X, ⌜True⌝ ∗ owns (c : Thread nD τ) (sg10 t) fullShare X)
            ∗ (∃ X, ⌜True⌝ ∗ owns (c : Thread nD τ) (sg11 t) fullShare X))) := by
  rw [PhiA_eq]
  have hN : t.val < 80 := lt_of_lt_of_eq t.isLt (show cfg0.N = 80 from N_0)
  by_cases hz : t.val = 0
  · -- the first point
    have h1 : condFirst (grid0.coords t) := (first_iff t).mpr hz
    have h2 : k0_cond2 (grid0.coords t) = 1#1 := (half1_iff t).mpr (by omega)
    have h3 : ¬ k0_cond3 (grid0.coords t) = 1#1 := fun h => by have := (half2_iff t).mp h; omega
    iintro ⟨⟨⟨⟨%s1, HS1⟩, ⟨%s2, HS2⟩⟩, Hg⟩, Ho, H0, H1, H2, H3, H4, H5, H6, H7, H8, H9, H10, H11⟩
    iapply (run_first c (grid0.coords t) _ _ _ _ _ _ _ _ _ _ _ _ _ _ _ _ _ _ _ _ _ _ _ _ _ _ _ _ h1 h2 h3 y0 y2 y3 y4 y5 y6 y7 y8 s2 Set.univ _)
    isplitl [H0]; · iexact H0
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexists _; iexact H11
    isplitl [HS1]; · iexists _; iexact HS1
    isplitl [HS2]; · iexact HS2
    iintro ⟨H0, H2, H3, H4, H5, H6, H7, H8, H11, HS1, ⟨%z2', %hz2, HS2⟩⟩
    isplitl [HS1 HS2 Hg]
    · isplitl [HS1 HS2]
      · isplitl [HS1]
        · iexists _; iexact HS1
        · iexists _; iexact HS2
      · iexact Hg
    isplitl [Ho]; · iexact Ho
    isplitl [H0]
    · iexists _; isplitr
      · ipureintro; trivial
      iexact H0
    isplitl [H1]
    · iexists _; isplitr
      · ipureintro; trivial
      iexact H1
    isplitl [H2]
    · iexists _; isplitr
      · ipureintro; trivial
      iexact H2
    isplitl [H3]
    · iexists _; isplitr
      · ipureintro; trivial
      iexact H3
    isplitl [H4]
    · iexists _; isplitr
      · ipureintro; trivial
      iexact H4
    isplitl [H5]
    · iexists _; isplitr
      · ipureintro; trivial
      iexact H5
    isplitl [H6]
    · iexists _; isplitr
      · ipureintro; trivial
      iexact H6
    isplitl [H7]
    · iexists _; isplitr
      · ipureintro; trivial
      iexact H7
    isplitl [H8]
    · iexists _; isplitr
      · ipureintro; trivial
      iexact H8
    isplitl [H9]
    · iexists _; isplitr
      · ipureintro; trivial
      iexact H9
    isplitl [H10]
    · iexists _; isplitr
      · ipureintro; trivial
      iexact H10
    iexists _; isplitr
    · ipureintro; trivial
    iexact H11
  · have h1 : ¬ condFirst (grid0.coords t) := fun h => hz ((first_iff t).mp h)
    by_cases hlt : t.val < 40
    · -- a later point of the first half
      have h2 : k0_cond2 (grid0.coords t) = 1#1 := (half1_iff t).mpr hlt
      have h3 : ¬ k0_cond3 (grid0.coords t) = 1#1 := fun h => by have := (half2_iff t).mp h; omega
      iintro ⟨⟨⟨⟨%s1, HS1⟩, ⟨%s2, HS2⟩⟩, Hg⟩, Ho, H0, H1, H2, H3, H4, H5, H6, H7, H8, H9, H10, H11⟩
      iapply (run_phase1 c (grid0.coords t) _ _ _ _ _ _ _ _ _ _ _ _ _ _ _ _ _ _ _ _ _ _ _ _ _ _ _ _ h1 h2 h3 y0 s1 y7 y8 s2 Set.univ _)
      isplitl [H0]; · iexact H0
      isplitl [H7]; · iexact H7
      isplitl [H8]; · iexact H8
      isplitl [H11]; · iexists _; iexact H11
      isplitl [HS1]; · iexact HS1
      isplitl [HS2]; · iexact HS2
      iintro ⟨H0, H7, H8, H11, HS1, ⟨%z2', %hz2, HS2⟩⟩
      isplitl [HS1 HS2 Hg]
      · isplitl [HS1 HS2]
        · isplitl [HS1]
          · iexists _; iexact HS1
          · iexists _; iexact HS2
        · iexact Hg
      isplitl [Ho]; · iexact Ho
      isplitl [H0]
      · iexists _; isplitr
        · ipureintro; trivial
        iexact H0
      isplitl [H1]
      · iexists _; isplitr
        · ipureintro; trivial
        iexact H1
      isplitl [H2]
      · iexists _; isplitr
        · ipureintro; trivial
        iexact H2
      isplitl [H3]
      · iexists _; isplitr
        · ipureintro; trivial
        iexact H3
      isplitl [H4]
      · iexists _; isplitr
        · ipureintro; trivial
        iexact H4
      isplitl [H5]
      · iexists _; isplitr
        · ipureintro; trivial
        iexact H5
      isplitl [H6]
      · iexists _; isplitr
        · ipureintro; trivial
        iexact H6
      isplitl [H7]
      · iexists _; isplitr
        · ipureintro; trivial
        iexact H7
      isplitl [H8]
      · iexists _; isplitr
        · ipureintro; trivial
        iexact H8
      isplitl [H9]
      · iexists _; isplitr
        · ipureintro; trivial
        iexact H9
      isplitl [H10]
      · iexists _; isplitr
        · ipureintro; trivial
        iexact H10
      iexists _; isplitr
      · ipureintro; trivial
      iexact H11
    · -- a point of the second half
      have h2 : ¬ k0_cond2 (grid0.coords t) = 1#1 := fun h => hlt ((half1_iff t).mp h)
      have h3 : k0_cond3 (grid0.coords t) = 1#1 := (half2_iff t).mpr (by omega)
      iintro ⟨⟨⟨⟨%s1, HS1⟩, ⟨%s2, HS2⟩⟩, Hg⟩, Ho, H0, H1, H2, H3, H4, H5, H6, H7, H8, H9, H10, H11⟩
      iapply (run_phase2 c (grid0.coords t) _ _ _ _ _ _ _ _ _ _ _ _ _ _ _ _ _ _ _ _ _ _ _ _ _ _ _ _ h1 h2 h3 y1 y9 s2 Set.univ _)
      isplitl [H1]; · iexact H1
      isplitl [H9]; · iexact H9
      isplitl [H10]; · iexists _; iexact H10
      isplitl [HS2]; · iexact HS2
      iintro ⟨H1, H9, H10, HS2⟩
      isplitl [HS1 HS2 Hg]
      · isplitl [HS1 HS2]
        · isplitl [HS1]
          · iexists _; iexact HS1
          · iexists _; iexact HS2
        · iexact Hg
      isplitl [Ho]; · iexact Ho
      isplitl [H0]
      · iexists _; isplitr
        · ipureintro; trivial
        iexact H0
      isplitl [H1]
      · iexists _; isplitr
        · ipureintro; trivial
        iexact H1
      isplitl [H2]
      · iexists _; isplitr
        · ipureintro; trivial
        iexact H2
      isplitl [H3]
      · iexists _; isplitr
        · ipureintro; trivial
        iexact H3
      isplitl [H4]
      · iexists _; isplitr
        · ipureintro; trivial
        iexact H4
      isplitl [H5]
      · iexists _; isplitr
        · ipureintro; trivial
        iexact H5
      isplitl [H6]
      · iexists _; isplitr
        · ipureintro; trivial
        iexact H6
      isplitl [H7]
      · iexists _; isplitr
        · ipureintro; trivial
        iexact H7
      isplitl [H8]
      · iexists _; isplitr
        · ipureintro; trivial
        iexact H8
      isplitl [H9]
      · iexists _; isplitr
        · ipureintro; trivial
        iexact H9
      isplitl [H10]
      · iexists _; isplitr
        · ipureintro; trivial
        iexact H10
      iexists _; isplitr
      · ipureintro; trivial
      iexact H11

/-- The library's body obligation of the relational data, at every point: nothing of what the buffers may
    hold is used. -/
theorem body_obligation (c : Dev nD) : (rdat m c).BodyObligation (defs₀ (F := F)) Variants.none () Set.univ := fun t Y _ => by
  rw [bigSep_W0, bigSep_W0]
  exact sound_body c t _ (Y 0) (Y 1) (Y 2) (Y 3) (Y 4) (Y 5) (Y 6) (Y 7) (Y 8) (Y 9) (Y 10) (Y 11)

/-! ## The run and the frame -/

set_option backward.isDefEq.respectTransparency.types false in
/-- At the compiled mesh, for any values, from any memory with zero counters: every weakly fair execution of
    the program terminates, and in every final state each array of the pipeline holds some contents it may
    hold after the write-backs (an input array: what it held at entry) and every other unscoped buffer what
    it held when the region was entered. -/
theorem run_frame : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := share_full m) (howed := fun _ _ => rfl) (V := V m)
    (hmain := hmain m Variants.none) (hA := A_eq m) (hΦ := fun _ _ => rfl)

/-- THE FRAME at any float instance: the ten argument arrays end as they began. Seven of them are arrays of
    input windows, never written by the pipeline; the other three are only reshaped by the host before the
    region and bypass it. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 3 rfl).trans ((A_eq m c 3).trans (V_main_arg0 m c)),
      (Pipeline.RDat.FramePost.arr_in h c 2 rfl).trans ((A_eq m c 2).trans (V_main_arg1 m c)),
      (Pipeline.RDat.FramePost.arr_in h c 0 rfl).trans ((A_eq m c 0).trans (V_main_arg2 m c)),
      (Pipeline.RDat.FramePost.arr_in h c 1 rfl).trans ((A_eq m c 1).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c),
      (Pipeline.RDat.FramePost.arr_in h c 6 rfl).trans ((A_eq m c 6).trans (V_main_arg6 m c)),
      ((h c).2 main_arg7 (Pipeline.mem_restRefs_of main_arg7 (by decide) (by decide))).trans (V_main_arg7 m c),
      (Pipeline.RDat.FramePost.arr_in h c 8 rfl).trans ((A_eq m c 8).trans (V_main_arg8 m c)),
      ((h c).2 main_arg9 (Pipeline.mem_restRefs_of main_arg9 (by decide) (by decide))).trans (V_main_arg9 m c)⟩) (run_frame m ρ)

end Cert.Kernel.Hand

end
-- ==== Proof.Spec.lean ====
import Idealize.ShloMosaic.PureOps.Ideal
import Idealize.ShloMosaic.PureOps.Ideal.Laws
import Idealize.ShloMosaic.Lib.ValueIdx

/-!
  The two-layer graph convolution, written once as plain sums over the extended reals.

  With `M = 10016` augmented nodes (10000 feature nodes followed by 16 label nodes):
  the label embeddings are mapped into feature space (`ynew = Y · Wfc + bfc`) and stacked under
  the feature rows (`xstar`); the first layer's support is `s1 = xstar · W1`; the hidden embedding
  is `xe = max (E · s1 + b1) 0`; the second layer's support is `s2 = xe · W2`; and the result is
  `out = logistic (A · s2 + b2)`. Every entry of `xe` and `out` depends on ONE row of the adjacency
  matrix only: row `r` of `E` (of `A`) and the whole support. That is what lets a kernel stream the
  adjacency matrices through in blocks of rows.
-/

noncomputable section

namespace Cert.Spec

open Idealize.ShloMosaic Idealize.ShloMosaic.ValueIdx

abbrev T16x256 : Shape := ⟨2, ![16, 256]⟩
abbrev T10000x128 : Shape := ⟨2, ![10000, 128]⟩
abbrev T10016x10016 : Shape := ⟨2, ![10016, 10016]⟩
abbrev T256x128 : Shape := ⟨2, ![256, 128]⟩
abbrev T128 : Shape := ⟨1, ![128]⟩
abbrev T128x32 : Shape := ⟨2, ![128, 32]⟩
abbrev T32 : Shape := ⟨1, ![32]⟩
abbrev T32x16 : Shape := ⟨2, ![32, 16]⟩
abbrev T16 : Shape := ⟨1, ![16]⟩
abbrev T10016x32 : Shape := ⟨2, ![10016, 32]⟩
abbrev T10016x16 : Shape := ⟨2, ![10016, 16]⟩

variable (Y : T16x256.Idx → EReal) (X : T10000x128.Idx → EReal) (E A : T10016x10016.Idx → EReal)
  (Wfc : T256x128.Idx → EReal) (bfc : T128.Idx → EReal) (W1 : T128x32.Idx → EReal) (b1 : T32.Idx → EReal)
  (W2 : T32x16.Idx → EReal) (b2 : T16.Idx → EReal)

/-- A label node's embedding mapped into feature space: row `r` of `Y · Wfc + bfc`. -/
def ynew (r : Fin 16) (j : Fin 128) : EReal :=
  (∑ k : Fin 256, Y (ix2 r k) * Wfc (ix2 k j)) + bfc (ix1 j)

/-- The augmented node features: the 10000 feature rows, then the 16 mapped label rows. -/
def xstar (r : Fin 10016) (j : Fin 128) : EReal :=
  if h : r.val < 10000 then X (ix2 ⟨r.val, h⟩ j) else ynew Y Wfc bfc ⟨r.val - 10000, by omega⟩ j

/-- The first layer's support `xstar · W1`. -/
def s1 (r : Fin 10016) (j : Fin 32) : EReal :=
  ∑ k : Fin 128, xstar Y X Wfc bfc r k * W1 (ix2 k j)

/-- The hidden embedding `max (E · s1 + b1) 0`: entry `(r, j)` reads row `r` of `E` only. -/
def xe (r : Fin 10016) (j : Fin 32) : EReal :=
  max ((∑ k : Fin 10016, E (ix2 r k) * s1 Y X Wfc bfc W1 k j) + b1 (ix1 j)) 0

/-- The second layer's support `xe · W2`. -/
def s2 (r : Fin 10016) (j : Fin 16) : EReal :=
  ∑ k : Fin 32, xe Y X E Wfc bfc W1 b1 r k * W2 (ix2 k j)

/-- The result `logistic (A · s2 + b2)`: entry `(r, j)` reads row `r` of `A` only. -/
def out (r : Fin 10016) (j : Fin 16) : EReal :=
  Ideal.logistic ((∑ k : Fin 10016, A (ix2 r k) * s2 Y X E Wfc bfc W1 b1 W2 k j) + b2 (ix1 j))

/-- The hidden embedding as an array. -/
def xeArr : T10016x32.Idx → EReal := fun i => xe Y X E Wfc bfc W1 b1 (i 0) (i 1)

/-- The result as an array. -/
def outArr : T10016x16.Idx → EReal := fun i => out Y X E A Wfc bfc W1 b1 W2 b2 (i 0) (i 1)

end Cert.Spec

end
-- ==== Proof.Data.lean ====
import proofs.«166228_g84250078479001_cont_9to1c4b_852_4_alg».proof.Proof.Gen.KernelIdeal.Frame
import proofs.«166228_g84250078479001_cont_9to1c4b_852_4_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the kernel computes, as arrays of the launch memory

The hidden embedding and the result of the two-layer graph convolution (`Cert.Spec`), read at the ten
argument arrays as they are when the program starts. -/

/-- The hidden embedding `max (E · s1 + b1) 0` of the launch arrays. -/
def xeA (c : Dev nD) : Buf (Elt Ideal) ((c : Thread nD τ).loc main_v3_1) :=
  Cert.Spec.xeArr (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7))

/-- The result `logistic (A · s2 + b2)` of the launch arrays. -/
def outA (c : Dev nD) : Buf (Elt Ideal) ((c : Thread nD τ).loc main_v3_0) :=
  Cert.Spec.outArr (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- The first layer's support `xstar · W1` of the launch arrays, as the first scratch holds it. -/
def s1A (c : Dev nD) : Vec Ideal S10016x32 .f32 := fun i =>
  Cert.Spec.s1 (m ((c : Thread nD τ).loc main_arg0)) (m ((c : Thread nD τ).loc main_arg1))
    (m ((c : Thread nD τ).loc main_arg4)) (m ((c : Thread nD τ).loc main_arg5)) (m ((c : Thread nD τ).loc main_arg6)) (i 0) (i 1)

/-- The second layer's support `xe · W2` of the launch arrays, entry by entry. -/
def s2F (c : Dev nD) (r : Fin 10016) (j : Fin 16) : EReal :=
  Cert.Spec.s2 (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7))
    (m ((c : Thread nD τ).loc main_arg8)) r j

/-! ## The invariant between grid points

Before point `n` the first scratch holds the support once any point has run, and the second scratch holds
the second support on the rows the first-half points before `n` have written (rows below `256 · n`, and
below 10016: the last block's rows past the matrix's end hold words nothing names). -/

/-- The two scratch buffers as memrefs. -/
abbrev sc0 : Memref sig .tc .vmem S10016x32 .f32 := Memref.whole cc0_scratch0
abbrev sc1 : Memref sig .tc .vmem S10240x16 .f32 := Memref.whole cc0_scratch1

/-- What the second scratch is known to hold before point `n`. -/
def S2Upto (c : Dev nD) (n : ℕ) (z2 : Vec Ideal S10240x16 .f32) : Prop :=
  ∀ (r : Fin 10016) (j : Fin 16), r.val < 256 * n → z2 (ix2 (⟨r.val, by omega⟩ : Fin 10240) j) = s2F m c r j

/-- The invariant before point `n`. -/
def PhiS (c : Dev nD) (n : ℕ) : sProp 𝕄 :=
  iprop((∃ z1 : Vec Ideal S10016x32 .f32, ⌜0 < n → z1 = s1A m c⌝ ∗ owns (c : Thread nD τ) sc0 fullShare z1)
      ∗ (∃ z2 : Vec Ideal S10240x16 .f32, ⌜S2Upto m c n z2⌝ ∗ owns (c : Thread nD τ) sc1 fullShare z2)
      ∗ (∃ r, prngReg c r))

/-! ## The proof data

After the body at point `t`: an adjacency window's buffer holds its row block on the rows inside the matrix;
the eight small inputs' buffers hold their whole arrays; an output window's buffer holds, on the rows inside
the array, the point's block of the hidden embedding (of the result). Past the arrays' ends nothing is said
(the filler is the zero word, and no obligation reads it). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => win0_10.fill (grid0.coords t) (fun _ => (0 : EReal)) ((win0_10.blk t).view.read (Elt Ideal) (outA m c))
    | ⟨11, _⟩ => win0_11.fill (grid0.coords t) (fun _ => (0 : EReal)) ((win0_11.blk t).view.read (Elt Ideal) (xeA m c))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = win0_0.fill (grid0.coords t) (fun _ => (0 : EReal)) (iblk m c 0 t) := by dsimp only [dats]
theorem after0_1 (c : Dev nD) (t : Fin cfg0.N) : (dats m 0 c).after 1 t = win0_1.fill (grid0.coords t) (fun _ => (0 : EReal)) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = win0_10.fill (grid0.coords t) (fun _ => (0 : EReal)) ((win0_10.blk t).view.read (Elt Ideal) (outA m c)) := by dsimp only [dats]
theorem after0_11 (c : Dev nD) (t : Fin cfg0.N) : (dats m 0 c).after 11 t = win0_11.fill (grid0.coords t) (fun _ => (0 : EReal)) ((win0_11.blk t).view.read (Elt Ideal) (xeA m c)) := by dsimp only [dats]

theorem Phi_eq (c : Dev nD) (t : Fin (cfg0.N + 1)) : (dats m 0 c).Φ t = PhiS m c t.val := by dsimp only [dats]

end Cert.KernelIdeal.Hand

end
-- ==== Proof.Final.lean ====
import proofs.«166228_g84250078479001_cont_9to1c4b_852_4_alg».proof.Proof.Data
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The output arrays after the run

Each output window writes back, at every point that flushes it, the point's block of one whole-array
function (on the rows inside the array); the flushed blocks cover the array: rows `256·j … 256·j + 255` by the
point that flushes block `j`, the last block cut at row 10016. So the arrays end holding those functions. -/

/-! ### The hidden embedding's window

Its block index is `min t 39`: the first 39 points each write their block back on leaving it, and block 39,
held through the second half of the grid, is written back at the last point only. -/

/-- The points that write the hidden embedding's block back. -/
theorem flush11 : ∀ t : Fin cfg0.N, (cfg0.win 11).flush t = true ↔ (t.val < 39 ∨ t.val = 79) :=
  (by decide +kernel : ∀ t : Fin grid0.N, win0_11.flush t = true ↔ (t.val < 39 ∨ t.val = 79))

/-- Its block index at every point. -/
theorem idx11 : ∀ t : Fin cfg0.N, win0_11.index t (0 : Fin 2) = min t.val 39 ∧ win0_11.index t (1 : Fin 2) = 0 :=
  (by decide +kernel : ∀ t : Fin grid0.N, win0_11.index t (0 : Fin 2) = min t.val 39 ∧ win0_11.index t (1 : Fin 2) = 0)

/-- The rows and lanes its transfer moves at every point: block 39 has 32 rows inside the array. -/
theorem xs11 : ∀ t : Fin cfg0.N, win0_11.xsize (grid0.coords t) (0 : Fin 2) = (if t.val < 39 then 256 else 32)
    ∧ win0_11.xsize (grid0.coords t) (1 : Fin 2) = 32 :=
  (by decide +kernel : ∀ t : Fin grid0.N, win0_11.xsize (grid0.coords t) (0 : Fin 2) = (if t.val < 39 then 256 else 32)
    ∧ win0_11.xsize (grid0.coords t) (1 : Fin 2) = 32)

/-- An index of the array is in point `t`'s block iff each coordinate is in the cut block's range on its axis. -/
theorem mem_blk11 (t : Fin cfg0.N) (i : S10016x32.Idx) :
    i ∈ ((cfg0.win 11).blk t).view.set ↔ ∀ a : Fin 2, win0_11.index t a * S256x32.size a ≤ (i a).val
      ∧ (i a).val < win0_11.index t a * S256x32.size a + win0_11.xsize (grid0.coords t) a := by
  show i ∈ ((View.whole main_v3_1).slice (win0_11.rect t)).set ↔ _
  rw [View.set_slice_whole, Rect.mem_set_unit]
  exact Iff.rfl

/-- Row `r` is in the block of a point `t < 39` when `256·t ≤ r < 256·t + 256`, and in the block of a later point
    when `9984 ≤ r`. -/
theorem mem11_of (t : Fin cfg0.N) (i : S10016x32.Idx)
    (h : (t.val < 39 ∧ t.val * 256 ≤ (i 0).val ∧ (i 0).val < t.val * 256 + 256) ∨ (39 ≤ t.val ∧ 9984 ≤ (i 0).val)) :
    i ∈ ((cfg0.win 11).blk t).view.set := by
  rw [mem_blk11]
  obtain ⟨e0, e1⟩ := idx11 t
  obtain ⟨x0, x1⟩ := xs11 t
  have hi0 : (i 0).val < 10016 := (i 0).isLt
  have hi1 : (i 1).val < 32 := (i 1).isLt
  intro a
  match a with
  | ⟨0, _⟩ =>
    show win0_11.index t (0 : Fin 2) * 256 ≤ (i 0).val ∧ (i 0).val < win0_11.index t (0 : Fin 2) * 256 + win0_11.xsize (grid0.coords t) (0 : Fin 2)
    rw [e0, x0]
    split <;> omega
  | ⟨1, _⟩ =>
    show win0_11.index t (1 : Fin 2) * 32 ≤ (i 1).val ∧ (i 1).val < win0_11.index t (1 : Fin 2) * 32 + win0_11.xsize (grid0.coords t) (1 : Fin 2)
    rw [e1, x1]
    omega

/-- The hidden embedding's array ends holding the hidden embedding. -/
theorem final_xe (c : Dev nD) : (dats m 0 c).arrAt 11 cfg0.N = xeA m c := by
  refine (dats m 0 c).arrAt_eq_of_cover 11 (xeA m c) (fun t _ => ?_) (fun i => ?_)
  · show (cfg0.win 11).cut (grid0.coords t) ((dats m 0 c).after 11 t) = _
    rw [after0_11]
    exact Window.cut_fill _ _ _ _
  · have hi0 : (i 0).val < 10016 := (i 0).isLt
    by_cases h : (i 0).val / 256 < 39
    · exact ⟨⟨(i 0).val / 256, by show _ < 80; omega⟩, (flush11 _).mpr (Or.inl h),
        mem11_of _ i (Or.inl ⟨h, Nat.div_mul_le_self _ _, by show (i 0).val < (i 0).val / 256 * 256 + 256; omega⟩)⟩
    · exact ⟨⟨79, by decide⟩, (flush11 _).mpr (Or.inr rfl),
        mem11_of _ i (Or.inr ⟨by decide, by omega⟩)⟩

/-! ### The result's window

Its block index is `max (t - 40) 0`: block 0 is held through the first half of the grid, and from point 40 on
every point writes its own block `t - 40` back. -/

/-- The points that write the result's block back. -/
theorem flush10 : ∀ t : Fin cfg0.N, (cfg0.win 10).flush t = true ↔ 40 ≤ t.val :=
  (by decide +kernel : ∀ t : Fin grid0.N, win0_10.flush t = true ↔ 40 ≤ t.val)

/-- Its block index at every point. -/
theorem idx10 : ∀ t : Fin cfg0.N, win0_10.index t (0 : Fin 2) = t.val - 40 ∧ win0_10.index t (1 : Fin 2) = 0 :=
  (by decide +kernel : ∀ t : Fin grid0.N, win0_10.index t (0 : Fin 2) = t.val - 40 ∧ win0_10.index t (1 : Fin 2) = 0)

/-- The rows and lanes its transfer moves at every point: block 39 has 32 rows inside the array. -/
theorem xs10 : ∀ t : Fin cfg0.N, win0_10.xsize (grid0.coords t) (0 : Fin 2) = (if t.val < 79 then 256 else 32)
    ∧ win0_10.xsize (grid0.coords t) (1 : Fin 2) = 16 :=
  (by decide +kernel : ∀ t : Fin grid0.N, win0_10.xsize (grid0.coords t) (0 : Fin 2) = (if t.val < 79 then 256 else 32)
    ∧ win0_10.xsize (grid0.coords t) (1 : Fin 2) = 16)

/-- An index of the array is in point `t`'s block iff each coordinate is in the cut block's range on its axis. -/
theorem mem_blk10 (t : Fin cfg0.N) (i : S10016x16.Idx) :
    i ∈ ((cfg0.win 10).blk t).view.set ↔ ∀ a : Fin 2, win0_10.index t a * S256x16.size a ≤ (i a).val
      ∧ (i a).val < win0_10.index t a * S256x16.size a + win0_10.xsize (grid0.coords t) a := by
  show i ∈ ((View.whole main_v3_0).slice (win0_10.rect t)).set ↔ _
  rw [View.set_slice_whole, Rect.mem_set_unit]
  exact Iff.rfl

/-- Row `r` is in the block of the point `t ≥ 40` with `256·(t - 40) ≤ r < 256·(t - 40) + 256`. -/
theorem mem10_of (t : Fin cfg0.N) (i : S10016x16.Idx)
    (h : 40 ≤ t.val ∧ (t.val - 40) * 256 ≤ (i 0).val ∧ (i 0).val < (t.val - 40) * 256 + 256) :
    i ∈ ((cfg0.win 10).blk t).view.set := by
  rw [mem_blk10]
  obtain ⟨e0, e1⟩ := idx10 t
  obtain ⟨x0, x1⟩ := xs10 t
  have hi0 : (i 0).val < 10016 := (i 0).isLt
  have hi1 : (i 1).val < 16 := (i 1).isLt
  intro a
  match a with
  | ⟨0, _⟩ =>
    show win0_10.index t (0 : Fin 2) * 256 ≤ (i 0).val ∧ (i 0).val < win0_10.index t (0 : Fin 2) * 256 + win0_10.xsize (grid0.coords t) (0 : Fin 2)
    rw [e0, x0]
    split <;> omega
  | ⟨1, _⟩ =>
    show win0_10.index t (1 : Fin 2) * 16 ≤ (i 1).val ∧ (i 1).val < win0_10.index t (1 : Fin 2) * 16 + win0_10.xsize (grid0.coords t) (1 : Fin 2)
    rw [e1, x1]
    omega

/-- The result's array ends holding the result. -/
theorem final_out (c : Dev nD) : (dats m 0 c).arrAt 10 cfg0.N = outA m c := by
  refine (dats m 0 c).arrAt_eq_of_cover 10 (outA m c) (fun t _ => ?_) (fun i => ?_)
  · show (cfg0.win 10).cut (grid0.coords t) ((dats m 0 c).after 10 t) = _
    rw [after0_10]
    exact Window.cut_fill _ _ _ _
  · have hi0 : (i 0).val < 10016 := (i 0).isLt
    exact ⟨⟨40 + (i 0).val / 256, by show _ < 80; omega⟩, (flush10 _).mpr (Nat.le_add_right _ _),
      mem10_of _ i ⟨Nat.le_add_right _ _, by show (40 + (i 0).val / 256 - 40) * 256 ≤ (i 0).val; omega,
        by show (i 0).val < (40 + (i 0).val / 256 - 40) * 256 + 256; omega⟩⟩

end Cert.KernelIdeal.Hand

end
-- ==== Proof.Sched.lean ====
import proofs.«166228_g84250078479001_cont_9to1c4b_852_4_alg».proof.Proof.Data
import proofs.«166228_g84250078479001_cont_9to1c4b_852_4_alg».proof.Proof.Final
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Grid facts, decided once over the eighty points -/

/-- The block index of every small input's window is zero on both axes at every point. -/
theorem idx0_small : ∀ t : Fin cfg0.N, ∀ a : Fin 2,
    win0_2.index t a = 0 ∧ win0_3.index t a = 0 ∧ win0_4.index t a = 0 ∧ win0_5.index t a = 0
    ∧ win0_6.index t a = 0 ∧ win0_7.index t a = 0 ∧ win0_8.index t a = 0 ∧ win0_9.index t a = 0 :=
  (by decide +kernel : ∀ t : Fin grid0.N, ∀ a : Fin 2,
    win0_2.index t a = 0 ∧ win0_3.index t a = 0 ∧ win0_4.index t a = 0 ∧ win0_5.index t a = 0
    ∧ win0_6.index t a = 0 ∧ win0_7.index t a = 0 ∧ win0_8.index t a = 0 ∧ win0_9.index t a = 0)

/-- The first adjacency window (block index `min t 39`) is fetched at the points of the first half and at no
    other; the second (block index `max (t - 40) 0`) at the first point and from point 41 on. -/
theorem fetch0_adj : ∀ t : Fin cfg0.N,
    (win0_0.fetch t = decide (t.val < 40)) ∧ (win0_1.fetch t = decide (t.val = 0 ∨ 41 ≤ t.val)) :=
  (by decide +kernel : ∀ t : Fin grid0.N,
    (win0_0.fetch t = decide (t.val < 40)) ∧ (win0_1.fetch t = decide (t.val = 0 ∨ 41 ≤ t.val)))

/-- A point of the second half shares the first adjacency window's block (index 39, cut at the matrix's end) with
    the point before it; a point from 1 to 40 shares the second's block 0 (uncut) with the point before it. -/
theorem same0_adj : ∀ t : Fin cfg0.N,
    (40 ≤ t.val → win0_0.index ⟨t.val - 1, Nat.lt_of_le_of_lt (Nat.sub_le _ _) t.isLt⟩ = win0_0.index t
      ∧ win0_0.clip (grid0.coords ⟨t.val - 1, Nat.lt_of_le_of_lt (Nat.sub_le _ _) t.isLt⟩) = win0_0.clip (grid0.coords t))
    ∧ (0 < t.val → t.val ≤ 40 → win0_1.index ⟨t.val - 1, Nat.lt_of_le_of_lt (Nat.sub_le _ _) t.isLt⟩ = win0_1.index t
      ∧ win0_1.clip (grid0.coords ⟨t.val - 1, Nat.lt_of_le_of_lt (Nat.sub_le _ _) t.isLt⟩) = win0_1.clip (grid0.coords t)) :=
  (by decide +kernel : ∀ t : Fin grid0.N,
    (40 ≤ t.val → win0_0.index ⟨t.val - 1, Nat.lt_of_le_of_lt (Nat.sub_le _ _) t.isLt⟩ = win0_0.index t
      ∧ win0_0.clip (grid0.coords ⟨t.val - 1, Nat.lt_of_le_of_lt (Nat.sub_le _ _) t.isLt⟩) = win0_0.clip (grid0.coords t))
    ∧ (0 < t.val → t.val ≤ 40 → win0_1.index ⟨t.val - 1, Nat.lt_of_le_of_lt (Nat.sub_le _ _) t.isLt⟩ = win0_1.index t
      ∧ win0_1.clip (grid0.coords ⟨t.val - 1, Nat.lt_of_le_of_lt (Nat.sub_le _ _) t.isLt⟩) = win0_1.clip (grid0.coords t)))

/-! ## Blocks read at two points with one block index -/

/-- The block read at one point, laid into a buffer and cut back at another point with the same block index and
    the same cut, is the second point's block: both read the same elements of the array. -/
theorem cut_fill_read_congr {G : Pipeline.Grid} (w : Window sig G) (c : Dev nD)
    (A : Buf (Elt Ideal) (w.arr.view.loc (c.tc : Thread nD τ))) {t t' : Fin G.N} (h : w.index t = w.index t')
    (hc : w.clip (G.coords t) = w.clip (G.coords t')) (d : w.block.Idx → Elt Ideal w.elt) :
    w.cut (G.coords t') (w.fill (G.coords t) d ((w.blk t).view.read (Elt Ideal) A)) = (w.blk t').view.read (Elt Ideal) A := by
  funext j
  have hm : w.moved (G.coords t) (w.xinj (G.coords t') j) = true := by
    have := w.moved_xinj (G.coords t') j
    unfold Window.moved at this ⊢; rw [hc]; exact this
  show w.fill (G.coords t) d _ (w.xinj (G.coords t') j) = _
  unfold Window.fill
  rw [dif_pos hm, View.read_apply, View.read_apply]
  show _root_.cast _ (A (w.arr.view.emb ((w.rect t).emb _))) = _root_.cast _ (A (w.arr.view.emb ((w.rect t').emb _)))
  congr 3
  funext a; apply Fin.ext
  rw [Rect.emb_apply, Rect.emb_apply]
  show w.index t a * w.size a + 1 * (j a).val = w.index t' a * w.size a + 1 * (j a).val
  rw [h]

/-- What a fetch reads is the window's block of the array as the region finds it. -/
theorem blockOf_eq (c : Dev nD) (w : Fin cfg0.W) (t : Fin cfg0.N) : (dats m 0 c).blockOf w t = iblk m c w t := by
  unfold Dat.blockOf iblk; rw [A_eq]

/-! ## What the body finds in each staging buffer, and what it may hand back

The eight small inputs are fetched once and hold their whole arrays at every point. The first adjacency
window holds its row block (on the rows inside the matrix) at the points of the first half, the second at the
points of the second half. A window the body does not store into at a point is handed back as found. -/

/-- Small input 2's buffer holds its block at every point. -/
theorem before0_2 (c : Dev nD) (t : Fin cfg0.N) (d) : (dats m 0 c).before 2 t d = iblk m c 2 t :=
  before0_2_of m (dats m 0 c) (A_eq m c 2) (after0_2 m c) t d
/-- That block is the whole array. -/
theorem iblk2_eq (c : Dev nD) (t : Fin cfg0.N) : iblk m c 2 t = (V m c main_arg1 : Vec Ideal S10000x128 .f32) := by
  funext y
  unfold iblk
  rw [View.read_apply]
  show V m c main_arg1 (((cfg0.win 2).blk t).view.emb y) = V m c main_arg1 y
  congr 1
  funext a; apply Fin.ext
  exact win0_2.rect_emb_val_of_index_zero t a (idx0_small t a).1 y

/-- Small input 3's buffer holds its block at every point. -/
theorem before0_3 (c : Dev nD) (t : Fin cfg0.N) (d) : (dats m 0 c).before 3 t d = iblk m c 3 t :=
  before0_3_of m (dats m 0 c) (A_eq m c 3) (after0_3 m c) t d
/-- That block is the whole array. -/
theorem iblk3_eq (c : Dev nD) (t : Fin cfg0.N) : iblk m c 3 t = (V m c main_arg0 : Vec Ideal S16x256 .f32) := by
  funext y
  unfold iblk
  rw [View.read_apply]
  show V m c main_arg0 (((cfg0.win 3).blk t).view.emb y) = V m c main_arg0 y
  congr 1
  funext a; apply Fin.ext
  exact win0_3.rect_emb_val_of_index_zero t a (idx0_small t a).2.1 y

/-- Small input 4's buffer holds its block at every point. -/
theorem before0_4 (c : Dev nD) (t : Fin cfg0.N) (d) : (dats m 0 c).before 4 t d = iblk m c 4 t :=
  before0_4_of m (dats m 0 c) (A_eq m c 4) (after0_4 m c) t d
/-- That block is the whole array. -/
theorem iblk4_eq (c : Dev nD) (t : Fin cfg0.N) : iblk m c 4 t = (V m c main_arg4 : Vec Ideal S256x128 .f32) := by
  funext y
  unfold iblk
  rw [View.read_apply]
  show V m c main_arg4 (((cfg0.win 4).blk t).view.emb y) = V m c main_arg4 y
  congr 1
  funext a; apply Fin.ext
  exact win0_4.rect_emb_val_of_index_zero t a (idx0_small t a).2.2.1 y

/-- Small input 5's buffer holds its block at every point. -/
theorem before0_5 (c : Dev nD) (t : Fin cfg0.N) (d) : (dats m 0 c).before 5 t d = iblk m c 5 t :=
  before0_5_of m (dats m 0 c) (A_eq m c 5) (after0_5 m c) t d
/-- That block is the whole array. -/
theorem iblk5_eq (c : Dev nD) (t : Fin cfg0.N) : iblk m c 5 t = (V m c main_v0 : Vec Ideal S1x128 .f32) := by
  funext y
  unfold iblk
  rw [View.read_apply]
  show V m c main_v0 (((cfg0.win 5).blk t).view.emb y) = V m c main_v0 y
  congr 1
  funext a; apply Fin.ext
  exact win0_5.rect_emb_val_of_index_zero t a (idx0_small t a).2.2.2.1 y

/-- Small input 6's buffer holds its block at every point. -/
theorem before0_6 (c : Dev nD) (t : Fin cfg0.N) (d) : (dats m 0 c).before 6 t d = iblk m c 6 t :=
  before0_6_of m (dats m 0 c) (A_eq m c 6) (after0_6 m c) t d
/-- That block is the whole array. -/
theorem iblk6_eq (c : Dev nD) (t : Fin cfg0.N) : iblk m c 6 t = (V m c main_arg6 : Vec Ideal S128x32 .f32) := by
  funext y
  unfold iblk
  rw [View.read_apply]
  show V m c main_arg6 (((cfg0.win 6).blk t).view.emb y) = V m c main_arg6 y
  congr 1
  funext a; apply Fin.ext
  exact win0_6.rect_emb_val_of_index_zero t a (idx0_small t a).2.2.2.2.1 y

/-- Small input 7's buffer holds its block at every point. -/
theorem before0_7 (c : Dev nD) (t : Fin cfg0.N) (d) : (dats m 0 c).before 7 t d = iblk m c 7 t :=
  before0_7_of m (dats m 0 c) (A_eq m c 7) (after0_7 m c) t d
/-- That block is the whole array. -/
theorem iblk7_eq (c : Dev nD) (t : Fin cfg0.N) : iblk m c 7 t = (V m c main_v1 : Vec Ideal S1x32 .f32) := by
  funext y
  unfold iblk
  rw [View.read_apply]
  show V m c main_v1 (((cfg0.win 7).blk t).view.emb y) = V m c main_v1 y
  congr 1
  funext a; apply Fin.ext
  exact win0_7.rect_emb_val_of_index_zero t a (idx0_small t a).2.2.2.2.2.1 y

/-- Small input 8's buffer holds its block at every point. -/
theorem before0_8 (c : Dev nD) (t : Fin cfg0.N) (d) : (dats m 0 c).before 8 t d = iblk m c 8 t :=
  before0_8_of m (dats m 0 c) (A_eq m c 8) (after0_8 m c) t d
/-- That block is the whole array. -/
theorem iblk8_eq (c : Dev nD) (t : Fin cfg0.N) : iblk m c 8 t = (V m c main_arg8 : Vec Ideal S32x16 .f32) := by
  funext y
  unfold iblk
  rw [View.read_apply]
  show V m c main_arg8 (((cfg0.win 8).blk t).view.emb y) = V m c main_arg8 y
  congr 1
  funext a; apply Fin.ext
  exact win0_8.rect_emb_val_of_index_zero t a (idx0_small t a).2.2.2.2.2.2.1 y

/-- Small input 9's buffer holds its block at every point. -/
theorem before0_9 (c : Dev nD) (t : Fin cfg0.N) (d) : (dats m 0 c).before 9 t d = iblk m c 9 t :=
  before0_9_of m (dats m 0 c) (A_eq m c 9) (after0_9 m c) t d
/-- That block is the whole array. -/
theorem iblk9_eq (c : Dev nD) (t : Fin cfg0.N) : iblk m c 9 t = (V m c main_v2 : Vec Ideal S1x16 .f32) := by
  funext y
  unfold iblk
  rw [View.read_apply]
  show V m c main_v2 (((cfg0.win 9).blk t).view.emb y) = V m c main_v2 y
  congr 1
  funext a; apply Fin.ext
  exact win0_9.rect_emb_val_of_index_zero t a (idx0_small t a).2.2.2.2.2.2.2 y

/-- On the rows inside the matrix the first adjacency window's buffer holds the point's row block at EVERY point:
    just fetched in the first half; in the second half left by the point before, whose block is the same. -/
theorem cut_before0_0 (c : Dev nD) (t : Fin cfg0.N) (d) :
    win0_0.cut (grid0.coords t) ((dats m 0 c).before 0 t d) = iblk m c 0 t := by
  by_cases h : t.val < 40
  · rw [(dats m 0 c).before_fetched 0 t ((fetch0_adj t).1.trans (decide_eq_true h))]
    unfold Dat.fetched; rw [blockOf_eq]
    exact win0_0.cut_fill _ _ _
  · have hf : (cfg0.win 0).fetch t = false := (fetch0_adj t).1.trans (decide_eq_false h)
    rw [(dats m 0 c).before_unfetched_in 0 rfl t hf (fun _ => rfl)]
    unfold Dat.kept; rw [after0_0]
    have hs := (same0_adj t).1 (by omega)
    rw [win0_0.cut_fill]
    unfold iblk
    exact cut_fill_read_congr win0_0 c (V m c (Pipeline.arrRef spec0 0)) hs.1 hs.2 d

/-- At a point of the first half the first adjacency window has just been fetched: its buffer holds the
    row block on the rows inside the matrix and whatever it held elsewhere. -/
theorem before0_0_lo (c : Dev nD) (t : Fin cfg0.N) (h : t.val < 40) (d) :
    (dats m 0 c).before 0 t d = win0_0.fill (grid0.coords t) d (iblk m c 0 t) := by
  rw [(dats m 0 c).before_fetched 0 t ((fetch0_adj t).1.trans (decide_eq_true h))]
  unfold Dat.fetched; rw [blockOf_eq]

/-- On the rows inside the matrix the second adjacency window's buffer holds the point's row block at EVERY point:
    just fetched at the first point and from point 41 on; from point 1 to point 40 left by the point before, whose
    block is the same (block 0). -/
theorem cut_before0_1 (c : Dev nD) (t : Fin cfg0.N) (d) :
    win0_1.cut (grid0.coords t) ((dats m 0 c).before 1 t d) = iblk m c 1 t := by
  by_cases h : t.val = 0 ∨ 41 ≤ t.val
  · rw [(dats m 0 c).before_fetched 1 t ((fetch0_adj t).2.trans (decide_eq_true h))]
    unfold Dat.fetched; rw [blockOf_eq]
    exact win0_1.cut_fill _ _ _
  · have hf : (cfg0.win 1).fetch t = false := (fetch0_adj t).2.trans (decide_eq_false h)
    rw [(dats m 0 c).before_unfetched_in 1 rfl t hf (fun _ => rfl)]
    unfold Dat.kept; rw [after0_1]
    have hs := (same0_adj t).2 (by omega) (by omega)
    rw [win0_1.cut_fill]
    unfold iblk
    exact cut_fill_read_congr win0_1 c (V m c (Pipeline.arrRef spec0 1)) hs.1 hs.2 d

/-- At a point of the second half the second adjacency window's buffer holds its row block on the rows
    inside the matrix (fetched at this point, or at the first point and kept since). -/
theorem before0_1_hi (c : Dev nD) (t : Fin cfg0.N) (h : 40 ≤ t.val) (d) :
    ∃ d', (dats m 0 c).before 1 t d = win0_1.fill (grid0.coords t) d' (iblk m c 1 t) := by
  refine ⟨(dats m 0 c).before 1 t d, ?_⟩
  rw [← cut_before0_1 m c t d]
  exact (win0_1.fill_cut _ _).symm

/-- A buffer handed back as found satisfies the obligation's post, for every input window at every point, -/
theorem leaves_kept_in (c : Dev nD) (w : Fin cfg0.W) (hw : w.val < 10) (t : Fin cfg0.N) (d) :
    (dats m 0 c).Leaves w t ((dats m 0 c).before w t d) := by
  revert d
  match w, hw with
  | ⟨0, _⟩, _ =>
    intro d
    rw [Dat.Leaves.live_iff _ (.inl rfl)]
    show ∃ d', _ = win0_0.fill (grid0.coords t) d' (win0_0.cut (grid0.coords t) ((dats m 0 c).after 0 t))
    rw [after0_0, win0_0.cut_fill]
    refine ⟨(dats m 0 c).before 0 t d, ?_⟩
    rw [← cut_before0_0 m c t d]; exact (win0_0.fill_cut _ _).symm
  | ⟨1, _⟩, _ =>
    intro d
    rw [Dat.Leaves.live_iff _ (.inl rfl)]
    show ∃ d', _ = win0_1.fill (grid0.coords t) d' (win0_1.cut (grid0.coords t) ((dats m 0 c).after 1 t))
    rw [after0_1, win0_1.cut_fill]
    refine ⟨(dats m 0 c).before 1 t d, ?_⟩
    rw [← cut_before0_1 m c t d]; exact (win0_1.fill_cut _ _).symm
  | ⟨2, _⟩, _ =>
    intro d
    rw [Dat.Leaves.live_iff _ (.inl rfl)]
    show _ = (dats m 0 c).after 2 t
    rw [after0_2]; exact before0_2 m c t d
  | ⟨3, _⟩, _ =>
    intro d
    rw [Dat.Leaves.live_iff _ (.inl rfl)]
    show _ = (dats m 0 c).after 3 t
    rw [after0_3]; exact before0_3 m c t d
  | ⟨4, _⟩, _ =>
    intro d
    rw [Dat.Leaves.live_iff _ (.inl rfl)]
    show _ = (dats m 0 c).after 4 t
    rw [after0_4]; exact before0_4 m c t d
  | ⟨5, _⟩, _ =>
    intro d
    rw [Dat.Leaves.live_iff _ (.inl rfl)]
    show _ = (dats m 0 c).after 5 t
    rw [after0_5]; exact before0_5 m c t d
  | ⟨6, _⟩, _ =>
    intro d
    rw [Dat.Leaves.live_iff _ (.inl rfl)]
    show _ = (dats m 0 c).after 6 t
    rw [after0_6]; exact before0_6 m c t d
  | ⟨7, _⟩, _ =>
    intro d
    rw [Dat.Leaves.live_iff _ (.inl rfl)]
    show _ = (dats m 0 c).after 7 t
    rw [after0_7]; exact before0_7 m c t d
  | ⟨8, _⟩, _ =>
    intro d
    rw [Dat.Leaves.live_iff _ (.inl rfl)]
    show _ = (dats m 0 c).after 8 t
    rw [after0_8]; exact before0_8 m c t d
  | ⟨9, _⟩, _ =>
    intro d
    rw [Dat.Leaves.live_iff _ (.inl rfl)]
    show _ = (dats m 0 c).after 9 t
    rw [after0_9]; exact before0_9 m c t d
  | ⟨n + 10, _⟩, h => exact absurd h (by simp)

/-! ## The two output windows: where they are idle, and what their buffers hold there

The result's window is stored into at the points of the second half only, the hidden embedding's at the points
of the first half only; neither is ever fetched. -/

/-- The result's window is idle exactly at the points of the first half. -/
theorem idle10 : ∀ t : Fin cfg0.N, cfg0.idle 10 (grid0.coords t) = true ↔ t.val < 40 := by decide +kernel
/-- The hidden embedding's window is idle exactly at the points of the second half. -/
theorem idle11 : ∀ t : Fin cfg0.N, cfg0.idle 11 (grid0.coords t) = true ↔ 40 ≤ t.val := by decide +kernel
/-- An output window is never fetched. -/
theorem nofetch11 : ∀ t : Fin cfg0.N, (cfg0.win 11).fetch t = false := by decide +kernel

theorem live10 (t : Fin cfg0.N) (h : 40 ≤ t.val) : cfg0.idle 10 (grid0.coords t) = false := by
  cases hh : cfg0.idle 10 (grid0.coords t) with
  | false => rfl
  | true => exact absurd ((idle10 t).mp hh) (by omega)

theorem live11 (t : Fin cfg0.N) (h : t.val < 40) : cfg0.idle 11 (grid0.coords t) = false := by
  cases hh : cfg0.idle 11 (grid0.coords t) with
  | false => rfl
  | true => exact absurd ((idle11 t).mp hh) (by omega)

theorem noflush10 (t : Fin cfg0.N) (h : t.val < 40) : (cfg0.win 10).flush t = false := by
  cases hh : (cfg0.win 10).flush t with
  | false => rfl
  | true => exact absurd ((flush10 t).mp hh) (by omega)

theorem noflush11 (t : Fin cfg0.N) (h1 : 39 ≤ t.val) (h2 : t.val ≠ 79) : (cfg0.win 11).flush t = false := by
  cases hh : (cfg0.win 11).flush t with
  | false => rfl
  | true => exact absurd ((flush11 t).mp hh) (by omega)

/-- Two points with one block index and one cut read the same elements of an array into the same elements of
    a buffer. -/
theorem fill_read_congr {G : Pipeline.Grid} (w : Window sig G) {Val : EltTy → Type}
    (A : w.arr.view.ty.Contents Val) {t t' : Fin G.N} (h : w.index t = w.index t')
    (hc : w.clip (G.coords t) = w.clip (G.coords t')) (d : w.block.Idx → Val w.elt) :
    w.fill (G.coords t) d ((w.blk t).view.read Val A) = w.fill (G.coords t') d ((w.blk t').view.read Val A) := by
  funext j
  have hm : w.moved (G.coords t) j = w.moved (G.coords t') j := by unfold Window.moved; rw [hc]
  unfold Window.fill
  split
  · next hj =>
    rw [dif_pos (hm ▸ hj), View.read_apply, View.read_apply]
    show _root_.cast _ (A (w.arr.view.emb ((w.rect t).emb _))) = _root_.cast _ (A (w.arr.view.emb ((w.rect t').emb _)))
    congr 3
    funext a; apply Fin.ext
    rw [Rect.emb_apply, Rect.emb_apply]
    show w.index t a * w.size a + 1 * (j a).val = w.index t' a * w.size a + 1 * (j a).val
    rw [h]
  · next hj => rw [dif_neg (hm ▸ hj)]

/-- At a point idle for a window the body leaves in its buffer what it found there, -/
theorem left_idle (c : Dev nD) (w : Fin cfg0.W) (t : Fin cfg0.N) (d) (h : cfg0.idle w (grid0.coords t) = true) :
    (dats m 0 c).left w t d = (dats m 0 c).before w t d := by
  unfold Dat.left
  split
  · rfl
  · next h' => exact absurd (h.symm.trans h') (by decide)

/-- and at a live point what it stored, on the part the window's transfers move. -/
theorem left_live (c : Dev nD) (w : Fin cfg0.W) (t : Fin cfg0.N) (d) (h : cfg0.idle w (grid0.coords t) = false) :
    (dats m 0 c).left w t d = (dats m 0 c).kept w t d := by
  unfold Dat.left
  split
  · next h' => exact absurd (h.symm.trans h') (by decide)
  · rfl

/-- After point 39 the hidden embedding's buffer is not stored into and, until the last point, not written
    back: at a point of the second half the body finds what point 39 left. -/
theorem before11_hi (c : Dev nD) (d) : ∀ (n : Nat) (t : Fin cfg0.N), t.val = 40 + n →
    (dats m 0 c).before 11 t d = (dats m 0 c).kept 11 ⟨39, by decide⟩ d
  | 0, t, ht => by
    have e : t = ⟨40, by decide⟩ := Fin.ext ht
    subst e
    rw [Dat.before_of_pos _ 11 _ (by decide) (nofetch11 _), noflush11 _ (by decide) (by decide), if_neg Bool.false_ne_true]
    exact left_live m c 11 ⟨39, by decide⟩ d (live11 ⟨39, by decide⟩ (by decide))
  | n + 1, t, ht => by
    have h80 : t.val < 80 := t.isLt
    rw [Dat.before_of_pos _ 11 t (by omega) (nofetch11 t),
      noflush11 ⟨t.val - 1, Nat.lt_of_le_of_lt (Nat.sub_le _ _) t.isLt⟩ (by show 39 ≤ t.val - 1; omega) (by show t.val - 1 ≠ 79; omega),
      if_neg Bool.false_ne_true]
    rw [left_idle m c 11 ⟨t.val - 1, Nat.lt_of_le_of_lt (Nat.sub_le _ _) t.isLt⟩ d
      ((idle11 ⟨t.val - 1, Nat.lt_of_le_of_lt (Nat.sub_le _ _) t.isLt⟩).mpr (by show 40 ≤ t.val - 1; omega))]
    exact before11_hi c d n ⟨t.val - 1, Nat.lt_of_le_of_lt (Nat.sub_le _ _) t.isLt⟩ (by show t.val - 1 = 40 + n; omega)

/-- for the result's window at the points of the first half, -/
theorem leaves_kept_10 (c : Dev nD) (t : Fin cfg0.N) (h : t.val < 40) (d) :
    (dats m 0 c).Leaves 10 t ((dats m 0 c).before 10 t d) := by
  rw [Dat.Leaves.idle_iff _ ((idle10 t).mpr h) (noflush10 t h)]
  exact ⟨d, rfl⟩

/-- and for the hidden embedding's window at the points of the second half (its last block is kept from point
    39 through the second half and written back at the last point). -/
theorem leaves_kept_11 (c : Dev nD) (t : Fin cfg0.N) (h : 40 ≤ t.val) (d) :
    (dats m 0 c).Leaves 11 t ((dats m 0 c).before 11 t d) := by
  have h80 : t.val < 80 := t.isLt
  by_cases h79 : t.val = 79
  · -- the last point writes block 39 back: the buffer still holds, on the rows inside the array, what point 39
    -- left there, and points 39 and 79 have the same block index and the same cut
    rw [Dat.Leaves.live_iff _ (.inr ((flush11 t).mpr (.inr h79)))]
    show ∃ d', (dats m 0 c).before 11 t d
      = win0_11.fill (grid0.coords t) d' (win0_11.cut (grid0.coords t) ((dats m 0 c).after 11 t))
    refine ⟨d, ?_⟩
    rw [before11_hi m c d 39 t (by omega)]
    show win0_11.fill (grid0.coords ⟨39, by decide⟩) d (win0_11.cut (grid0.coords ⟨39, by decide⟩) ((dats m 0 c).after 11 ⟨39, by decide⟩)) = _
    rw [after0_11, after0_11, Window.cut_fill, Window.cut_fill]
    have e : t = ⟨79, by decide⟩ := Fin.ext h79
    subst e
    exact fill_read_congr win0_11 (xeA m c) (by decide +kernel) (by decide +kernel) d
  · rw [Dat.Leaves.idle_iff _ ((idle11 t).mpr h) (noflush11 t (by omega) h79)]
    exact ⟨d, rfl⟩

/-- A buffer the body stored into satisfies the post when, on the rows inside the array, it is the point's
    block of the hidden embedding (first half), -/
theorem leaves_live_11 (c : Dev nD) (t : Fin cfg0.N) (h : t.val < 40) (X : S256x32.Idx → EReal)
    (hX : win0_11.cut (grid0.coords t) X = (win0_11.blk t).view.read (Elt Ideal) (xeA m c)) :
    (dats m 0 c).Leaves 11 t X := by
  rw [Dat.Leaves.live_iff _ (.inl (live11 t h))]
  show ∃ d, X = win0_11.fill (grid0.coords t) d (win0_11.cut (grid0.coords t) ((dats m 0 c).after 11 t))
  refine ⟨X, ?_⟩
  rw [after0_11, Window.cut_fill, ← hX]
  exact (win0_11.fill_cut (grid0.coords t) X).symm

/-- of the result (second half). -/
theorem leaves_live_10 (c : Dev nD) (t : Fin cfg0.N) (h : 40 ≤ t.val) (X : S256x16.Idx → EReal)
    (hX : win0_10.cut (grid0.coords t) X = (win0_10.blk t).view.read (Elt Ideal) (outA m c)) :
    (dats m 0 c).Leaves 10 t X := by
  rw [Dat.Leaves.live_iff _ (.inl (live10 t h))]
  show ∃ d, X = win0_10.fill (grid0.coords t) d (win0_10.cut (grid0.coords t) ((dats m 0 c).after 10 t))
  refine ⟨X, ?_⟩
  rw [after0_10, Window.cut_fill, ← hX]
  exact (win0_10.fill_cut (grid0.coords t) X).symm

end Cert.KernelIdeal.Hand

end
-- ==== Proof.Payloads.lean ====
import proofs.«166228_g84250078479001_cont_9to1c4b_852_4_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## A plain matrix product into the zero accumulator, entry by entry

For a product of an `m × c` by a `c × n` matrix contracting the one shared axis, the left index at output `(p, j)` and
contraction position `k` is `(p, k)` and the right index is `(k, j)`; so the entry is `∑ k, x (p, k) * y (k, j)`. The four
coordinate facts are hypotheses here and are checked once for each of the five products below. -/

theorem matmul_zero_ix2 {m c n : Nat} (D : DotDims ⟨2, ![m, c]⟩ ⟨2, ![c, n]⟩ ⟨2, ![m, n]⟩)
    (hr : D.contr.rank = 1) (hs : D.contr.size ⟨0, by omega⟩ = c)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (x : FVec Ideal ⟨2, ![m, c]⟩ .f32) (y : FVec Ideal ⟨2, ![c, n]⟩ .f32) (p : Fin m) (j : Fin n) :
    FloatOps.matmul D none x y (constant (F := Ideal) ⟨2, ![m, n]⟩ .f32 0x00000000#32) (ix2 p j)
      = ∑ k : Fin c, x (ix2 p k) * y (ix2 k j) := by
  rw [Ideal.matmul_constant_zero_apply, ← Equiv.sum_comp (contrEquiv1 D c hr hs).symm]
  refine Finset.sum_congr rfl fun k _ => ?_
  have hk := contrEquiv1_symm_val D c hr hs k
  have el : D.lhsIdx (ix2 p j) ((contrEquiv1 D c hr hs).symm k) = ix2 p k := funext fun a => Fin.ext (by
    match a with
    | ⟨0, _⟩ => exact hl0 _ _
    | ⟨1, _⟩ => exact (hl1 _ _).trans hk)
  have er : D.rhsIdx (ix2 p j) ((contrEquiv1 D c hr hs).symm k) = ix2 k j := funext fun a => Fin.ext (by
    match a with
    | ⟨0, _⟩ => exact (hr0 _ _).trans hk
    | ⟨1, _⟩ => exact hr1 _ _)
  rw [el, er]

/-! ### The 16 × 256 by 256 × 128 product -/

theorem lhs_fc_0 (i : S16x128.Idx) (q : dot_S16x256_S256x128_S16x128_1_0_0_1_n_n.contr.Idx) :
    (dot_S16x256_S256x128_S16x128_1_0_0_1_n_n.lhsIdx i q 0).val = (i 0).val := by
  unfold DotDims.lhsIdx
  rw [dif_neg (show ¬(0 : Fin S16x256.rank) ∈ dot_S16x256_S256x128_S16x128_1_0_0_1_n_n.lhsBatch by decide), dif_pos (show (0 : Fin S16x256.rank) ∈ dot_S16x256_S256x128_S16x128_1_0_0_1_n_n.lhsNonContracting by decide)]
  rfl
theorem lhs_fc_1 (i : S16x128.Idx) (q : dot_S16x256_S256x128_S16x128_1_0_0_1_n_n.contr.Idx) :
    (dot_S16x256_S256x128_S16x128_1_0_0_1_n_n.lhsIdx i q 1).val = (q ⟨0, by decide⟩).val :=
  dot_S16x256_S256x128_S16x128_1_0_0_1_n_n.lhsIdx_val_of_single rfl i q
theorem rhs_fc_0 (i : S16x128.Idx) (q : dot_S16x256_S256x128_S16x128_1_0_0_1_n_n.contr.Idx) :
    (dot_S16x256_S256x128_S16x128_1_0_0_1_n_n.rhsIdx i q 0).val = (q ⟨0, by decide⟩).val :=
  dot_S16x256_S256x128_S16x128_1_0_0_1_n_n.rhsIdx_val_of_single rfl i q
theorem rhs_fc_1 (i : S16x128.Idx) (q : dot_S16x256_S256x128_S16x128_1_0_0_1_n_n.contr.Idx) :
    (dot_S16x256_S256x128_S16x128_1_0_0_1_n_n.rhsIdx i q 1).val = (i 1).val := by
  unfold DotDims.rhsIdx
  rw [dif_neg (show ¬(1 : Fin S256x128.rank) ∈ dot_S16x256_S256x128_S16x128_1_0_0_1_n_n.rhsBatch by decide), dif_pos (show (1 : Fin S256x128.rank) ∈ dot_S16x256_S256x128_S16x128_1_0_0_1_n_n.rhsNonContracting by decide)]
  rfl

theorem mm_fc_apply (x : FVec Ideal S16x256 .f32) (y : FVec Ideal S256x128 .f32) (p : Fin 16) (j : Fin 128) :
    FloatOps.matmul dot_S16x256_S256x128_S16x128_1_0_0_1_n_n none x y (constant (F := Ideal) S16x128 .f32 0x00000000#32) (ix2 p j)
      = ∑ k : Fin 256, x (ix2 p k) * y (ix2 k j) :=
  matmul_zero_ix2 dot_S16x256_S256x128_S16x128_1_0_0_1_n_n rfl rfl lhs_fc_0 lhs_fc_1 rhs_fc_0 rhs_fc_1 x y p j

/-! ### The 10016 × 128 by 128 × 32 product -/

theorem lhs_sup_0 (i : S10016x32.Idx) (q : dot_S10016x128_S128x32_S10016x32_1_0_0_1_n_n.contr.Idx) :
    (dot_S10016x128_S128x32_S10016x32_1_0_0_1_n_n.lhsIdx i q 0).val = (i 0).val := by
  unfold DotDims.lhsIdx
  rw [dif_neg (show ¬(0 : Fin S10016x128.rank) ∈ dot_S10016x128_S128x32_S10016x32_1_0_0_1_n_n.lhsBatch by decide), dif_pos (show (0 : Fin S10016x128.rank) ∈ dot_S10016x128_S128x32_S10016x32_1_0_0_1_n_n.lhsNonContracting by decide)]
  rfl
theorem lhs_sup_1 (i : S10016x32.Idx) (q : dot_S10016x128_S128x32_S10016x32_1_0_0_1_n_n.contr.Idx) :
    (dot_S10016x128_S128x32_S10016x32_1_0_0_1_n_n.lhsIdx i q 1).val = (q ⟨0, by decide⟩).val :=
  dot_S10016x128_S128x32_S10016x32_1_0_0_1_n_n.lhsIdx_val_of_single rfl i q
theorem rhs_sup_0 (i : S10016x32.Idx) (q : dot_S10016x128_S128x32_S10016x32_1_0_0_1_n_n.contr.Idx) :
    (dot_S10016x128_S128x32_S10016x32_1_0_0_1_n_n.rhsIdx i q 0).val = (q ⟨0, by decide⟩).val :=
  dot_S10016x128_S128x32_S10016x32_1_0_0_1_n_n.rhsIdx_val_of_single rfl i q
theorem rhs_sup_1 (i : S10016x32.Idx) (q : dot_S10016x128_S128x32_S10016x32_1_0_0_1_n_n.contr.Idx) :
    (dot_S10016x128_S128x32_S10016x32_1_0_0_1_n_n.rhsIdx i q 1).val = (i 1).val := by
  unfold DotDims.rhsIdx
  rw [dif_neg (show ¬(1 : Fin S128x32.rank) ∈ dot_S10016x128_S128x32_S10016x32_1_0_0_1_n_n.rhsBatch by decide), dif_pos (show (1 : Fin S128x32.rank) ∈ dot_S10016x128_S128x32_S10016x32_1_0_0_1_n_n.rhsNonContracting by decide)]
  rfl

theorem mm_sup_apply (x : FVec Ideal S10016x128 .f32) (y : FVec Ideal S128x32 .f32) (p : Fin 10016) (j : Fin 32) :
    FloatOps.matmul dot_S10016x128_S128x32_S10016x32_1_0_0_1_n_n none x y (constant (F := Ideal) S10016x32 .f32 0x00000000#32) (ix2 p j)
      = ∑ k : Fin 128, x (ix2 p k) * y (ix2 k j) :=
  matmul_zero_ix2 dot_S10016x128_S128x32_S10016x32_1_0_0_1_n_n rfl rfl lhs_sup_0 lhs_sup_1 rhs_sup_0 rhs_sup_1 x y p j

/-! ### The 256 × 10016 by 10016 × 32 product -/

theorem lhs_hid_0 (i : S256x32.Idx) (q : dot_S256x10016_S10016x32_S256x32_1_0_0_1_n_n.contr.Idx) :
    (dot_S256x10016_S10016x32_S256x32_1_0_0_1_n_n.lhsIdx i q 0).val = (i 0).val := by
  unfold DotDims.lhsIdx
  rw [dif_neg (show ¬(0 : Fin S256x10016.rank) ∈ dot_S256x10016_S10016x32_S256x32_1_0_0_1_n_n.lhsBatch by decide), dif_pos (show (0 : Fin S256x10016.rank) ∈ dot_S256x10016_S10016x32_S256x32_1_0_0_1_n_n.lhsNonContracting by decide)]
  rfl
theorem lhs_hid_1 (i : S256x32.Idx) (q : dot_S256x10016_S10016x32_S256x32_1_0_0_1_n_n.contr.Idx) :
    (dot_S256x10016_S10016x32_S256x32_1_0_0_1_n_n.lhsIdx i q 1).val = (q ⟨0, by decide⟩).val :=
  dot_S256x10016_S10016x32_S256x32_1_0_0_1_n_n.lhsIdx_val_of_single rfl i q
theorem rhs_hid_0 (i : S256x32.Idx) (q : dot_S256x10016_S10016x32_S256x32_1_0_0_1_n_n.contr.Idx) :
    (dot_S256x10016_S10016x32_S256x32_1_0_0_1_n_n.rhsIdx i q 0).val = (q ⟨0, by decide⟩).val :=
  dot_S256x10016_S10016x32_S256x32_1_0_0_1_n_n.rhsIdx_val_of_single rfl i q
theorem rhs_hid_1 (i : S256x32.Idx) (q : dot_S256x10016_S10016x32_S256x32_1_0_0_1_n_n.contr.Idx) :
    (dot_S256x10016_S10016x32_S256x32_1_0_0_1_n_n.rhsIdx i q 1).val = (i 1).val := by
  unfold DotDims.rhsIdx
  rw [dif_neg (show ¬(1 : Fin S10016x32.rank) ∈ dot_S256x10016_S10016x32_S256x32_1_0_0_1_n_n.rhsBatch by decide), dif_pos (show (1 : Fin S10016x32.rank) ∈ dot_S256x10016_S10016x32_S256x32_1_0_0_1_n_n.rhsNonContracting by decide)]
  rfl

theorem mm_hid_apply (x : FVec Ideal S256x10016 .f32) (y : FVec Ideal S10016x32 .f32) (p : Fin 256) (j : Fin 32) :
    FloatOps.matmul dot_S256x10016_S10016x32_S256x32_1_0_0_1_n_n none x y (constant (F := Ideal) S256x32 .f32 0x00000000#32) (ix2 p j)
      = ∑ k : Fin 10016, x (ix2 p k) * y (ix2 k j) :=
  matmul_zero_ix2 dot_S256x10016_S10016x32_S256x32_1_0_0_1_n_n rfl rfl lhs_hid_0 lhs_hid_1 rhs_hid_0 rhs_hid_1 x y p j

/-! ### The 256 × 32 by 32 × 16 product -/

theorem lhs_sup2_0 (i : S256x16.Idx) (q : dot_S256x32_S32x16_S256x16_1_0_0_1_n_n.contr.Idx) :
    (dot_S256x32_S32x16_S256x16_1_0_0_1_n_n.lhsIdx i q 0).val = (i 0).val := by
  unfold DotDims.lhsIdx
  rw [dif_neg (show ¬(0 : Fin S256x32.rank) ∈ dot_S256x32_S32x16_S256x16_1_0_0_1_n_n.lhsBatch by decide), dif_pos (show (0 : Fin S256x32.rank) ∈ dot_S256x32_S32x16_S256x16_1_0_0_1_n_n.lhsNonContracting by decide)]
  rfl
theorem lhs_sup2_1 (i : S256x16.Idx) (q : dot_S256x32_S32x16_S256x16_1_0_0_1_n_n.contr.Idx) :
    (dot_S256x32_S32x16_S256x16_1_0_0_1_n_n.lhsIdx i q 1).val = (q ⟨0, by decide⟩).val :=
  dot_S256x32_S32x16_S256x16_1_0_0_1_n_n.lhsIdx_val_of_single rfl i q
theorem rhs_sup2_0 (i : S256x16.Idx) (q : dot_S256x32_S32x16_S256x16_1_0_0_1_n_n.contr.Idx) :
    (dot_S256x32_S32x16_S256x16_1_0_0_1_n_n.rhsIdx i q 0).val = (q ⟨0, by decide⟩).val :=
  dot_S256x32_S32x16_S256x16_1_0_0_1_n_n.rhsIdx_val_of_single rfl i q
theorem rhs_sup2_1 (i : S256x16.Idx) (q : dot_S256x32_S32x16_S256x16_1_0_0_1_n_n.contr.Idx) :
    (dot_S256x32_S32x16_S256x16_1_0_0_1_n_n.rhsIdx i q 1).val = (i 1).val := by
  unfold DotDims.rhsIdx
  rw [dif_neg (show ¬(1 : Fin S32x16.rank) ∈ dot_S256x32_S32x16_S256x16_1_0_0_1_n_n.rhsBatch by decide), dif_pos (show (1 : Fin S32x16.rank) ∈ dot_S256x32_S32x16_S256x16_1_0_0_1_n_n.rhsNonContracting by decide)]
  rfl

theorem mm_sup2_apply (x : FVec Ideal S256x32 .f32) (y : FVec Ideal S32x16 .f32) (p : Fin 256) (j : Fin 16) :
    FloatOps.matmul dot_S256x32_S32x16_S256x16_1_0_0_1_n_n none x y (constant (F := Ideal) S256x16 .f32 0x00000000#32) (ix2 p j)
      = ∑ k : Fin 32, x (ix2 p k) * y (ix2 k j) :=
  matmul_zero_ix2 dot_S256x32_S32x16_S256x16_1_0_0_1_n_n rfl rfl lhs_sup2_0 lhs_sup2_1 rhs_sup2_0 rhs_sup2_1 x y p j

/-! ### The 256 × 10016 by 10016 × 16 product -/

theorem lhs_out_0 (i : S256x16.Idx) (q : dot_S256x10016_S10016x16_S256x16_1_0_0_1_n_n.contr.Idx) :
    (dot_S256x10016_S10016x16_S256x16_1_0_0_1_n_n.lhsIdx i q 0).val = (i 0).val := by
  unfold DotDims.lhsIdx
  rw [dif_neg (show ¬(0 : Fin S256x10016.rank) ∈ dot_S256x10016_S10016x16_S256x16_1_0_0_1_n_n.lhsBatch by decide), dif_pos (show (0 : Fin S256x10016.rank) ∈ dot_S256x10016_S10016x16_S256x16_1_0_0_1_n_n.lhsNonContracting by decide)]
  rfl
theorem lhs_out_1 (i : S256x16.Idx) (q : dot_S256x10016_S10016x16_S256x16_1_0_0_1_n_n.contr.Idx) :
    (dot_S256x10016_S10016x16_S256x16_1_0_0_1_n_n.lhsIdx i q 1).val = (q ⟨0, by decide⟩).val :=
  dot_S256x10016_S10016x16_S256x16_1_0_0_1_n_n.lhsIdx_val_of_single rfl i q
theorem rhs_out_0 (i : S256x16.Idx) (q : dot_S256x10016_S10016x16_S256x16_1_0_0_1_n_n.contr.Idx) :
    (dot_S256x10016_S10016x16_S256x16_1_0_0_1_n_n.rhsIdx i q 0).val = (q ⟨0, by decide⟩).val :=
  dot_S256x10016_S10016x16_S256x16_1_0_0_1_n_n.rhsIdx_val_of_single rfl i q
theorem rhs_out_1 (i : S256x16.Idx) (q : dot_S256x10016_S10016x16_S256x16_1_0_0_1_n_n.contr.Idx) :
    (dot_S256x10016_S10016x16_S256x16_1_0_0_1_n_n.rhsIdx i q 1).val = (i 1).val := by
  unfold DotDims.rhsIdx
  rw [dif_neg (show ¬(1 : Fin S10016x16.rank) ∈ dot_S256x10016_S10016x16_S256x16_1_0_0_1_n_n.rhsBatch by decide), dif_pos (show (1 : Fin S10016x16.rank) ∈ dot_S256x10016_S10016x16_S256x16_1_0_0_1_n_n.rhsNonContracting by decide)]
  rfl

theorem mm_out_apply (x : FVec Ideal S256x10016 .f32) (y : FVec Ideal S10016x16 .f32) (p : Fin 256) (j : Fin 16) :
    FloatOps.matmul dot_S256x10016_S10016x16_S256x16_1_0_0_1_n_n none x y (constant (F := Ideal) S256x16 .f32 0x00000000#32) (ix2 p j)
      = ∑ k : Fin 10016, x (ix2 p k) * y (ix2 k j) :=
  matmul_zero_ix2 dot_S256x10016_S10016x16_S256x16_1_0_0_1_n_n rfl rfl lhs_out_0 lhs_out_1 rhs_out_0 rhs_out_1 x y p j

/-! ## The stacked features, entry by entry

Stacking a 10000 × 128 block on top of a 16 × 128 block: a row below 10000 is a row of the first block, any other
row `r` is row `r − 10000` of the second. -/

theorem stack_apply (a : FVec Ideal S10000x128 .f32) (b : FVec Ideal S16x128 .f32) (r : Fin 10016) (k : Fin 128) :
    concatenate S10016x128 0 [⟨S10000x128, a⟩, ⟨S16x128, b⟩] concatenates_S10000x128_S16x128_S10016x128_d0 (ix2 r k)
      = if h : r.val < 10000 then a (ix2 ⟨r.val, h⟩ k) else b (ix2 (⟨r.val - 10000, by omega⟩ : Fin 16) k) := by
  by_cases h : r.val < 10000
  · rw [dif_pos h]
    exact concatenate_pair_apply_left 0 a b concatenates_S10000x128_S16x128_S10016x128_d0 (ix2 r k) rfl (ix2 ⟨r.val, h⟩ k)
      (fun c => match c with
        | ⟨0, _⟩ => rfl
        | ⟨1, _⟩ => rfl)
  · rw [dif_neg h]
    exact concatenate_pair_apply_right 0 a b concatenates_S10000x128_S16x128_S10016x128_d0 (ix2 r k) rfl rfl
      (ix2 (⟨r.val - 10000, by omega⟩ : Fin 16) k)
      (fun c hc => match c, hc with
        | ⟨0, _⟩, hc => absurd rfl hc
        | ⟨1, _⟩, _ => rfl)
      (by show r.val - 10000 + 10000 = r.val; omega)

/-! ## The body's four stored values, entry by entry, over the extended reals

Each stored value is a matrix product into a zero accumulator followed by pointwise steps, so each of its
entries is a plain finite sum: an entry in row `p` reads row `p` of the left factor only. -/

/-- The support: the stacked features (10000 given rows, then 16 rows `Y · Wfc + bfc`) times `W1`. -/
theorem pay1_apply (x4 : Vec Ideal S16x256 .f32) (x5 : Vec Ideal S256x128 .f32) (x6 : Vec Ideal S1x128 .f32)
    (x3 : Vec Ideal S10000x128 .f32) (x7 : Vec Ideal S128x32 .f32) (r : Fin 10016) (j : Fin 32) :
    k0_pay1 (F := Ideal) x4 x5 x6 x3 x7 (ix2 r j)
      = ∑ k : Fin 128, (if h : r.val < 10000 then x3 (ix2 ⟨r.val, h⟩ k)
          else ((∑ q : Fin 256, x4 (ix2 (⟨r.val - 10000, by omega⟩ : Fin 16) q) * x5 (ix2 q k)) + x6 (ix2 (0 : Fin 1) k))) * x7 (ix2 k j) := by
  unfold k0_pay1
  show shapeCast S10016x32 (FloatOps.matmul dot_S10016x128_S128x32_S10016x32_1_0_0_1_n_n none
      (concatenate S10016x128 0 [⟨S10000x128, x3⟩, ⟨S16x128, addf (F := Ideal)
        (FloatOps.matmul dot_S16x256_S256x128_S16x128_1_0_0_1_n_n none x4 x5 (constant (F := Ideal) S16x128 .f32 0x00000000#32))
        (broadcastTo S16x128 (shapeCast S1x128 x6 shapeCasts_S1x128_S1x128) broadcasts_S1x128_S16x128)⟩]
        concatenates_S10000x128_S16x128_S10016x128_d0)
      x7 (constant (F := Ideal) S10016x32 .f32 0x00000000#32)) shapeCasts_S10016x32_S10016x32 (ix2 r j) = _
  rw [shapeCast_self, mm_sup_apply]
  refine Finset.sum_congr rfl fun k _ => ?_
  refine congrArg (· * x7 (ix2 k j)) ?_
  rw [stack_apply]
  by_cases h : r.val < 10000
  · rw [dif_pos h, dif_pos h]
  · rw [dif_neg h, dif_neg h]
    show FloatOps.matmul dot_S16x256_S256x128_S16x128_1_0_0_1_n_n none x4 x5 (constant (F := Ideal) S16x128 .f32 0x00000000#32)
        (ix2 (⟨r.val - 10000, by omega⟩ : Fin 16) k)
      + broadcastTo S16x128 (shapeCast S1x128 x6 shapeCasts_S1x128_S1x128) broadcasts_S1x128_S16x128
        (ix2 (⟨r.val - 10000, by omega⟩ : Fin 16) k) = _
    rw [mm_fc_apply, shapeCast_self, broadcastTo_1b_ab_apply]

/-- A block of hidden embeddings: `max (x1 · s + b) 0`, row by row. -/
theorem pay2_apply (x1 : Vec Ideal S256x10016 .f32) (s : Vec Ideal S10016x32 .f32) (x8 : Vec Ideal S1x32 .f32)
    (p : Fin 256) (j : Fin 32) :
    k0_pay2 (F := Ideal) x1 s x8 (ix2 p j)
      = max ((∑ k : Fin 10016, x1 (ix2 p k) * s (ix2 k j)) + x8 (ix2 (0 : Fin 1) j)) 0 := by
  unfold k0_pay2
  show max (FloatOps.matmul dot_S256x10016_S10016x32_S256x32_1_0_0_1_n_n none x1 s (constant (F := Ideal) S256x32 .f32 0x00000000#32) (ix2 p j)
      + broadcastTo S256x32 (shapeCast S1x32 x8 shapeCasts_S1x32_S1x32) broadcasts_S1x32_S256x32 (ix2 p j))
    (Ideal.ofBits .f32 0x00000000#32) = _
  rw [Ideal.ofBits_zero_f32, mm_hid_apply, shapeCast_self, broadcastTo_1b_ab_apply]

/-- The block of the second support: the block of hidden embeddings times `W2`. -/
theorem pay3_apply (x1 : Vec Ideal S256x10016 .f32) (s : Vec Ideal S10016x32 .f32) (x8 : Vec Ideal S1x32 .f32)
    (x9 : Vec Ideal S32x16 .f32) (p : Fin 256) (j : Fin 16) :
    k0_pay3 (F := Ideal) x1 s x8 x9 (ix2 p j)
      = ∑ k : Fin 32, k0_pay2 (F := Ideal) x1 s x8 (ix2 p k) * x9 (ix2 k j) := by
  unfold k0_pay3
  show shapeCast S256x16 (FloatOps.matmul dot_S256x32_S32x16_S256x16_1_0_0_1_n_n none (k0_pay2 (F := Ideal) x1 s x8) x9
      (constant (F := Ideal) S256x16 .f32 0x00000000#32)) shapeCasts_S256x16_S256x16 (ix2 p j) = _
  rw [shapeCast_self, mm_sup2_apply]

/-- A block of the result: `logistic (x2 · z + b)`, row by row. -/
theorem pay4_apply (x2 : Vec Ideal S256x10016 .f32) (z : Vec Ideal S10016x16 .f32) (x10 : Vec Ideal S1x16 .f32)
    (p : Fin 256) (j : Fin 16) :
    k0_pay4 (F := Ideal) x2 z x10 (ix2 p j)
      = Ideal.logistic ((∑ k : Fin 10016, x2 (ix2 p k) * z (ix2 k j)) + x10 (ix2 (0 : Fin 1) j)) := by
  unfold k0_pay4
  show Ideal.logistic (FloatOps.matmul dot_S256x10016_S10016x16_S256x16_1_0_0_1_n_n none x2 z (constant (F := Ideal) S256x16 .f32 0x00000000#32) (ix2 p j)
      + broadcastTo S256x16 (shapeCast S1x16 x10 shapeCasts_S1x16_S1x16) broadcasts_S1x16_S256x16 (ix2 p j)) = _
  rw [mm_out_apply, shapeCast_self, broadcastTo_1b_ab_apply]

end Cert.KernelIdeal.Hand

end
-- ==== Proof.BodyRunI.lean ====
import proofs.«166228_g84250078479001_cont_9to1c4b_852_4_alg».proof.Proof.Gen.KernelIdeal.Launch
import proofs.«166228_g84250078479001_cont_9to1c4b_852_4_alg».proof.Proof.Gen.KernelIdeal.Skeleton
import proofs.«166228_g84250078479001_cont_9to1c4b_852_4_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body at a point, on any staging memrefs

The body has three guarded parts. At the first grid point it builds the first layer's support in the
first scratch. At the points of the first half it multiplies the current row block of the first
adjacency matrix into that support, adds the bias, clamps at zero, stores the block of hidden
embeddings, and stores that block times the second weight matrix into the rows of the second scratch
that belong to the point. At the points of the second half it multiplies the current row block of the
second adjacency matrix into the first 10016 rows of the second scratch, adds the bias and applies the
logistic function. The three theorems below say what each buffer holds afterwards in each of the three
combinations of guards that the grid meets. -/

/-- The first guard, as the body computes it from the grid coordinate. -/
abbrev condFirst (i : grid0.Coords) : Prop :=
  (Scalar.cmpi .ne (Scalar.extui (Scalar.cmpi .eq (BitVec.ofNat 32 (i 0).val) 0#32)) 0#32) = 1#1

/-- The rows of the second scratch that the point `i` of the first half writes. -/
abbrev rowsAt (i : grid0.Coords) (h2 : k0_cond2 i = 1#1) : Rect S10240x16 :=
  Rect.unit (s := S10240x16) (k0_off1 i) S256x16.size (k0_off1_inb i h2)

/-- The first 10016 rows of the second scratch: what the second half reads. -/
abbrev rowsRead : Rect S10240x16 :=
  Rect.unit (s := S10240x16) ![0, 0] S10016x16.size inb_S10240x16_S10016x16_0_0

variable (c : Dev nD) (i : grid0.Coords)
  (arg1 : Memref sig .tc .vmem S256x10016 .f32) (harg1 : arg1.IsWhole) (arg2 : Memref sig .tc .vmem S256x10016 .f32) (harg2 : arg2.IsWhole)
  (arg3 : Memref sig .tc .vmem S10000x128 .f32) (harg3 : arg3.IsWhole) (arg4 : Memref sig .tc .vmem S16x256 .f32) (harg4 : arg4.IsWhole)
  (arg5 : Memref sig .tc .vmem S256x128 .f32) (harg5 : arg5.IsWhole) (arg6 : Memref sig .tc .vmem S1x128 .f32) (harg6 : arg6.IsWhole)
  (arg7 : Memref sig .tc .vmem S128x32 .f32) (harg7 : arg7.IsWhole) (arg8 : Memref sig .tc .vmem S1x32 .f32) (harg8 : arg8.IsWhole)
  (arg9 : Memref sig .tc .vmem S32x16 .f32) (harg9 : arg9.IsWhole) (arg10 : Memref sig .tc .vmem S1x16 .f32) (harg10 : arg10.IsWhole)
  (arg11 : Memref sig .tc .vmem S256x16 .f32) (harg11 : arg11.IsWhole) (arg12 : Memref sig .tc .vmem S256x32 .f32) (harg12 : arg12.IsWhole)
  (arg13 : Memref sig .tc .vmem S10016x32 .f32) (harg13 : arg13.IsWhole) (arg14 : Memref sig .tc .vmem S10240x16 .f32) (harg14 : arg14.IsWhole)

/-- What the second scratch holds after the rows of point `i` have been overwritten by `p`. -/
def RowsWritten (h2 : k0_cond2 i = 1#1) (z z' : Vec F S10240x16 .f32) (p : Vec F S256x16 .f32) : Prop :=
  (∀ y : S256x16.Idx, z' ((rowsAt i h2).emb y) = p y) ∧ (∀ j : S10240x16.Idx, j ∉ (rowsAt i h2).set → z' j = z j)

/-- The literal zero offsets of rank two are the zero function. -/
theorem zero2 : (![0, 0] : Fin 2 → Nat) = fun _ => 0 := by funext a; fin_cases a <;> rfl

/-- One store through the whole-shape rectangle at zero offsets, over any contents, reads as its payload. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f [⟨Rect.unit off S.size inb, w⟩]
    (fun y => ⟨⟨Rect.unit off S.size inb, w⟩, List.mem_singleton_self _, View.mem_set_unit_zero h inb y⟩),
    View.canon_unit_zero h]

/-- One store through the rows of point `i`, over contents that read `z`: the rows hold the payload, every other
    element reads as before. -/
theorem rowsWritten_of_store (h2 : k0_cond2 i = 1#1) (z : Vec F S10240x16 .f32) (p w : Vec F S256x16 .f32) (hw : w = p)
    (f : arg14.view.ty.Contents (Elt F)) (hf : arg14.view.read (Elt F) f = z) :
    RowsWritten i h2 z (arg14.view.read (Elt F) (arg14.view.writes (Elt F) f [⟨rowsAt i h2, w⟩])) p := by
  refine ⟨fun y => ?_, fun j hj => ?_⟩
  · rw [← hw]; exact View.read_writes_cons_emb arg14.view f (rowsAt i h2) w [] y
  · rw [View.read_writes_apply_of_forall_not_mem arg14.view f j [⟨rowsAt i h2, w⟩]
      (fun q hq => by rw [List.mem_singleton.mp hq]; exact hj), hf]

set_option maxHeartbeats 1000000 in
/-- THE FIRST POINT: the support is built from the five small operands and stored whole into the first
    scratch (whatever it held); then the first-half part runs on it. -/
theorem run_first (h1 : condFirst i) (h2 : k0_cond2 i = 1#1) (h3 : ¬ k0_cond3 i = 1#1)
    (x1 : Vec F S256x10016 .f32) (x3 : Vec F S10000x128 .f32) (x4 : Vec F S16x256 .f32) (x5 : Vec F S256x128 .f32)
    (x6 : Vec F S1x128 .f32) (x7 : Vec F S128x32 .f32) (x8 : Vec F S1x32 .f32) (x9 : Vec F S32x16 .f32) (z2 : Vec F S10240x16 .f32)
    (E : Set ℕ) (K : PUnit → sProp 𝕄) :
    iprop(owns (c : Thread nD τ) arg1 fullShare x1 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (∃ d, owns (c : Thread nD τ) arg12 fullShare d) ∗ (∃ d, owns (c : Thread nD τ) arg13 fullShare d) ∗ owns (c : Thread nD τ) arg14 fullShare z2
        ∗ (iprop(owns (c : Thread nD τ) arg1 fullShare x1 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9
            ∗ owns (c : Thread nD τ) arg12 fullShare (k0_pay2 x1 (k0_pay1 x4 x5 x6 x3 x7) x8)
            ∗ owns (c : Thread nD τ) arg13 fullShare (k0_pay1 x4 x5 x6 x3 x7)
            ∗ (∃ z2', ⌜RowsWritten i h2 z2 z2' (k0_pay3 x1 (k0_pay1 x4 x5 x6 x3 x7) x8 x9)⌝ ∗ owns (c : Thread nD τ) arg14 fullShare z2')) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d12, %f12, -, H12⟩, ⟨%d13, %f13, -, H13⟩, ⟨%f14, %hf14, H14⟩, Hk⟩
  obtain rfl := harg1.eq_unread hf1; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg14.eq_unread hf14
  sl_exec (disch := first | exact h1 | exact h2 | exact h3)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr
    swap; · iexact H12
    ipureintro
    refine (read_store_whole arg12.view f12 zero2 inb_S256x32_S256x32_0_0 _).trans ?_
    sl_unfold_run_names
    simp only [View.readAt_eq_ld, harg1.read_unread, harg3.read_unread, harg4.read_unread, harg5.read_unread, harg6.read_unread, harg7.read_unread, harg8.read_unread,
      View.ld_unit_zero (S := S256x10016) zero2, View.ld_unit_zero (S := S10000x128) zero2, View.ld_unit_zero (S := S16x256) zero2, View.ld_unit_zero (S := S256x128) zero2, View.ld_unit_zero (S := S1x128) zero2, View.ld_unit_zero (S := S128x32) zero2, View.ld_unit_zero (S := S1x32) zero2,
      View.readCov_unit_zero (S := S10016x32) _ zero2]
  isplitl [H13]
  · iexists _; isplitr
    swap; · iexact H13
    ipureintro
    sl_unfold_run_names
    refine (read_store_whole arg13.view f13 zero2 inb_S10016x32_S10016x32_0_0 _).trans ?_
    simp only [View.readAt_eq_ld, harg3.read_unread, harg4.read_unread, harg5.read_unread, harg6.read_unread, harg7.read_unread,
      View.ld_unit_zero (S := S10000x128) zero2, View.ld_unit_zero (S := S16x256) zero2, View.ld_unit_zero (S := S256x128) zero2, View.ld_unit_zero (S := S1x128) zero2, View.ld_unit_zero (S := S128x32) zero2]
  iexists _; isplitr
  swap
  · iexists _; isplitr
    swap; · iexact H14
    ipureintro; rfl
  ipureintro
  refine rowsWritten_of_store i arg14 h2 z2 _ _ ?_ _ (harg14.read_unread z2)
  sl_unfold_run_names
  simp only [View.readAt_eq_ld, harg1.read_unread, harg3.read_unread, harg4.read_unread, harg5.read_unread, harg6.read_unread, harg7.read_unread, harg8.read_unread, harg9.read_unread,
      View.ld_unit_zero (S := S256x10016) zero2, View.ld_unit_zero (S := S10000x128) zero2, View.ld_unit_zero (S := S16x256) zero2, View.ld_unit_zero (S := S256x128) zero2, View.ld_unit_zero (S := S1x128) zero2, View.ld_unit_zero (S := S128x32) zero2, View.ld_unit_zero (S := S1x32) zero2, View.ld_unit_zero (S := S32x16) zero2,
      View.readCov_unit_zero (S := S10016x32) _ zero2]

set_option maxHeartbeats 1000000 in
/-- A LATER POINT OF THE FIRST HALF: the first scratch is only read. -/
theorem run_phase1 (h1 : ¬ condFirst i) (h2 : k0_cond2 i = 1#1) (h3 : ¬ k0_cond3 i = 1#1)
    (x1 : Vec F S256x10016 .f32) (s : Vec F S10016x32 .f32) (x8 : Vec F S1x32 .f32) (x9 : Vec F S32x16 .f32) (z2 : Vec F S10240x16 .f32)
    (E : Set ℕ) (K : PUnit → sProp 𝕄) :
    iprop(owns (c : Thread nD τ) arg1 fullShare x1 ∗ owns (c : Thread nD τ) arg8 fullShare x8 ∗ owns (c : Thread nD τ) arg9 fullShare x9
        ∗ (∃ d, owns (c : Thread nD τ) arg12 fullShare d) ∗ owns (c : Thread nD τ) arg13 fullShare s ∗ owns (c : Thread nD τ) arg14 fullShare z2
        ∗ (iprop(owns (c : Thread nD τ) arg1 fullShare x1 ∗ owns (c : Thread nD τ) arg8 fullShare x8 ∗ owns (c : Thread nD τ) arg9 fullShare x9
            ∗ owns (c : Thread nD τ) arg12 fullShare (k0_pay2 x1 s x8) ∗ owns (c : Thread nD τ) arg13 fullShare s
            ∗ (∃ z2', ⌜RowsWritten i h2 z2 z2' (k0_pay3 x1 s x8 x9)⌝ ∗ owns (c : Thread nD τ) arg14 fullShare z2')) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f1, %hf1, H1⟩, ⟨%f8, %hf8, H8⟩, ⟨%f9, %hf9, H9⟩, ⟨%d12, %f12, -, H12⟩, ⟨%f13, %hf13, H13⟩, ⟨%f14, %hf14, H14⟩, Hk⟩
  obtain rfl := harg1.eq_unread hf1; obtain rfl := harg8.eq_unread hf8; obtain rfl := harg9.eq_unread hf9
  obtain rfl := harg13.eq_unread hf13; obtain rfl := harg14.eq_unread hf14
  sl_exec (disch := first | exact h1 | exact h2 | exact h3)
  sl_step
  iapply Hk
  isplitl [H1]
  · iexists _; isplitr; · ipureintro; exact harg1.read_unread _
    iexact H1
  isplitl [H8]
  · iexists _; isplitr; · ipureintro; exact harg8.read_unread _
    iexact H8
  isplitl [H9]
  · iexists _; isplitr; · ipureintro; exact harg9.read_unread _
    iexact H9
  isplitl [H12]
  · iexists _; isplitr
    swap; · iexact H12
    ipureintro
    refine (read_store_whole arg12.view f12 zero2 inb_S256x32_S256x32_0_0 _).trans ?_
    simp only [View.readAt_eq_ld, harg1.read_unread, harg8.read_unread, harg13.read_unread,
      View.ld_unit_zero (S := S256x10016) zero2, View.ld_unit_zero (S := S10016x32) zero2, View.ld_unit_zero (S := S1x32) zero2]
  isplitl [H13]
  · iexists _; isplitr; · ipureintro; exact harg13.read_unread _
    iexact H13
  iexists _; isplitr
  swap
  · iexists _; isplitr
    swap; · iexact H14
    ipureintro; rfl
  ipureintro
  refine rowsWritten_of_store i arg14 h2 z2 _ _ ?_ _ (harg14.read_unread z2)
  simp only [View.readAt_eq_ld, harg1.read_unread, harg8.read_unread, harg9.read_unread, harg13.read_unread,
      View.ld_unit_zero (S := S256x10016) zero2, View.ld_unit_zero (S := S10016x32) zero2, View.ld_unit_zero (S := S1x32) zero2, View.ld_unit_zero (S := S32x16) zero2]

set_option maxHeartbeats 1000000 in
/-- A POINT OF THE SECOND HALF: the second scratch is only read (its first 10016 rows). -/
theorem run_phase2 (h1 : ¬ condFirst i) (h2 : ¬ k0_cond2 i = 1#1) (h3 : k0_cond3 i = 1#1)
    (x2 : Vec F S256x10016 .f32) (x10 : Vec F S1x16 .f32) (z2 : Vec F S10240x16 .f32)
    (E : Set ℕ) (K : PUnit → sProp 𝕄) :
    iprop(owns (c : Thread nD τ) arg2 fullShare x2 ∗ owns (c : Thread nD τ) arg10 fullShare x10
        ∗ (∃ d, owns (c : Thread nD τ) arg11 fullShare d) ∗ owns (c : Thread nD τ) arg14 fullShare z2
        ∗ (iprop(owns (c : Thread nD τ) arg2 fullShare x2 ∗ owns (c : Thread nD τ) arg10 fullShare x10
            ∗ owns (c : Thread nD τ) arg11 fullShare (k0_pay4 x2 (fun y => z2 (rowsRead.emb y)) x10)
            ∗ owns (c : Thread nD τ) arg14 fullShare z2) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  unfold owns
  iintro ⟨⟨%f2, %hf2, H2⟩, ⟨%f10, %hf10, H10⟩, ⟨%d11, %f11, -, H11⟩, ⟨%f14, %hf14, H14⟩, Hk⟩
  obtain rfl := harg2.eq_unread hf2; obtain rfl := harg10.eq_unread hf10; obtain rfl := harg14.eq_unread hf14
  sl_exec (disch := first | exact h1 | exact h2 | exact h3)
  sl_step
  iapply Hk
  isplitl [H2]
  · iexists _; isplitr; · ipureintro; exact harg2.read_unread _
    iexact H2
  isplitl [H10]
  · iexists _; isplitr; · ipureintro; exact harg10.read_unread _
    iexact H10
  isplitl [H11]
  · iexists _; isplitr
    swap; · iexact H11
    ipureintro
    refine (read_store_whole arg11.view f11 zero2 inb_S256x16_S256x16_0_0 _).trans ?_
    simp only [View.readAt_eq_ld, harg2.read_unread, harg10.read_unread, harg14.read_unread,
      View.ld_unit_zero (S := S256x10016) zero2, View.ld_unit_zero (S := S1x16) zero2]
    rfl
  iexists _; isplitr; · ipureintro; exact harg14.read_unread _
  iexact H14

end Cert.KernelIdeal.Hand

end
-- ==== Proof.BlockMath.lean ====
import proofs.«166228_g84250078479001_cont_9to1c4b_852_4_alg».proof.Proof.Data
import proofs.«166228_g84250078479001_cont_9to1c4b_852_4_alg».proof.Proof.Payloads
import proofs.«166228_g84250078479001_cont_9to1c4b_852_4_alg».proof.Proof.BodyRunI
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body's stored values at a grid point are blocks of the specification

At a point `t` of the first half the first adjacency window's buffer holds rows `256·t … 256·t + 255` of `E`
(those below 10016; the rest are words nothing names). Every entry of a matrix product reads one row of its
left factor, so on the rows inside the matrix the stored block of hidden embeddings is the point's block of
`max (E · s1 + b1) 0`, and the rows stored into the second scratch are the point's rows of the second support.
At a point of the second half the same holds of the second adjacency matrix, the second support and the
result. -/

/-! ## The three biases as the region finds them -/

/-- When the region is entered `main_v0` holds the bias `main_arg5` as one row: the host reshaped it before the region. -/
theorem V_main_v0_eq (c : Dev nD) :
    (V m c main_v0 : S1x128.Idx → EReal)
      = shapeCast S1x128 (m ((c : Thread nD τ).loc main_arg5) : S128.Idx → EReal) shapeCasts_S128_S1x128 := by
  dsimp only [Gen.V, Gen.hostOps0]; after_results; rfl

/-- Entry `(u, k)` of that row is entry `k` of the bias. -/
theorem V_main_v0_at (c : Dev nD) (u : Fin 1) (k : Fin 128) :
    (V m c main_v0 : Vec Ideal S1x128 .f32) (ix2 u k) = (m ((c : Thread nD τ).loc main_arg5) : S128.Idx → EReal) (ix1 k) := by
  rw [V_main_v0_eq]; exact shapeCast_a_1a_apply _ _ u k

/-- When the region is entered `main_v1` holds the bias `main_arg7` as one row: the host reshaped it before the region. -/
theorem V_main_v1_eq (c : Dev nD) :
    (V m c main_v1 : S1x32.Idx → EReal)
      = shapeCast S1x32 (m ((c : Thread nD τ).loc main_arg7) : S32.Idx → EReal) shapeCasts_S32_S1x32 := by
  dsimp only [Gen.V, Gen.hostOps0]; after_results; rfl

/-- Entry `(u, k)` of that row is entry `k` of the bias. -/
theorem V_main_v1_at (c : Dev nD) (u : Fin 1) (k : Fin 32) :
    (V m c main_v1 : Vec Ideal S1x32 .f32) (ix2 u k) = (m ((c : Thread nD τ).loc main_arg7) : S32.Idx → EReal) (ix1 k) := by
  rw [V_main_v1_eq]; exact shapeCast_a_1a_apply _ _ u k

/-- When the region is entered `main_v2` holds the bias `main_arg9` as one row: the host reshaped it before the region. -/
theorem V_main_v2_eq (c : Dev nD) :
    (V m c main_v2 : S1x16.Idx → EReal)
      = shapeCast S1x16 (m ((c : Thread nD τ).loc main_arg9) : S16.Idx → EReal) shapeCasts_S16_S1x16 := by
  dsimp only [Gen.V, Gen.hostOps0]; after_results; rfl

/-- Entry `(u, k)` of that row is entry `k` of the bias. -/
theorem V_main_v2_at (c : Dev nD) (u : Fin 1) (k : Fin 16) :
    (V m c main_v2 : Vec Ideal S1x16 .f32) (ix2 u k) = (m ((c : Thread nD τ).loc main_arg9) : S16.Idx → EReal) (ix1 k) := by
  rw [V_main_v2_eq]; exact shapeCast_a_1a_apply _ _ u k

/-! ## The support, over any operands -/

/-- The support's entry `(r, j)` is the specification's, whenever the one-row bias operand holds the bias vector. -/
theorem pay1_eq_s1 (x4 : Vec Ideal S16x256 .f32) (x5 : Vec Ideal S256x128 .f32) (x6 : Vec Ideal S1x128 .f32)
    (b : Cert.Spec.T128.Idx → EReal) (x3 : Vec Ideal S10000x128 .f32) (x7 : Vec Ideal S128x32 .f32)
    (hb : ∀ k : Fin 128, x6 (ix2 (0 : Fin 1) k) = b (ix1 k)) (r : Fin 10016) (j : Fin 32) :
    k0_pay1 (F := Ideal) x4 x5 x6 x3 x7 (ix2 r j) = Cert.Spec.s1 x4 x3 x5 b x7 r j := by
  rw [pay1_apply]
  unfold Cert.Spec.s1
  refine Finset.sum_congr rfl fun k _ => ?_
  refine congrArg (· * x7 (ix2 k j)) ?_
  unfold Cert.Spec.xstar
  by_cases h : r.val < 10000
  · rw [dif_pos h, dif_pos h]
  · rw [dif_neg h, dif_neg h]
    unfold Cert.Spec.ynew
    rw [hb]

/-- The support the first point builds from the five small operands is the specification's. -/
theorem pay1_is_s1 (c : Dev nD) :
    k0_pay1 (F := Ideal) (V m c main_arg0 : Vec Ideal S16x256 .f32) (V m c main_arg4 : Vec Ideal S256x128 .f32) (V m c main_v0 : Vec Ideal S1x128 .f32)
      (V m c main_arg1 : Vec Ideal S10000x128 .f32) (V m c main_arg6 : Vec Ideal S128x32 .f32) = s1A m c := by
  funext i
  obtain ⟨r, j, rfl⟩ : ∃ (r : Fin 10016) (j : Fin 32), i = ix2 r j := ⟨i 0, i 1, eq_ix2 i⟩
  refine (pay1_eq_s1 _ _ _ (m ((c : Thread nD τ).loc main_arg5)) _ _ (fun k => V_main_v0_at m c 0 k) r j).trans ?_
  rw [V_main_arg0 m c, V_main_arg1 m c, V_main_arg4 m c, V_main_arg6 m c]
  rfl

/-! ## The grid's arithmetic, decided once over the 80 points

The first half's points `t < 40` fetch row block `t` of the first adjacency matrix and write row block `t` of the hidden
embedding; the second half's points fetch and write row block `t − 40`. A block has 256 rows; the last one
(block 39) is cut after the 32 rows that lie inside the 10016-row arrays. -/

theorem idxE_0 : ∀ t : Fin grid0.N, t.val < 40 → win0_0.index t (0 : Fin 2) = t.val := by decide +kernel
theorem idxE_1 : ∀ t : Fin grid0.N, win0_0.index t (1 : Fin 2) = 0 := by decide +kernel
theorem xsE_0 : ∀ t : Fin grid0.N, t.val < 40 → win0_0.xsize (grid0.coords t) (0 : Fin 2) = (if t.val < 39 then 256 else 32) := by decide +kernel
theorem xsE_1 : ∀ t : Fin grid0.N, win0_0.xsize (grid0.coords t) (1 : Fin 2) = 10016 := by decide +kernel

theorem idxH_0 : ∀ t : Fin grid0.N, t.val < 40 → win0_11.index t (0 : Fin 2) = t.val := by decide +kernel
theorem idxH_1 : ∀ t : Fin grid0.N, win0_11.index t (1 : Fin 2) = 0 := by decide +kernel
theorem xsH_0 : ∀ t : Fin grid0.N, t.val < 40 → win0_11.xsize (grid0.coords t) (0 : Fin 2) = (if t.val < 39 then 256 else 32) := by decide +kernel
theorem xsH_1 : ∀ t : Fin grid0.N, win0_11.xsize (grid0.coords t) (1 : Fin 2) = 32 := by decide +kernel

theorem idxA_0 : ∀ t : Fin grid0.N, 40 ≤ t.val → win0_1.index t (0 : Fin 2) = t.val - 40 := by decide +kernel
theorem idxA_1 : ∀ t : Fin grid0.N, win0_1.index t (1 : Fin 2) = 0 := by decide +kernel
theorem xsA_0 : ∀ t : Fin grid0.N, 40 ≤ t.val → win0_1.xsize (grid0.coords t) (0 : Fin 2) = (if t.val < 79 then 256 else 32) := by decide +kernel
theorem xsA_1 : ∀ t : Fin grid0.N, win0_1.xsize (grid0.coords t) (1 : Fin 2) = 10016 := by decide +kernel

theorem idxO_0 : ∀ t : Fin grid0.N, 40 ≤ t.val → win0_10.index t (0 : Fin 2) = t.val - 40 := by decide +kernel
theorem idxO_1 : ∀ t : Fin grid0.N, win0_10.index t (1 : Fin 2) = 0 := by decide +kernel
theorem xsO_0 : ∀ t : Fin grid0.N, 40 ≤ t.val → win0_10.xsize (grid0.coords t) (0 : Fin 2) = (if t.val < 79 then 256 else 32) := by decide +kernel
theorem xsO_1 : ∀ t : Fin grid0.N, win0_10.xsize (grid0.coords t) (1 : Fin 2) = 16 := by decide +kernel

theorem off1_0 : ∀ t : Fin grid0.N, (k0_off1 (grid0.coords t)) (0 : Fin 2) = 256 * t.val := by decide +kernel
theorem off1_1 : ∀ t : Fin grid0.N, (k0_off1 (grid0.coords t)) (1 : Fin 2) = 0 := by decide +kernel

/-! ## A fetched adjacency block at an entry inside the matrix

Row `p` of the block fetched at a first-half point `t` is row `256·t + p` of the first adjacency matrix, when that row
exists; likewise at a second-half point, row `256·(t − 40) + p` of the second adjacency matrix. -/

theorem fillE_apply (c : Dev nD) (t : Fin cfg0.N) (ht : t.val < 40) (d : S256x10016.Idx → EReal)
    (p : Fin 256) (k : Fin 10016) (hp : 256 * t.val + p.val < 10016) :
    win0_0.fill (grid0.coords t) d (iblk m c 0 t) (ix2 p k)
      = (m ((c : Thread nD τ).loc main_arg2) : S10016x10016.Idx → EReal) (ix2 (⟨256 * t.val + p.val, hp⟩ : Fin 10016) k) := by
  have hmv : win0_0.moved (grid0.coords t) (ix2 p k) = true := by
    rw [Window.moved_iff]
    intro a
    match a with
    | ⟨0, _⟩ =>
      show p.val < win0_0.xsize (grid0.coords t) (0 : Fin 2)
      rw [xsE_0 t ht]; split <;> omega
    | ⟨1, _⟩ =>
      show k.val < win0_0.xsize (grid0.coords t) (1 : Fin 2)
      rw [xsE_1 t]; exact k.isLt
  unfold Window.fill
  rw [dif_pos hmv]
  unfold iblk
  rw [← V_main_arg2 m c]
  show V m c main_arg2 ((win0_0.blk t).view.emb _) = V m c main_arg2 _
  refine congrArg _ (funext fun a => Fin.ext ?_)
  match a with
  | ⟨0, _⟩ =>
    show win0_0.index t (0 : Fin 2) * 256 + 1 * p.val = 256 * t.val + p.val
    rw [idxE_0 t ht]; omega
  | ⟨1, _⟩ =>
    show win0_0.index t (1 : Fin 2) * 10016 + 1 * k.val = k.val
    rw [idxE_1 t]; omega

theorem fillA_apply (c : Dev nD) (t : Fin cfg0.N) (ht : 40 ≤ t.val) (d : S256x10016.Idx → EReal)
    (p : Fin 256) (k : Fin 10016) (hp : 256 * (t.val - 40) + p.val < 10016) :
    win0_1.fill (grid0.coords t) d (iblk m c 1 t) (ix2 p k)
      = (m ((c : Thread nD τ).loc main_arg3) : S10016x10016.Idx → EReal) (ix2 (⟨256 * (t.val - 40) + p.val, hp⟩ : Fin 10016) k) := by
  have hmv : win0_1.moved (grid0.coords t) (ix2 p k) = true := by
    rw [Window.moved_iff]
    intro a
    match a with
    | ⟨0, _⟩ =>
      show p.val < win0_1.xsize (grid0.coords t) (0 : Fin 2)
      rw [xsA_0 t ht]; split <;> omega
    | ⟨1, _⟩ =>
      show k.val < win0_1.xsize (grid0.coords t) (1 : Fin 2)
      rw [xsA_1 t]; exact k.isLt
  unfold Window.fill
  rw [dif_pos hmv]
  unfold iblk
  rw [← V_main_arg3 m c]
  show V m c main_arg3 ((win0_1.blk t).view.emb _) = V m c main_arg3 _
  refine congrArg _ (funext fun a => Fin.ext ?_)
  match a with
  | ⟨0, _⟩ =>
    show win0_1.index t (0 : Fin 2) * 256 + 1 * p.val = 256 * (t.val - 40) + p.val
    rw [idxA_0 t ht]; omega
  | ⟨1, _⟩ =>
    show win0_1.index t (1 : Fin 2) * 10016 + 1 * k.val = k.val
    rw [idxA_1 t]; omega

/-! ## An output block read at an entry

Entry `(p, j)` of the block of the hidden embedding at a first-half point `t` is entry `(256·t + p, j)` of the array;
of the result at a second-half point, entry `(256·(t − 40) + p, j)`. -/

theorem readH_apply (c : Dev nD) (t : Fin cfg0.N) (ht : t.val < 40) (G : Buf (Elt Ideal) ((c : Thread nD τ).loc main_v3_1))
    (y : (win0_11.xblock (grid0.coords t)).Idx) (h0 : 256 * t.val + (y (0 : Fin 2)).val < 10016) (h1 : (y (1 : Fin 2)).val < 32) :
    (win0_11.blk t).view.read (Elt Ideal) G y
      = (G : S10016x32.Idx → EReal) (ix2 (⟨256 * t.val + (y (0 : Fin 2)).val, h0⟩ : Fin 10016) (⟨(y (1 : Fin 2)).val, h1⟩ : Fin 32)) := by
  show G ((win0_11.blk t).view.emb y) = G _
  refine congrArg _ (funext fun a => Fin.ext ?_)
  match a with
  | ⟨0, _⟩ =>
    show win0_11.index t (0 : Fin 2) * 256 + 1 * (y (0 : Fin 2)).val = 256 * t.val + (y (0 : Fin 2)).val
    rw [idxH_0 t ht]; omega
  | ⟨1, _⟩ =>
    show win0_11.index t (1 : Fin 2) * 32 + 1 * (y (1 : Fin 2)).val = (y (1 : Fin 2)).val
    rw [idxH_1 t]; omega

theorem readO_apply (c : Dev nD) (t : Fin cfg0.N) (ht : 40 ≤ t.val) (G : Buf (Elt Ideal) ((c : Thread nD τ).loc main_v3_0))
    (y : (win0_10.xblock (grid0.coords t)).Idx) (h0 : 256 * (t.val - 40) + (y (0 : Fin 2)).val < 10016) (h1 : (y (1 : Fin 2)).val < 16) :
    (win0_10.blk t).view.read (Elt Ideal) G y
      = (G : S10016x16.Idx → EReal) (ix2 (⟨256 * (t.val - 40) + (y (0 : Fin 2)).val, h0⟩ : Fin 10016) (⟨(y (1 : Fin 2)).val, h1⟩ : Fin 16)) := by
  show G ((win0_10.blk t).view.emb y) = G _
  refine congrArg _ (funext fun a => Fin.ext ?_)
  match a with
  | ⟨0, _⟩ =>
    show win0_10.index t (0 : Fin 2) * 256 + 1 * (y (0 : Fin 2)).val = 256 * (t.val - 40) + (y (0 : Fin 2)).val
    rw [idxO_0 t ht]; omega
  | ⟨1, _⟩ =>
    show win0_10.index t (1 : Fin 2) * 16 + 1 * (y (1 : Fin 2)).val = (y (1 : Fin 2)).val
    rw [idxO_1 t]; omega

/-- A row of the stored block of hidden embeddings, at a row inside the matrix, is that row of the hidden embedding:
    the entry reads one row of the fetched block, which is that row of the first adjacency matrix. -/
theorem pay2_row (c : Dev nD) (t : Fin cfg0.N) (ht : t.val < 40) (d : S256x10016.Idx → EReal)
    (p : Fin 256) (j : Fin 32) (r : Fin 10016) (hr : r.val = 256 * t.val + p.val) :
    k0_pay2 (F := Ideal) (win0_0.fill (grid0.coords t) d (iblk m c 0 t)) (s1A m c) (V m c main_v1 : Vec Ideal S1x32 .f32) (ix2 p j)
      = (xeA m c : S10016x32.Idx → EReal) (ix2 r j) := by
  have hp : 256 * t.val + p.val < 10016 := by have := r.isLt; omega
  have er : (⟨256 * t.val + p.val, hp⟩ : Fin 10016) = r := Fin.ext hr.symm
  rw [pay2_apply, V_main_v1_at m c 0 j]
  unfold xeA Cert.Spec.xeArr Cert.Spec.xe
  refine congrArg (fun x => max (x + _) 0) ?_
  refine Finset.sum_congr rfl fun k _ => ?_
  rw [fillE_apply m c t ht d p k hp, er]
  rfl

/-- FIRST HALF: on the rows inside the array, the stored block of hidden embeddings is the point's block of
    the hidden embedding. -/
theorem pay2_block (c : Dev nD) (t : Fin cfg0.N) (ht : t.val < 40) (d : S256x10016.Idx → EReal) :
    win0_11.cut (grid0.coords t) (k0_pay2 (F := Ideal) (win0_0.fill (grid0.coords t) d (iblk m c 0 t)) (s1A m c) (V m c main_v1 : Vec Ideal S1x32 .f32))
      = (win0_11.blk t).view.read (Elt Ideal) (xeA m c) := by
  funext y
  have hy0 : (y (0 : Fin 2)).val < win0_11.xsize (grid0.coords t) (0 : Fin 2) := (y (0 : Fin 2)).isLt
  have hy1 : (y (1 : Fin 2)).val < win0_11.xsize (grid0.coords t) (1 : Fin 2) := (y (1 : Fin 2)).isLt
  rw [xsH_0 t ht] at hy0
  rw [xsH_1 t] at hy1
  have hp : (y (0 : Fin 2)).val < 256 := by split at hy0 <;> omega
  have hrow : 256 * t.val + (y (0 : Fin 2)).val < 10016 := by split at hy0 <;> omega
  rw [readH_apply c t ht (xeA m c) y hrow hy1]
  have exi : win0_11.xinj (grid0.coords t) y = ix2 (⟨(y (0 : Fin 2)).val, hp⟩ : Fin 256) (⟨(y (1 : Fin 2)).val, hy1⟩ : Fin 32) :=
    funext fun a => by match a with | ⟨0, _⟩ => rfl | ⟨1, _⟩ => rfl
  show k0_pay2 (F := Ideal) _ _ _ (win0_11.xinj (grid0.coords t) y) = _
  rw [exi]
  exact pay2_row m c t ht d _ _ _ rfl

/-- FIRST HALF: after the point's rows of the second scratch are overwritten by the block of hidden embeddings
    times `W2`, the scratch holds the second support on all rows below `256 · (t + 1)` (and below 10016). -/
theorem s2_step (c : Dev nD) (t : Fin cfg0.N) (ht : t.val < 40) (h2 : k0_cond2 (grid0.coords t) = 1#1) (d : S256x10016.Idx → EReal)
    (z2 z2' : Vec Ideal S10240x16 .f32) (hz : S2Upto m c t.val z2)
    (hw : RowsWritten (grid0.coords t) h2 z2 z2'
      (k0_pay3 (F := Ideal) (win0_0.fill (grid0.coords t) d (iblk m c 0 t)) (s1A m c) (V m c main_v1 : Vec Ideal S1x32 .f32) (V m c main_arg8 : Vec Ideal S32x16 .f32))) :
    S2Upto m c (t.val + 1) z2' := by
  intro r j hr
  obtain ⟨hw1, hw2⟩ := hw
  by_cases hlt : r.val < 256 * t.val
  · -- a row written by an earlier point: this point's rectangle starts at row 256·t
    have hn : ix2 (⟨r.val, by omega⟩ : Fin 10240) j ∉ (rowsAt (grid0.coords t) h2).set := by
      rw [Rect.mem_set_unit]
      intro h
      have h0 : k0_off1 (grid0.coords t) (0 : Fin 2) ≤ r.val := (h (0 : Fin 2)).1
      rw [off1_0 t] at h0
      omega
    rw [hw2 _ hn]
    exact hz r j hlt
  · -- a row of this point's block
    have hp : r.val - 256 * t.val < 256 := by omega
    have e : ix2 (⟨r.val, by omega⟩ : Fin 10240) j
        = (rowsAt (grid0.coords t) h2).emb (ix2 (⟨r.val - 256 * t.val, hp⟩ : Fin 256) j) :=
      funext fun a => Fin.ext (by
        match a with
        | ⟨0, _⟩ =>
          show r.val = k0_off1 (grid0.coords t) (0 : Fin 2) + 1 * (r.val - 256 * t.val)
          rw [off1_0 t]; omega
        | ⟨1, _⟩ =>
          show j.val = k0_off1 (grid0.coords t) (1 : Fin 2) + 1 * j.val
          rw [off1_1 t]; omega)
    rw [e, hw1, pay3_apply]
    unfold s2F Cert.Spec.s2
    refine Finset.sum_congr rfl fun k _ => ?_
    rw [pay2_row m c t ht d ⟨r.val - 256 * t.val, hp⟩ k r (by show r.val = 256 * t.val + (r.val - 256 * t.val); omega), V_main_arg8]
    rfl

/-- SECOND HALF: the second scratch is complete, and stays so. -/
theorem s2_keep (c : Dev nD) (t : Fin cfg0.N) (ht : 40 ≤ t.val) (z2 : Vec Ideal S10240x16 .f32) (hz : S2Upto m c t.val z2) :
    S2Upto m c (t.val + 1) z2 := by
  intro r j _
  exact hz r j (by have := r.isLt; omega)

/-- A row of the stored block of the result, at a row inside the matrix, is that row of the result: the entry
    reads one row of the fetched block, which is that row of the second adjacency matrix, and the complete
    second support. -/
theorem pay4_row (c : Dev nD) (t : Fin cfg0.N) (ht : 40 ≤ t.val) (d : S256x10016.Idx → EReal)
    (z2 : Vec Ideal S10240x16 .f32) (hz : S2Upto m c t.val z2)
    (p : Fin 256) (j : Fin 16) (r : Fin 10016) (hr : r.val = 256 * (t.val - 40) + p.val) :
    k0_pay4 (F := Ideal) (win0_1.fill (grid0.coords t) d (iblk m c 1 t)) (fun y => z2 (rowsRead.emb y)) (V m c main_v2 : Vec Ideal S1x16 .f32) (ix2 p j)
      = (outA m c : S10016x16.Idx → EReal) (ix2 r j) := by
  have hp : 256 * (t.val - 40) + p.val < 10016 := by have := r.isLt; omega
  have er : (⟨256 * (t.val - 40) + p.val, hp⟩ : Fin 10016) = r := Fin.ext hr.symm
  rw [pay4_apply, V_main_v2_at m c 0 j]
  unfold outA Cert.Spec.outArr Cert.Spec.out
  refine congrArg (fun x => Ideal.logistic (x + _)) ?_
  refine Finset.sum_congr rfl fun k _ => ?_
  have ez : z2 (rowsRead.emb (ix2 k j)) = s2F m c k j := by
    have e : rowsRead.emb (ix2 k j) = ix2 (⟨k.val, by have := k.isLt; omega⟩ : Fin 10240) j :=
      funext fun a => Fin.ext (by
        match a with
        | ⟨0, _⟩ => show 0 + 1 * k.val = k.val; omega
        | ⟨1, _⟩ => show 0 + 1 * j.val = j.val; omega)
    rw [e]
    exact hz k j (by have := k.isLt; omega)
  show _ * z2 (rowsRead.emb (ix2 k j)) = _
  rw [fillA_apply m c t ht d p k hp, er, ez]
  rfl

/-- SECOND HALF: on the rows inside the array, the stored block is the point's block of the result. -/
theorem pay4_block (c : Dev nD) (t : Fin cfg0.N) (ht : 40 ≤ t.val) (d : S256x10016.Idx → EReal)
    (z2 : Vec Ideal S10240x16 .f32) (hz : S2Upto m c t.val z2) :
    win0_10.cut (grid0.coords t) (k0_pay4 (F := Ideal) (win0_1.fill (grid0.coords t) d (iblk m c 1 t)) (fun y => z2 (rowsRead.emb y)) (V m c main_v2 : Vec Ideal S1x16 .f32))
      = (win0_10.blk t).view.read (Elt Ideal) (outA m c) := by
  funext y
  have hy0 : (y (0 : Fin 2)).val < win0_10.xsize (grid0.coords t) (0 : Fin 2) := (y (0 : Fin 2)).isLt
  have hy1 : (y (1 : Fin 2)).val < win0_10.xsize (grid0.coords t) (1 : Fin 2) := (y (1 : Fin 2)).isLt
  rw [xsO_0 t ht] at hy0
  rw [xsO_1 t] at hy1
  have hN : t.val < 80 := lt_of_lt_of_eq t.isLt (show cfg0.N = 80 from Gen.N_0)
  have hp : (y (0 : Fin 2)).val < 256 := by split at hy0 <;> omega
  have hrow : 256 * (t.val - 40) + (y (0 : Fin 2)).val < 10016 := by split at hy0 <;> omega
  rw [readO_apply c t ht (outA m c) y hrow hy1]
  have exi : win0_10.xinj (grid0.coords t) y = ix2 (⟨(y (0 : Fin 2)).val, hp⟩ : Fin 256) (⟨(y (1 : Fin 2)).val, hy1⟩ : Fin 16) :=
    funext fun a => by match a with | ⟨0, _⟩ => rfl | ⟨1, _⟩ => rfl
  show k0_pay4 (F := Ideal) _ _ _ (win0_10.xinj (grid0.coords t) y) = _
  rw [exi]
  exact pay4_row m c t ht d z2 hz _ _ _ rfl

end Cert.KernelIdeal.Hand

end
-- ==== Proof.BodyI.lean ====
import proofs.«166228_g84250078479001_cont_9to1c4b_852_4_alg».proof.Proof.Sched
import proofs.«166228_g84250078479001_cont_9to1c4b_852_4_alg».proof.Proof.BlockMath
import proofs.«166228_g84250078479001_cont_9to1c4b_852_4_alg».proof.Proof.BodyRunI
import proofs.«166228_g84250078479001_cont_9to1c4b_852_4_alg».proof.Proof.Gen.KernelIdeal.Frame
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The three guards over the grid

The grid has 80 points. The first guard holds at point 0 only, the second at the points below 40, the third
at the points from 40 on. -/

theorem condFirst_iff : ∀ t : Fin cfg0.N, condFirst (grid0.coords t) ↔ t.val = 0 :=
  (by decide +kernel : ∀ t : Fin grid0.N, condFirst (grid0.coords t) ↔ t.val = 0)
theorem cond2_iff : ∀ t : Fin cfg0.N, k0_cond2 (grid0.coords t) = 1#1 ↔ t.val < 40 :=
  (by decide +kernel : ∀ t : Fin grid0.N, k0_cond2 (grid0.coords t) = 1#1 ↔ t.val < 40)
theorem cond3_iff : ∀ t : Fin cfg0.N, k0_cond3 (grid0.coords t) = 1#1 ↔ 40 ≤ t.val :=
  (by decide +kernel : ∀ t : Fin grid0.N, k0_cond3 (grid0.coords t) = 1#1 ↔ 40 ≤ t.val)

/-! ## From a statement about a buffer's contents to the obligation's post -/

/-- A current buffer owned at contents that satisfy the obligation's statement for its window is the
    obligation's post for that window. -/
theorem hand_back (c : Dev nD) (w : Fin cfg0.W) (t : Fin cfg0.N) (X : (cfg0.win w).block.Idx → Elt Ideal (cfg0.win w).elt)
    (h : (dats m 0 c).Leaves w t X) :
    owns (c : Thread nD τ) ((cfg0.win w).stage (cfg0.slots t w)) fullShare X ⊢ ((dats m 0 c).leaves w t : sProp 𝕄) := by
  revert h
  unfold Dat.leaves Dat.Leaves
  have hlive : (match cfg0.loose w with
      | true => ∃ d, X = (cfg0.win w).fill (cfg0.grid.coords t) d ((cfg0.win w).cut (cfg0.grid.coords t) ((dats m 0 c).after w t))
      | false => X = (dats m 0 c).after w t : Prop) →
      (owns (c : Thread nD τ) ((cfg0.win w).stage (cfg0.slots t w)) fullShare X ⊢ (match cfg0.loose w with
      | true => iprop(∃ d, owns (c : Thread nD τ) ((cfg0.win w).stage (cfg0.slots t w)) fullShare ((cfg0.win w).fill (cfg0.grid.coords t) d ((cfg0.win w).cut (cfg0.grid.coords t) ((dats m 0 c).after w t))))
      | false => owns (c : Thread nD τ) ((cfg0.win w).stage (cfg0.slots t w)) fullShare ((dats m 0 c).after w t) : sProp 𝕄)) := by
    cases cfg0.loose w
    · rintro rfl; exact .rfl
    · rintro ⟨d, rfl⟩; iintro H; iexists d; iexact H
  cases cfg0.idle w (cfg0.grid.coords t)
  · exact hlive
  · cases (cfg0.win w).flush t
    · rintro ⟨d, rfl⟩; iintro H; iexists d; iexact H
    · exact hlive

/-- A current buffer handed back as found, where that satisfies the obligation's statement. -/
theorem hand_back_found (c : Dev nD) (w : Fin cfg0.W) (t : Fin cfg0.N)
    (h : ∀ d, (dats m 0 c).Leaves w t ((dats m 0 c).before w t d)) :
    iprop(∃ d, owns (c : Thread nD τ) ((cfg0.win w).stage (cfg0.slots t w)) fullShare ((dats m 0 c).before w t d))
      ⊢ ((dats m 0 c).leaves w t : sProp 𝕄) := by
  iintro ⟨%d, H⟩
  iapply (hand_back m c w t _ (h d))
  iexact H

/-! ## The class invariant and the invariant at the ends of the grid -/

/-- What the launch hands the region: the two scratch buffers at some contents and the generator register at
    some state. -/
theorem PhiA_exact (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Before the first point nothing is claimed of either scratch. -/
theorem hin (c : Dev nD) : Pipeline.ΦA spec0 c ⊢ (dats m 0 c).Φ 0 := by
  rw [show (dats m 0 c).Φ 0 = PhiS m c 0 from rfl, PhiA_exact]
  unfold PhiS
  iintro ⟨⟨⟨%z1, H1⟩, ⟨%z2, H2⟩⟩, Hg⟩
  isplitl [H1]
  · iexists z1; isplitr
    · ipureintro; intro h; exact absurd h (Nat.lt_irrefl 0)
    iexact H1
  isplitl [H2]
  · iexists z2; isplitr
    · ipureintro; intro r j h; exact absurd h (by omega)
    iexact H2
  iexact Hg

/-- After the last point what the scratch buffers hold is forgotten. -/
theorem hout (c : Dev nD) : (dats m 0 c).Φ (Fin.last cfg0.N) ⊢ Pipeline.ΦA spec0 c := by
  rw [Phi_eq, PhiA_exact]
  unfold PhiS
  iintro ⟨⟨%z1, %h1, H1⟩, ⟨%z2, %h2, H2⟩, Hg⟩
  isplitl [H1 H2]
  · isplitl [H1]
    · iexists z1; iexact H1
    iexists z2; iexact H2
  iexact Hg

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t)

set_option maxHeartbeats 4800000 in
/-- The body at any point. At the first point the support is built into the first scratch, whatever it held; at
    the points of the first half the current row block of the first adjacency matrix gives the point's block of
    hidden embeddings and the point's rows of the second support; at the points of the second half the current
    row block of the second adjacency matrix gives the point's block of the result. A window the body does not
    store into is handed back as found. -/
theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [Phi_eq, Phi_eq, show t.castSucc.val = t.val from rfl, show t.succ.val = t.val + 1 from rfl]
  unfold PhiS
  by_cases hlo : t.val < 40
  · by_cases hz : t.val = 0
    · have h1 : condFirst (grid0.coords t) := (condFirst_iff t).mpr hz
      have h2 : k0_cond2 (grid0.coords t) = 1#1 := (cond2_iff t).mpr hlo
      have h3 : ¬ k0_cond3 (grid0.coords t) = 1#1 := fun h => by have := (cond3_iff t).mp h; omega
      iintro ⟨⟨⟨%z1, %hz1, HS0⟩, ⟨%z2, %hz2, HS1⟩, Hg⟩, Ho, ⟨%d0, H0⟩, H1, ⟨%d2, H2⟩, ⟨%d3, H3⟩, ⟨%d4, H4⟩, ⟨%d5, H5⟩, ⟨%d6, H6⟩, ⟨%d7, H7⟩, ⟨%d8, H8⟩, H9, H10, ⟨%d11, H11⟩⟩
      have e0 : (dats m 0 c).before 0 t d0 = win0_0.fill (grid0.coords t) d0 (iblk m c 0 t) := before0_0_lo m c t hlo d0
      have e2 : (dats m 0 c).before 2 t d2 = (V m c main_arg1 : Vec Ideal S10000x128 .f32) := (before0_2 m c t d2).trans (iblk2_eq m c t)
      have e3 : (dats m 0 c).before 3 t d3 = (V m c main_arg0 : Vec Ideal S16x256 .f32) := (before0_3 m c t d3).trans (iblk3_eq m c t)
      have e4 : (dats m 0 c).before 4 t d4 = (V m c main_arg4 : Vec Ideal S256x128 .f32) := (before0_4 m c t d4).trans (iblk4_eq m c t)
      have e5 : (dats m 0 c).before 5 t d5 = (V m c main_v0 : Vec Ideal S1x128 .f32) := (before0_5 m c t d5).trans (iblk5_eq m c t)
      have e6 : (dats m 0 c).before 6 t d6 = (V m c main_arg6 : Vec Ideal S128x32 .f32) := (before0_6 m c t d6).trans (iblk6_eq m c t)
      have e7 : (dats m 0 c).before 7 t d7 = (V m c main_v1 : Vec Ideal S1x32 .f32) := (before0_7 m c t d7).trans (iblk7_eq m c t)
      have e8 : (dats m 0 c).before 8 t d8 = (V m c main_arg8 : Vec Ideal S32x16 .f32) := (before0_8 m c t d8).trans (iblk8_eq m c t)
      iapply (run_first (F := Ideal) c (grid0.coords t) _ _ _ _ _ _ _ _ _ _ _ _ _ _ _ _ _ _ _ _ _ _ _ _ _ _ _ _ h1 h2 h3
        (win0_0.fill (grid0.coords t) d0 (iblk m c 0 t)) (V m c main_arg1 : Vec Ideal S10000x128 .f32) (V m c main_arg0 : Vec Ideal S16x256 .f32)
        (V m c main_arg4 : Vec Ideal S256x128 .f32) (V m c main_v0 : Vec Ideal S1x128 .f32) (V m c main_arg6 : Vec Ideal S128x32 .f32)
        (V m c main_v1 : Vec Ideal S1x32 .f32) (V m c main_arg8 : Vec Ideal S32x16 .f32) z2 Set.univ _)
      isplitl [H0]; · rw [← e0]; iexact H0
      isplitl [H2]; · rw [← e2]; iexact H2
      isplitl [H3]; · rw [← e3]; iexact H3
      isplitl [H4]; · rw [← e4]; iexact H4
      isplitl [H5]; · rw [← e5]; iexact H5
      isplitl [H6]; · rw [← e6]; iexact H6
      isplitl [H7]; · rw [← e7]; iexact H7
      isplitl [H8]; · rw [← e8]; iexact H8
      isplitl [H11]; · iexists _; iexact H11
      isplitl [HS0]; · iexists _; iexact HS0
      isplitl [HS1]; · iexact HS1
      rw [pay1_is_s1 m c]
      iintro ⟨H0, H2, H3, H4, H5, H6, H7, H8, H11, HS0, ⟨%z2', %hw, HS1⟩⟩
      isplitl [HS0 HS1 Hg]
      · isplitl [HS0]
        · iexists (s1A m c); isplitr
          · ipureintro; exact fun _ => rfl
          iexact HS0
        isplitl [HS1]
        · iexists z2'; isplitr
          · ipureintro; exact s2_step m c t hlo h2 d0 z2 z2' hz2 hw
          iexact HS1
        iexact Hg
      isplitl [Ho]; · iexact Ho
      isplitl [H0]; · iapply (hand_back m c 0 t _ (e0 ▸ leaves_kept_in m c 0 (by decide) t d0)); iexact H0
      isplitl [H1]; · iapply (hand_back_found m c 1 t (leaves_kept_in m c 1 (by decide) t)); iexact H1
      isplitl [H2]; · iapply (hand_back m c 2 t _ (e2 ▸ leaves_kept_in m c 2 (by decide) t d2)); iexact H2
      isplitl [H3]; · iapply (hand_back m c 3 t _ (e3 ▸ leaves_kept_in m c 3 (by decide) t d3)); iexact H3
      isplitl [H4]; · iapply (hand_back m c 4 t _ (e4 ▸ leaves_kept_in m c 4 (by decide) t d4)); iexact H4
      isplitl [H5]; · iapply (hand_back m c 5 t _ (e5 ▸ leaves_kept_in m c 5 (by decide) t d5)); iexact H5
      isplitl [H6]; · iapply (hand_back m c 6 t _ (e6 ▸ leaves_kept_in m c 6 (by decide) t d6)); iexact H6
      isplitl [H7]; · iapply (hand_back m c 7 t _ (e7 ▸ leaves_kept_in m c 7 (by decide) t d7)); iexact H7
      isplitl [H8]; · iapply (hand_back m c 8 t _ (e8 ▸ leaves_kept_in m c 8 (by decide) t d8)); iexact H8
      isplitl [H9]; · iapply (hand_back_found m c 9 t (leaves_kept_in m c 9 (by decide) t)); iexact H9
      isplitl [H10]; · iapply (hand_back_found m c 10 t (leaves_kept_10 m c t hlo)); iexact H10
      iapply (hand_back m c 11 t _ (leaves_live_11 m c t hlo _ (pay2_block m c t hlo d0))); iexact H11
    · have hpos : 0 < t.val := Nat.pos_of_ne_zero hz
      have h1 : ¬ condFirst (grid0.coords t) := fun h => hz ((condFirst_iff t).mp h)
      have h2 : k0_cond2 (grid0.coords t) = 1#1 := (cond2_iff t).mpr hlo
      have h3 : ¬ k0_cond3 (grid0.coords t) = 1#1 := fun h => by have := (cond3_iff t).mp h; omega
      iintro ⟨⟨⟨%z1, %hz1, HS0⟩, ⟨%z2, %hz2, HS1⟩, Hg⟩, Ho, ⟨%d0, H0⟩, H1, H2, H3, H4, H5, H6, ⟨%d7, H7⟩, ⟨%d8, H8⟩, H9, H10, ⟨%d11, H11⟩⟩
      have hs : z1 = s1A m c := hz1 hpos
      subst hs
      have e0 : (dats m 0 c).before 0 t d0 = win0_0.fill (grid0.coords t) d0 (iblk m c 0 t) := before0_0_lo m c t hlo d0
      have e7 : (dats m 0 c).before 7 t d7 = (V m c main_v1 : Vec Ideal S1x32 .f32) := (before0_7 m c t d7).trans (iblk7_eq m c t)
      have e8 : (dats m 0 c).before 8 t d8 = (V m c main_arg8 : Vec Ideal S32x16 .f32) := (before0_8 m c t d8).trans (iblk8_eq m c t)
      iapply (run_phase1 (F := Ideal) c (grid0.coords t) _ _ _ _ _ _ _ _ _ _ _ _ _ _ _ _ _ _ _ _ _ _ _ _ _ _ _ _ h1 h2 h3
        (win0_0.fill (grid0.coords t) d0 (iblk m c 0 t)) (s1A m c) (V m c main_v1 : Vec Ideal S1x32 .f32) (V m c main_arg8 : Vec Ideal S32x16 .f32) z2 Set.univ _)
      isplitl [H0]; · rw [← e0]; iexact H0
      isplitl [H7]; · rw [← e7]; iexact H7
      isplitl [H8]; · rw [← e8]; iexact H8
      isplitl [H11]; · iexists _; iexact H11
      isplitl [HS0]; · iexact HS0
      isplitl [HS1]; · iexact HS1
      iintro ⟨H0, H7, H8, H11, HS0, ⟨%z2', %hw, HS1⟩⟩
      isplitl [HS0 HS1 Hg]
      · isplitl [HS0]
        · iexists (s1A m c); isplitr
          · ipureintro; exact fun _ => rfl
          iexact HS0
        isplitl [HS1]
        · iexists z2'; isplitr
          · ipureintro; exact s2_step m c t hlo h2 d0 z2 z2' hz2 hw
          iexact HS1
        iexact Hg
      isplitl [Ho]; · iexact Ho
      isplitl [H0]; · iapply (hand_back m c 0 t _ (e0 ▸ leaves_kept_in m c 0 (by decide) t d0)); iexact H0
      isplitl [H1]; · iapply (hand_back_found m c 1 t (leaves_kept_in m c 1 (by decide) t)); iexact H1
      isplitl [H2]; · iapply (hand_back_found m c 2 t (leaves_kept_in m c 2 (by decide) t)); iexact H2
      isplitl [H3]; · iapply (hand_back_found m c 3 t (leaves_kept_in m c 3 (by decide) t)); iexact H3
      isplitl [H4]; · iapply (hand_back_found m c 4 t (leaves_kept_in m c 4 (by decide) t)); iexact H4
      isplitl [H5]; · iapply (hand_back_found m c 5 t (leaves_kept_in m c 5 (by decide) t)); iexact H5
      isplitl [H6]; · iapply (hand_back_found m c 6 t (leaves_kept_in m c 6 (by decide) t)); iexact H6
      isplitl [H7]; · iapply (hand_back m c 7 t _ (e7 ▸ leaves_kept_in m c 7 (by decide) t d7)); iexact H7
      isplitl [H8]; · iapply (hand_back m c 8 t _ (e8 ▸ leaves_kept_in m c 8 (by decide) t d8)); iexact H8
      isplitl [H9]; · iapply (hand_back_found m c 9 t (leaves_kept_in m c 9 (by decide) t)); iexact H9
      isplitl [H10]; · iapply (hand_back_found m c 10 t (leaves_kept_10 m c t hlo)); iexact H10
      iapply (hand_back m c 11 t _ (leaves_live_11 m c t hlo _ (pay2_block m c t hlo d0))); iexact H11
  · have h40 : 40 ≤ t.val := Nat.le_of_not_lt hlo
    have h1 : ¬ condFirst (grid0.coords t) := fun h => by have := (condFirst_iff t).mp h; omega
    have h2 : ¬ k0_cond2 (grid0.coords t) = 1#1 := fun h => hlo ((cond2_iff t).mp h)
    have h3 : k0_cond3 (grid0.coords t) = 1#1 := (cond3_iff t).mpr h40
    iintro ⟨⟨⟨%z1, %hz1, HS0⟩, ⟨%z2, %hz2, HS1⟩, Hg⟩, Ho, ⟨%d0, H0⟩, ⟨%d1, H1⟩, H2, H3, H4, H5, H6, H7, H8, ⟨%d9, H9⟩, ⟨%d10, H10⟩, H11⟩
    obtain ⟨d1', e1⟩ := before0_1_hi m c t h40 d1
    have e9 : (dats m 0 c).before 9 t d9 = (V m c main_v2 : Vec Ideal S1x16 .f32) := (before0_9 m c t d9).trans (iblk9_eq m c t)
    iapply (run_phase2 (F := Ideal) c (grid0.coords t) _ _ _ _ _ _ _ _ _ _ _ _ _ _ _ _ _ _ _ _ _ _ _ _ _ _ _ _ h1 h2 h3
      (win0_1.fill (grid0.coords t) d1' (iblk m c 1 t)) (V m c main_v2 : Vec Ideal S1x16 .f32) z2 Set.univ _)
    isplitl [H1]; · rw [← e1]; iexact H1
    isplitl [H9]; · rw [← e9]; iexact H9
    isplitl [H10]; · iexists _; iexact H10
    isplitl [HS1]; · iexact HS1
    iintro ⟨H1, H9, H10, HS1⟩
    isplitl [HS0 HS1 Hg]
    · isplitl [HS0]
      · iexists z1; isplitr
        · ipureintro; exact fun _ => hz1 (by omega)
        iexact HS0
      isplitl [HS1]
      · iexists z2; isplitr
        · ipureintro; exact s2_keep m c t h40 z2 hz2
        iexact HS1
      iexact Hg
    isplitl [Ho]; · iexact Ho
    isplitl [H0]; · iapply (hand_back m c 0 t _ (leaves_kept_in m c 0 (by decide) t d0)); iexact H0
    isplitl [H1]; · iapply (hand_back m c 1 t _ (e1 ▸ leaves_kept_in m c 1 (by decide) t d1)); iexact H1
    isplitl [H2]; · iapply (hand_back_found m c 2 t (leaves_kept_in m c 2 (by decide) t)); iexact H2
    isplitl [H3]; · iapply (hand_back_found m c 3 t (leaves_kept_in m c 3 (by decide) t)); iexact H3
    isplitl [H4]; · iapply (hand_back_found m c 4 t (leaves_kept_in m c 4 (by decide) t)); iexact H4
    isplitl [H5]; · iapply (hand_back_found m c 5 t (leaves_kept_in m c 5 (by decide) t)); iexact H5
    isplitl [H6]; · iapply (hand_back_found m c 6 t (leaves_kept_in m c 6 (by decide) t)); iexact H6
    isplitl [H7]; · iapply (hand_back_found m c 7 t (leaves_kept_in m c 7 (by decide) t)); iexact H7
    isplitl [H8]; · iapply (hand_back_found m c 8 t (leaves_kept_in m c 8 (by decide) t)); iexact H8
    isplitl [H9]; · iapply (hand_back m c 9 t _ (e9 ▸ leaves_kept_in m c 9 (by decide) t d9)); iexact H9
    isplitl [H10]
    · iapply (hand_back m c 10 t _ (leaves_live_10 m c t h40 _ (pay4_block m c t h40 d1' z2 hz2))); iexact H10
    iapply (hand_back_found m c 11 t (leaves_kept_11 m c t h40)); iexact H11

/-- The library's body obligation, at every point. -/
theorem body_obligation_exact (c : Dev nD) : Pipeline.BodyObligationLoose (dats m 0 c) (defs₀ (F := Ideal)) Variants.none () Set.univ := fun t => by
  rw [bigSep_W0, bigSep_W0]
  exact body_at m c t

/-! ## The run -/

set_option backward.isDefEq.respectTransparency.types false in
/-- At the compiled mesh, for any values, from any memory with zero counters: every weakly fair execution of the
    program on the TensorCores terminates, and every final state has every array of the pipeline at what the
    library computes from the proof data. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation_exact m) (hshare := fun c => (dats m 0 c).share_full fun _ => rfl)
    (howed := fun _ _ => rfl) (V := V m) (hmain := hmain m Variants.none) (hA := A_eq m) (hin := hin m) (hout := hout m)

end Cert.KernelIdeal.Hand

end
-- ==== Proof.KernelRun.lean ====
import proofs.«166228_g84250078479001_cont_9to1c4b_852_4_alg».proof.Proof.BodyI
import proofs.«166228_g84250078479001_cont_9to1c4b_852_4_alg».proof.Proof.Final
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The idealized kernel's run, with both output arrays named

From the exact run: the result's array ends holding `logistic (A · s2 + b2)`, the hidden embedding's array
`max (E · s1 + b1) 0`, and the ten argument arrays what they held. -/

theorem kernel_run :
    θ_run defs (onTc (τ := τ) (main (F := Ideal))) ⟨m, fun _ => 0, ρ⟩ (fun r => ∀ c : Dev nD,
      r.2.mem ((c.tc : Thread nD τ).loc main_v3_0) = outA m c
      ∧ r.2.mem ((c.tc : Thread nD τ).loc main_v3_1) = xeA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 10).trans (final_out m c), ((h c).1 11).trans (final_xe m c),
      ((h c).1 3).trans (((dats m 0 c).arrAt_in 3 rfl _).trans ((A_eq m c 3).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c))),
      ((h c).2 main_arg9 (Pipeline.mem_restRefs_of main_arg9 (by decide) (by decide))).trans (V_main_arg9 m c)⟩)
    (run_main m ρ)

end Cert.KernelIdeal.Hand

end
-- ==== Proof.Reference.lean ====
import proofs.«166228_g84250078479001_cont_9to1c4b_852_4_alg».proof.Defs
import proofs.«166228_g84250078479001_cont_9to1c4b_852_4_alg».proof.Proof.Gen.Pre_finite_inputs
import proofs.«166228_g84250078479001_cont_9to1c4b_852_4_alg».proof.Proof.Gen.ReferenceIdeal.Read
import proofs.«166228_g84250078479001_cont_9to1c4b_852_4_alg».proof.Proof.Spec
import Idealize.ShloMosaic.Lib.IdealHost
import Idealize.ShloMosaic.Lib.Pipeline.Value
import Idealize.ShloMosaic.Lib.ValueIdx

/-!
  The reference program's two results are the specification's arrays.

  The reference computes, one host operation at a time, `ynew = Y · Wfc + bfc`, the rows of `X` with the 16 rows of
  `ynew` laid under them, `s1 = xstar · W1`, `xe = max (E · s1 + b1) 0`, `s2 = xe · W2` and
  `out = 1 / (1 + exp (-(A · s2 + b2)))`. Each stage is read here at an index `(r, j)` given by its two coordinates,
  innermost stage first, so that every contraction is one sum whose terms are the previous stage's entries; a sum is
  never evaluated, only compared term by term. The two constants are the words of zero (the rectifier's floor) and of
  one (the logistic function's numerator and the summand of its denominator).
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read Cert.Spec

/-! ## Index equations: the contraction's operand indices, at a result index given by its coordinates -/

theorem lidx_v0 (r : Fin 16) (j : Fin 128) (k : Fin 256) : lidx_main_v0 (ix2 r j) k = ix2 r k :=
  funext fun a => Fin.ext (by match a with | ⟨0, _⟩ => rfl | ⟨1, _⟩ => rfl)
theorem ridx_v0 (r : Fin 16) (j : Fin 128) (k : Fin 256) : ridx_main_v0 (ix2 r j) k = ix2 k j :=
  funext fun a => Fin.ext (by match a with | ⟨0, _⟩ => rfl | ⟨1, _⟩ => rfl)
theorem idx_v1v2 (r : Fin 16) (j : Fin 128) : idx_main_v1 (idx_main_v2 (ix2 r j)) = ix1 j :=
  funext fun a => Fin.ext (by match a with | ⟨0, _⟩ => rfl)

/-- The mapped label rows: entry `(r, j)` of `Y · Wfc + bfc`. -/
theorem v3_at (x0 : T16x256.Idx → EReal) (x4 : T256x128.Idx → EReal) (x5 : T128.Idx → EReal) (r : Fin 16) (j : Fin 128) :
    val_main_v3 (F := Ideal) x0 x4 x5 (ix2 r j) = Cert.Spec.ynew x0 x4 x5 r j := by
  rw [val_main_v3_apply, val_main_v0_apply, val_main_v2_apply, val_main_v1_apply]
  simp only [Ideal.addf_def, lidx_v0, ridx_v0, idx_v1v2]
  rfl

/-- The augmented node features at a feature row: the first piece of the concatenation along the rows. -/
theorem v4_at_lo (x0 : T16x256.Idx → EReal) (x1 : T10000x128.Idx → EReal) (x4 : T256x128.Idx → EReal) (x5 : T128.Idx → EReal)
    (r : Fin 10016) (p : Fin 10000) (hp : p.val = r.val) (j : Fin 128) :
    val_main_v4 (F := Ideal) x0 x1 x4 x5 (ix2 r j) = x1 (ix2 p j) := by
  unfold val_main_v4
  exact concatenate_pair_apply_left 0 x1 _ _ (ix2 r j) rfl (ix2 p j) (fun b => by
    match b with
    | ⟨0, _⟩ => exact hp
    | ⟨1, _⟩ => rfl)

/-- The augmented node features at a label row: the second piece, 10000 rows further up, which is the mapped label row. -/
theorem v4_at_hi (x0 : T16x256.Idx → EReal) (x1 : T10000x128.Idx → EReal) (x4 : T256x128.Idx → EReal) (x5 : T128.Idx → EReal)
    (r : Fin 10016) (q : Fin 16) (hq : q.val + 10000 = r.val) (j : Fin 128) :
    val_main_v4 (F := Ideal) x0 x1 x4 x5 (ix2 r j) = Cert.Spec.ynew x0 x4 x5 q j := by
  unfold val_main_v4
  exact (concatenate_pair_apply_right 0 x1 (val_main_v3 (F := Ideal) x0 x4 x5)
    concatenates_S10000x128_S16x128_S10016x128_d0 (ix2 r j) rfl rfl (ix2 q j) (fun b hb => by
      match b, hb with
      | ⟨0, _⟩, hb => exact absurd rfl hb
      | ⟨1, _⟩, _ => rfl) hq).trans (v3_at x0 x4 x5 q j)

/-- The augmented node features at `(r, j)`: a feature row below 10000, a mapped label row from 10000 on. -/
theorem v4_at (x0 : T16x256.Idx → EReal) (x1 : T10000x128.Idx → EReal) (x4 : T256x128.Idx → EReal) (x5 : T128.Idx → EReal)
    (r : Fin 10016) (j : Fin 128) :
    val_main_v4 (F := Ideal) x0 x1 x4 x5 (ix2 r j) = Cert.Spec.xstar x0 x1 x4 x5 r j := by
  unfold Cert.Spec.xstar
  by_cases h : r.val < 10000
  · rw [dif_pos h]
    exact v4_at_lo x0 x1 x4 x5 r ⟨r.val, h⟩ rfl j
  · rw [dif_neg h]
    exact v4_at_hi x0 x1 x4 x5 r ⟨r.val - 10000, by omega⟩ (Nat.sub_add_cancel (Nat.le_of_not_lt h)) j

theorem lidx_v5 (r : Fin 10016) (j : Fin 32) (k : Fin 128) : lidx_main_v5 (ix2 r j) k = ix2 r k :=
  funext fun a => Fin.ext (by match a with | ⟨0, _⟩ => rfl | ⟨1, _⟩ => rfl)
theorem ridx_v5 (r : Fin 10016) (j : Fin 32) (k : Fin 128) : ridx_main_v5 (ix2 r j) k = ix2 k j :=
  funext fun a => Fin.ext (by match a with | ⟨0, _⟩ => rfl | ⟨1, _⟩ => rfl)

/-- The first layer's support at `(r, j)`. -/
theorem v5_at (x0 : T16x256.Idx → EReal) (x1 : T10000x128.Idx → EReal) (x4 : T256x128.Idx → EReal) (x5 : T128.Idx → EReal)
    (x6 : T128x32.Idx → EReal) (r : Fin 10016) (j : Fin 32) :
    val_main_v5 (F := Ideal) x0 x1 x4 x5 x6 (ix2 r j) = Cert.Spec.s1 x0 x1 x4 x5 x6 r j := by
  rw [val_main_v5_apply]
  unfold Cert.Spec.s1
  refine Finset.sum_congr rfl fun k _ => ?_
  rw [lidx_v5, ridx_v5, v4_at]

theorem lidx_v6 (r : Fin 10016) (j : Fin 32) (k : Fin 10016) : lidx_main_v6 (ix2 r j) k = ix2 r k :=
  funext fun a => Fin.ext (by match a with | ⟨0, _⟩ => rfl | ⟨1, _⟩ => rfl)
theorem ridx_v6 (r : Fin 10016) (j : Fin 32) (k : Fin 10016) : ridx_main_v6 (ix2 r j) k = ix2 k j :=
  funext fun a => Fin.ext (by match a with | ⟨0, _⟩ => rfl | ⟨1, _⟩ => rfl)
theorem idx_v7v8 (r : Fin 10016) (j : Fin 32) : idx_main_v7 (idx_main_v8 (ix2 r j)) = ix1 j :=
  funext fun a => Fin.ext (by match a with | ⟨0, _⟩ => rfl)

/-- The hidden embedding at `(r, j)`: the maximum of `E · s1 + b1` and the zero word, which is zero. -/
theorem v10_at (x0 : T16x256.Idx → EReal) (x1 : T10000x128.Idx → EReal) (x2 : T10016x10016.Idx → EReal)
    (x4 : T256x128.Idx → EReal) (x5 : T128.Idx → EReal) (x6 : T128x32.Idx → EReal) (x7 : T32.Idx → EReal)
    (r : Fin 10016) (j : Fin 32) :
    val_main_v10 (F := Ideal) x0 x1 x2 x4 x5 x6 x7 (ix2 r j) = Cert.Spec.xe x0 x1 x2 x4 x5 x6 x7 r j := by
  rw [val_main_v10_apply, val_main_v9_apply, val_main_v6_apply, val_main_v8_apply, val_main_v7_apply,
    val_main_call0_v0_apply, val_main_call0_cst_apply]
  simp only [Ideal.maximumf_def, Ideal.addf_def, Ideal.ofBits_def, Ideal.ofBits_zero_f32, idx_v7v8]
  unfold Cert.Spec.xe
  refine congrArg (fun t => max (t + x7 (ix1 j)) 0) ?_
  refine Finset.sum_congr rfl fun k _ => ?_
  rw [lidx_v6, ridx_v6, v5_at]

/-- The reference's hidden embedding is the specification's, as arrays. -/
theorem v10_eq_spec (x0 : T16x256.Idx → EReal) (x1 : T10000x128.Idx → EReal) (x2 : T10016x10016.Idx → EReal)
    (x4 : T256x128.Idx → EReal) (x5 : T128.Idx → EReal) (x6 : T128x32.Idx → EReal) (x7 : T32.Idx → EReal) :
    val_main_v10 (F := Ideal) x0 x1 x2 x4 x5 x6 x7 = Cert.Spec.xeArr x0 x1 x2 x4 x5 x6 x7 := by
  funext i
  obtain ⟨r, j, rfl⟩ : ∃ (r : Fin 10016) (j : Fin 32), i = ix2 r j := ⟨i 0, i 1, eq_ix2 i⟩
  exact v10_at x0 x1 x2 x4 x5 x6 x7 r j

theorem lidx_v11 (r : Fin 10016) (j : Fin 16) (k : Fin 32) : lidx_main_v11 (ix2 r j) k = ix2 r k :=
  funext fun a => Fin.ext (by match a with | ⟨0, _⟩ => rfl | ⟨1, _⟩ => rfl)
theorem ridx_v11 (r : Fin 10016) (j : Fin 16) (k : Fin 32) : ridx_main_v11 (ix2 r j) k = ix2 k j :=
  funext fun a => Fin.ext (by match a with | ⟨0, _⟩ => rfl | ⟨1, _⟩ => rfl)

/-- The second layer's support at `(r, j)`. -/
theorem v11_at (x0 : T16x256.Idx → EReal) (x1 : T10000x128.Idx → EReal) (x2 : T10016x10016.Idx → EReal)
    (x4 : T256x128.Idx → EReal) (x5 : T128.Idx → EReal) (x6 : T128x32.Idx → EReal) (x7 : T32.Idx → EReal)
    (x8 : T32x16.Idx → EReal) (r : Fin 10016) (j : Fin 16) :
    val_main_v11 (F := Ideal) x0 x1 x2 x4 x5 x6 x7 x8 (ix2 r j) = Cert.Spec.s2 x0 x1 x2 x4 x5 x6 x7 x8 r j := by
  rw [val_main_v11_apply]
  unfold Cert.Spec.s2
  refine Finset.sum_congr rfl fun k _ => ?_
  rw [lidx_v11, ridx_v11, v10_at]

theorem lidx_v12 (r : Fin 10016) (j : Fin 16) (k : Fin 10016) : lidx_main_v12 (ix2 r j) k = ix2 r k :=
  funext fun a => Fin.ext (by match a with | ⟨0, _⟩ => rfl | ⟨1, _⟩ => rfl)
theorem ridx_v12 (r : Fin 10016) (j : Fin 16) (k : Fin 10016) : ridx_main_v12 (ix2 r j) k = ix2 k j :=
  funext fun a => Fin.ext (by match a with | ⟨0, _⟩ => rfl | ⟨1, _⟩ => rfl)
theorem idx_v13v14 (r : Fin 10016) (j : Fin 16) : idx_main_v13 (idx_main_v14 (ix2 r j)) = ix1 j :=
  funext fun a => Fin.ext (by match a with | ⟨0, _⟩ => rfl)

/-- The result at `(r, j)`: the host spells the logistic function as `1 / (1 + exp (-x))`, both ones the word of one,
    which is the ideal instance's `logistic` by definition. -/
theorem v21_at (x0 : T16x256.Idx → EReal) (x1 : T10000x128.Idx → EReal) (x2 x3 : T10016x10016.Idx → EReal)
    (x4 : T256x128.Idx → EReal) (x5 : T128.Idx → EReal) (x6 : T128x32.Idx → EReal) (x7 : T32.Idx → EReal)
    (x8 : T32x16.Idx → EReal) (x9 : T16.Idx → EReal) (r : Fin 10016) (j : Fin 16) :
    val_main_v21 (F := Ideal) x0 x1 x2 x3 x4 x5 x6 x7 x8 x9 (ix2 r j)
      = Cert.Spec.out x0 x1 x2 x3 x4 x5 x6 x7 x8 x9 r j := by
  rw [val_main_v21_apply, val_main_v20_apply, val_main_cst_0_apply, val_main_v19_apply, val_main_v18_apply,
    val_main_cst_apply, val_main_v17_apply, val_main_v16_apply, val_main_v15_apply, val_main_v12_apply,
    val_main_v14_apply, val_main_v13_apply]
  simp only [Ideal.hostDivf_def, Ideal.addf_def, Ideal.hostUnary_exp_def, Ideal.hostNegf_def, Ideal.negf_def,
    Ideal.ofBits_def, Ideal.ofBits_one_f32, idx_v13v14]
  unfold Cert.Spec.out Ideal.logistic
  refine congrArg (fun t => Ideal.div 1 (1 + Ideal.exp (-(t + x9 (ix1 j))))) ?_
  refine Finset.sum_congr rfl fun k _ => ?_
  rw [lidx_v12, ridx_v12, v11_at]

/-- The reference's result is the specification's, as arrays. -/
theorem v21_eq_spec (x0 : T16x256.Idx → EReal) (x1 : T10000x128.Idx → EReal) (x2 x3 : T10016x10016.Idx → EReal)
    (x4 : T256x128.Idx → EReal) (x5 : T128.Idx → EReal) (x6 : T128x32.Idx → EReal) (x7 : T32.Idx → EReal)
    (x8 : T32x16.Idx → EReal) (x9 : T16.Idx → EReal) :
    val_main_v21 (F := Ideal) x0 x1 x2 x3 x4 x5 x6 x7 x8 x9 = Cert.Spec.outArr x0 x1 x2 x3 x4 x5 x6 x7 x8 x9 := by
  funext i
  obtain ⟨r, j, rfl⟩ : ∃ (r : Fin 10016) (j : Fin 16), i = ix2 r j := ⟨i 0, i 1, eq_ix2 i⟩
  exact v21_at x0 x1 x2 x3 x4 x5 x6 x7 x8 x9 r j

/-! ## The reference's run, its results named by the specification -/

/-- On every device, from any memory with zero counters, every weakly fair execution of the reference terminates
    with its two results the specification's arrays of the argument arrays, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = Cert.Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v10) = Cert.Spec.xeArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c).1.trans ((val_main_v21_eq (F := Ideal) _ _ _ _ _ _ _ _ _ _).trans (v21_eq_spec _ _ _ _ _ _ _ _ _ _)),
      (h c).2.1.trans ((val_main_v10_eq (F := Ideal) _ _ _ _ _ _ _).trans (v10_eq_spec _ _ _ _ _ _ _)),
      (h c).2.2⟩)
    (Cert.ReferenceIdeal.Value.run (F := Ideal) m ρ)

/-- The reference runs, and its argument arrays end unchanged. -/
theorem frame_ri : Cert.frame_ReferenceIdeal := fun m ρ _ =>
  (θ_run Cert.ReferenceIdeal.defs _ _).mono (fun _ h c => (h c).2.2)
    (Cert.ReferenceIdeal.Value.run (F := Ideal) m ρ)

end Cert.ReferenceIdeal.RefValue

end
-- ==== Proof.lean ====
/-
  The two-layer graph convolution kernel against its reference.

  The kernel streams the two 10016 x 10016 adjacency matrices through in blocks of 256 rows on a grid of 80
  points. At the first point it builds the first layer's support `s1 = [X; Y · Wfc + bfc] · W1` in a scratch
  buffer. At point `t < 40` it stores block `t` of the hidden embedding `max (E · s1 + b1) 0` and writes that
  block times `W2` into rows `256 t … 256 t + 255` of a second scratch buffer; at point `t ≥ 40` it stores block
  `t − 40` of `logistic (A · s2 + b2)`, reading the first 10016 rows of the second scratch. Block 39 overhangs
  the matrices by 224 rows: those rows of the staging buffers hold words nothing names, and because every entry
  of a matrix product reads ONE row of its left factor they reach only rows past the arrays' ends, which are
  never written back nor read. So over the extended reals the two output arrays are the specification's
  (`Cert.Spec`), which is what the reference's host operations compute as well.

  The frames: the word-level kernel runs to the end with relational proof data that says nothing of what the
  body leaves in a staging buffer (no access depends on a value); the idealized kernel's frame is read off its
  exact run; the reference's off its run.
-/
import proofs.«166228_g84250078479001_cont_9to1c4b_852_4_alg».proof.Defs
import proofs.«166228_g84250078479001_cont_9to1c4b_852_4_alg».proof.Proof.Gen.Kernel
import proofs.«166228_g84250078479001_cont_9to1c4b_852_4_alg».proof.Proof.Gen.KernelIdeal
import proofs.«166228_g84250078479001_cont_9to1c4b_852_4_alg».proof.Proof.Gen.ReferenceIdeal
import proofs.«166228_g84250078479001_cont_9to1c4b_852_4_alg».proof.Proof.Gen.Pre_finite_inputs
import proofs.«166228_g84250078479001_cont_9to1c4b_852_4_alg».proof.Proof.FrameK
import proofs.«166228_g84250078479001_cont_9to1c4b_852_4_alg».proof.Proof.KernelRun
import proofs.«166228_g84250078479001_cont_9to1c4b_852_4_alg».proof.Proof.Reference
import Idealize.ShloMosaic.Adequacy
import Idealize.ShloMosaic.Init

noncomputable section

namespace Cert.Proof

open Idealize.ShloMosaic Idealize.SL.Sem

/-- The word-level kernel terminates, faults nowhere and leaves its arguments unchanged. -/
theorem frame_k : Cert.frame_Kernel := fun m ρ _ => Cert.Kernel.Hand.frame_any (F := Bits) m ρ

/-- So does the idealized kernel: its exact run, read at the arguments. -/
theorem frame_ki : Cert.frame_KernelIdeal := fun m ρ _ =>
  (θ_run Cert.KernelIdeal.defs _ _).mono (fun _ h c => (h c).2.2) (Cert.KernelIdeal.Hand.kernel_run m ρ)

/-- Both idealized programs end with the specification's two arrays, from memories that agree on the arguments. -/
theorem algebraic : Cert.algebraic_KernelIdeal_ReferenceIdeal := by
  intro m ρ m' ρ' _ hagree
  refine ⟨fun c => Cert.KernelIdeal.Hand.outA m c, fun c => Cert.KernelIdeal.Hand.xeA m c, Cert.KernelIdeal.Hand.kernel_run m ρ, ?_⟩
  refine (θ_run Cert.ReferenceIdeal.defs _ _).mono (fun _ h c => ⟨(h c).1.trans ?_, (h c).2.1.trans ?_, (h c).2.2⟩)
    (Cert.ReferenceIdeal.RefValue.run_spec m' ρ')
  · unfold Cert.KernelIdeal.Hand.outA
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  · unfold Cert.KernelIdeal.Hand.xeA
    rw [(hagree c).1, (hagree c).2.1, (hagree c).2.2.1, (hagree c).2.2.2.2.1, (hagree c).2.2.2.2.2.1, (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
